-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1x28x28 : Shape := ⟨4, ![4096, 1, 28, 28]⟩
abbrev S84x896 : Shape := ⟨2, ![84, 896]⟩
abbrev S1x896 : Shape := ⟨2, ![1, 896]⟩
abbrev S1344x768 : Shape := ⟨2, ![1344, 768]⟩
abbrev S1x768 : Shape := ⟨2, ![1, 768]⟩
abbrev S2304x640 : Shape := ⟨2, ![2304, 640]⟩
abbrev S1x640 : Shape := ⟨2, ![1, 640]⟩
abbrev S640x128 : Shape := ⟨2, ![640, 128]⟩
abbrev S1x128 : Shape := ⟨2, ![1, 128]⟩
abbrev S128x10 : Shape := ⟨2, ![128, 10]⟩
abbrev S1x10 : Shape := ⟨2, ![1, 10]⟩
abbrev S_ : Shape := ⟨0, ![]⟩

class Facts : Prop where
  bcast_S_S4096x1x28x28 : S_.BroadcastsInDim S4096x1x28x28 (![] : Fin 0 → Fin S4096x1x28x28.rank)
  reducesTo_S4096x1x28x28_S_d0_1_2_3 : S4096x1x28x28.ReducesTo [0, 1, 2, 3] S_
  h_S_ : 0 < S_.numel
  bcast_S_S84x896 : S_.BroadcastsInDim S84x896 (![] : Fin 0 → Fin S84x896.rank)
  reducesTo_S84x896_S_d0_1 : S84x896.ReducesTo [0, 1] S_
  bcast_S_S1x896 : S_.BroadcastsInDim S1x896 (![] : Fin 0 → Fin S1x896.rank)
  reducesTo_S1x896_S_d0_1 : S1x896.ReducesTo [0, 1] S_
  bcast_S_S1344x768 : S_.BroadcastsInDim S1344x768 (![] : Fin 0 → Fin S1344x768.rank)
  reducesTo_S1344x768_S_d0_1 : S1344x768.ReducesTo [0, 1] S_
  bcast_S_S1x768 : S_.BroadcastsInDim S1x768 (![] : Fin 0 → Fin S1x768.rank)
  reducesTo_S1x768_S_d0_1 : S1x768.ReducesTo [0, 1] S_
  bcast_S_S2304x640 : S_.BroadcastsInDim S2304x640 (![] : Fin 0 → Fin S2304x640.rank)
  reducesTo_S2304x640_S_d0_1 : S2304x640.ReducesTo [0, 1] S_
  bcast_S_S1x640 : S_.BroadcastsInDim S1x640 (![] : Fin 0 → Fin S1x640.rank)
  reducesTo_S1x640_S_d0_1 : S1x640.ReducesTo [0, 1] S_
  bcast_S_S640x128 : S_.BroadcastsInDim S640x128 (![] : Fin 0 → Fin S640x128.rank)
  reducesTo_S640x128_S_d0_1 : S640x128.ReducesTo [0, 1] S_
  bcast_S_S1x128 : S_.BroadcastsInDim S1x128 (![] : Fin 0 → Fin S1x128.rank)
  reducesTo_S1x128_S_d0_1 : S1x128.ReducesTo [0, 1] S_
  bcast_S_S128x10 : S_.BroadcastsInDim S128x10 (![] : Fin 0 → Fin S128x10.rank)
  reducesTo_S128x10_S_d0_1 : S128x10.ReducesTo [0, 1] S_
  bcast_S_S1x10 : S_.BroadcastsInDim S1x10 (![] : Fin 0 → Fin S1x10.rank)
  reducesTo_S1x10_S_d0_1 : S1x10.ReducesTo [0, 1] S_

variable [Facts]

def fn_part3 {F : FTy → Type} [FloatOps F] (main_v48 : IVec S_ 1) (main_v49 : FVec F S1x10 .f32) (main_v50 : FVec F S1x10 .f32) : IVec S_ 1 :=
  let main_v51 : IVec S1x10 1 := cmpf .olt main_v49 main_v50
  let main_c_19 : IVec S_ 1 := constantI S_ 1 1#1
  let main_v52 : IVec S_ 1 := (fun x v => Host.reduce IntOp.andi x v reducesTo_S1x10_S_d0_1 h_S_) main_v51 main_c_19
  let main_v53 : IVec S_ 1 := andi main_v48 main_v52
  main_v53

def fn_part2 {F : FTy → Type} [FloatOps F] (main_arg7 : FVec F S640x128 .f32) (main_arg8 : FVec F S1x128 .f32) (main_arg9 : FVec F S128x10 .f32) (main_arg10 : FVec F S1x10 .f32) (main_v33 : IVec S_ 1) : IVec S_ 1 :=
  let main_v34 : FVec F S640x128 .f32 := Host.absf main_arg7
  let main_cst_12 : FVec F S_ .f32 := constant S_ .f32 0x7F800000#32
  let main_v35 : FVec F S640x128 .f32 := broadcastInDim S640x128 ![] bcast_S_S640x128 main_cst_12
  let main_v36 : IVec S640x128 1 := cmpf .olt main_v34 main_v35
  let main_c_13 : IVec S_ 1 := constantI S_ 1 1#1
  let main_v37 : IVec S_ 1 := (fun x v => Host.reduce IntOp.andi x v reducesTo_S640x128_S_d0_1 h_S_) main_v36 main_c_13
  let main_v38 : IVec S_ 1 := andi main_v33 main_v37
  let main_v39 : FVec F S1x128 .f32 := Host.absf main_arg8
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S128x10 .f32 := Host.absf main_arg9
  let main_cst_16 : FVec F S_ .f32 := constant S_ .f32 0x7F800000#32
  let main_v45 : FVec F S128x10 .f32 := broadcastInDim S128x10 ![] bcast_S_S128x10 main_cst_16
  let main_v46 : IVec S128x10 1 := cmpf .olt main_v44 main_v45
  let main_c_17 : IVec S_ 1 := constantI S_ 1 1#1
  let main_v47 : IVec S_ 1 := (fun x v => Host.reduce IntOp.andi x v reducesTo_S128x10_S_d0_1 h_S_) main_v46 main_c_17
  let main_v48 : IVec S_ 1 := andi main_v43 main_v47
  let main_v49 : FVec F S1x10 .f32 := Host.absf main_arg10
  let main_cst_18 : FVec F S_ .f32 := constant S_ .f32 0x7F800000#32
  let main_v50 : FVec F S1x10 .f32 := broadcastInDim S1x10 ![] bcast_S_S1x10 main_cst_18
  fn_part3 (F := F) main_v48 main_v49 main_v50

def fn_part1 {F : FTy → Type} [FloatOps F] (main_arg4 : FVec F S1x768 .f32) (main_arg5 : FVec F S2304x640 .f32) (main_arg6 : FVec F S1x640 .f32) (main_arg7 : FVec F S640x128 .f32) (main_arg8 : FVec F S1x128 .f32) (main_arg9 : FVec F S128x10 .f32) (main_arg10 : FVec F S1x10 .f32) (main_v13 : IVec S_ 1) (main_v16 : IVec S1344x768 1) : IVec S_ 1 :=
  let main_c_5 : IVec S_ 1 := constantI S_ 1 1#1
  let main_v17 : IVec S_ 1 := (fun x v => Host.reduce IntOp.andi x v reducesTo_S1344x768_S_d0_1 h_S_) main_v16 main_c_5
  let main_v18 : IVec S_ 1 := andi main_v13 main_v17
  let main_v19 : FVec F S1x768 .f32 := Host.absf main_arg4
  let main_cst_6 : FVec F S_ .f32 := constant S_ .f32 0x7F800000#32
  let main_v20 : FVec F S1x768 .f32 := broadcastInDim S1x768 ![] bcast_S_S1x768 main_cst_6
  let main_v21 : IVec S1x768 1 := cmpf .olt main_v19 main_v20
  let main_c_7 : IVec S_ 1 := constantI S_ 1 1#1
  let main_v22 : IVec S_ 1 := (fun x v => Host.reduce IntOp.andi x v reducesTo_S1x768_S_d0_1 h_S_) main_v21 main_c_7
  let main_v23 : IVec S_ 1 := andi main_v18 main_v22
  let main_v24 : FVec F S2304x640 .f32 := Host.absf main_arg5
  let main_cst_8 : FVec F S_ .f32 := constant S_ .f32 0x7F800000#32
  let main_v25 : FVec F S2304x640 .f32 := broadcastInDim S2304x640 ![] bcast_S_S2304x640 main_cst_8
  let main_v26 : IVec S2304x640 1 := cmpf .olt main_v24 main_v25
  let main_c_9 : IVec S_ 1 := constantI S_ 1 1#1
  let main_v27 : IVec S_ 1 := (fun x v => Host.reduce IntOp.andi x v reducesTo_S2304x640_S_d0_1 h_S_) main_v26 main_c_9
  let main_v28 : IVec S_ 1 := andi main_v23 main_v27
  let main_v29 : FVec F S1x640 .f32 := Host.absf main_arg6
  let main_cst_10 : FVec F S_ .f32 := constant S_ .f32 0x7F800000#32
  let main_v30 : FVec F S1x640 .f32 := broadcastInDim S1x640 ![] bcast_S_S1x640 main_cst_10
  let main_v31 : IVec S1x640 1 := cmpf .olt main_v29 main_v30
  let main_c_11 : IVec S_ 1 := constantI S_ 1 1#1
  let main_v32 : IVec S_ 1 := (fun x v => Host.reduce IntOp.andi x v reducesTo_S1x640_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1x28x28 .f32) (main_arg1 : FVec F S84x896 .f32) (main_arg2 : FVec F S1x896 .f32) (main_arg3 : FVec F S1344x768 .f32) (main_arg4 : FVec F S1x768 .f32) (main_arg5 : FVec F S2304x640 .f32) (main_arg6 : FVec F S1x640 .f32) (main_arg7 : FVec F S640x128 .f32) (main_arg8 : FVec F S1x128 .f32) (main_arg9 : FVec F S128x10 .f32) (main_arg10 : FVec F S1x10 .f32) : IVec S_ 1 :=
  let main_v0 : FVec F S4096x1x28x28 .f32 := Host.absf main_arg0
  let main_cst : FVec F S_ .f32 := constant S_ .f32 0x7F800000#32
  let main_v1 : FVec F S4096x1x28x28 .f32 := broadcastInDim S4096x1x28x28 ![] bcast_S_S4096x1x28x28 main_cst
  let main_v2 : IVec S4096x1x28x28 1 := cmpf .olt main_v0 main_v1
  let main_c : IVec S_ 1 := constantI S_ 1 1#1
  let main_v3 : IVec S_ 1 := (fun x v => Host.reduce IntOp.andi x v reducesTo_S4096x1x28x28_S_d0_1_2_3 h_S_) main_v2 main_c
  let main_v4 : FVec F S84x896 .f32 := Host.absf main_arg1
  let main_cst_0 : FVec F S_ .f32 := constant S_ .f32 0x7F800000#32
  let main_v5 : FVec F S84x896 .f32 := broadcastInDim S84x896 ![] bcast_S_S84x896 main_cst_0
  let main_v6 : IVec S84x896 1 := cmpf .olt main_v4 main_v5
  let main_c_1 : IVec S_ 1 := constantI S_ 1 1#1
  let main_v7 : IVec S_ 1 := (fun x v => Host.reduce IntOp.andi x v reducesTo_S84x896_S_d0_1 h_S_) main_v6 main_c_1
  let main_v8 : IVec S_ 1 := andi main_v3 main_v7
  let main_v9 : FVec F S1x896 .f32 := Host.absf main_arg2
  let main_cst_2 : FVec F S_ .f32 := constant S_ .f32 0x7F800000#32
  let main_v10 : FVec F S1x896 .f32 := broadcastInDim S1x896 ![] bcast_S_S1x896 main_cst_2
  let main_v11 : IVec S1x896 1 := cmpf .olt main_v9 main_v10
  let main_c_3 : IVec S_ 1 := constantI S_ 1 1#1
  let main_v12 : IVec S_ 1 := (fun x v => Host.reduce IntOp.andi x v reducesTo_S1x896_S_d0_1 h_S_) main_v11 main_c_3
  let main_v13 : IVec S_ 1 := andi main_v8 main_v12
  let main_v14 : FVec F S1344x768 .f32 := Host.absf main_arg3
  let main_cst_4 : FVec F S_ .f32 := constant S_ .f32 0x7F800000#32
  let main_v15 : FVec F S1344x768 .f32 := broadcastInDim S1344x768 ![] bcast_S_S1344x768 main_cst_4
  let main_v16 : IVec S1344x768 1 := cmpf .olt main_v14 main_v15
  fn_part1 (F := F) main_arg4 main_arg5 main_arg6 main_arg7 main_arg8 main_arg9 main_arg10 main_v13 main_v16
-- ==== Kernel.lean ====
abbrev S4096x1x28x28 : Shape := ⟨4, ![4096, 1, 28, 28]⟩
abbrev S84x896 : Shape := ⟨2, ![84, 896]⟩
abbrev S1x896 : Shape := ⟨2, ![1, 896]⟩
abbrev S1344x768 : Shape := ⟨2, ![1344, 768]⟩
abbrev S1x768 : Shape := ⟨2, ![1, 768]⟩
abbrev S2304x640 : Shape := ⟨2, ![2304, 640]⟩
abbrev S1x640 : Shape := ⟨2, ![1, 640]⟩
abbrev S640x128 : Shape := ⟨2, ![640, 128]⟩
abbrev S1x128 : Shape := ⟨2, ![1, 128]⟩
abbrev S128x10 : Shape := ⟨2, ![128, 10]⟩
abbrev S1x10 : Shape := ⟨2, ![1, 10]⟩
abbrev S448 : Shape := ⟨1, ![448]⟩
abbrev S384 : Shape := ⟨1, ![384]⟩
abbrev S4096x28x28 : Shape := ⟨3, ![4096, 28, 28]⟩
abbrev S_ : Shape := ⟨0, ![]⟩
abbrev S448x1 : Shape := ⟨2, ![448, 1]⟩
abbrev S84x448 : Shape := ⟨2, ![84, 448]⟩
abbrev S84x64 : Shape := ⟨2, ![84, 64]⟩
abbrev S84x1024 : Shape := ⟨2, ![84, 1024]⟩
abbrev S1x448 : Shape := ⟨2, ![1, 448]⟩
abbrev S1x64 : Shape := ⟨2, ![1, 64]⟩
abbrev S1x1024 : Shape := ⟨2, ![1, 1024]⟩
abbrev S64x768 : Shape := ⟨2, ![64, 768]⟩
abbrev S448x768 : Shape := ⟨2, ![448, 768]⟩
abbrev S1536x768 : Shape := ⟨2, ![1536, 768]⟩
abbrev S384x1 : Shape := ⟨2, ![384, 1]⟩
abbrev S1536x384 : Shape := ⟨2, ![1536, 384]⟩
abbrev S1x384 : Shape := ⟨2, ![1, 384]⟩
abbrev S4096x10 : Shape := ⟨2, ![4096, 10]⟩
abbrev S64x28x28 : Shape := ⟨3, ![64, 28, 28]⟩
abbrev S64x10 : Shape := ⟨2, ![64, 10]⟩
abbrev S64x1x28 : Shape := ⟨3, ![64, 1, 28]⟩
abbrev S64x27x28 : Shape := ⟨3, ![64, 27, 28]⟩
abbrev S64x28x84 : Shape := ⟨3, ![64, 28, 84]⟩
abbrev S1792x84 : Shape := ⟨2, ![1792, 84]⟩
abbrev S1792x1024 : Shape := ⟨2, ![1792, 1024]⟩
abbrev S896x2x1024 : Shape := ⟨3, ![896, 2, 1024]⟩
abbrev S896x1024 : Shape := ⟨2, ![896, 1024]⟩
abbrev S896x512 : Shape := ⟨2, ![896, 512]⟩
abbrev S64x14x512 : Shape := ⟨3, ![64, 14, 512]⟩
abbrev S64x12x512 : Shape := ⟨3, ![64, 12, 512]⟩
abbrev S64x12x1536 : Shape := ⟨3, ![64, 12, 1536]⟩
abbrev S768x1536 : Shape := ⟨2, ![768, 1536]⟩
abbrev S768x768 : Shape := ⟨2, ![768, 768]⟩
abbrev S384x2x768 : Shape := ⟨3, ![384, 2, 768]⟩
abbrev S384x768 : Shape := ⟨2, ![384, 768]⟩
abbrev S384x384 : Shape := ⟨2, ![384, 384]⟩
abbrev S64x6x384 : Shape := ⟨3, ![64, 6, 384]⟩
abbrev S64x1x384 : Shape := ⟨3, ![64, 1, 384]⟩
abbrev S64x384 : Shape := ⟨2, ![64, 384]⟩
abbrev S64x2304 : Shape := ⟨2, ![64, 2304]⟩
abbrev S64x640 : Shape := ⟨2, ![64, 640]⟩
abbrev S64x128 : Shape := ⟨2, ![64, 128]⟩
abbrev S64 : Shape := ⟨1, ![64]⟩
abbrev S64x1 : Shape := ⟨2, ![64, 1]⟩

abbrev nBuf : Space → Nat
  | .hbm => 91
  | .vmem => 14
  | .smem => 0
  | _ => 0

abbrev bufTy : (tb : Table) → Fin (tcTables nBuf tb) → BufTy
  | .hbm, ⟨0, _⟩ => ⟨S4096x1x28x28, .f32⟩
  | .hbm, ⟨1, _⟩ => ⟨S84x896, .f32⟩
  | .hbm, ⟨2, _⟩ => ⟨S1x896, .f32⟩
  | .hbm, ⟨3, _⟩ => ⟨S1344x768, .f32⟩
  | .hbm, ⟨4, _⟩ => ⟨S1x768, .f32⟩
  | .hbm, ⟨5, _⟩ => ⟨S2304x640, .f32⟩
  | .hbm, ⟨6, _⟩ => ⟨S1x640, .f32⟩
  | .hbm, ⟨7, _⟩ => ⟨S640x128, .f32⟩
  | .hbm, ⟨8, _⟩ => ⟨S1x128, .f32⟩
  | .hbm, ⟨9, _⟩ => ⟨S128x10, .f32⟩
  | .hbm, ⟨10, _⟩ => ⟨S1x10, .f32⟩
  | .hbm, ⟨11, _⟩ => ⟨S448, .i32⟩
  | .hbm, ⟨12, _⟩ => ⟨S448, .i1⟩
  | .hbm, ⟨13, _⟩ => ⟨S448, .i32⟩
  | .hbm, ⟨14, _⟩ => ⟨S448, .i1⟩
  | .hbm, ⟨15, _⟩ => ⟨S448, .i1⟩
  | .hbm, ⟨16, _⟩ => ⟨S448, .i1⟩
  | .hbm, ⟨17, _⟩ => ⟨S384, .i32⟩
  | .hbm, ⟨18, _⟩ => ⟨S384, .i1⟩
  | .hbm, ⟨19, _⟩ => ⟨S384, .i32⟩
  | .hbm, ⟨20, _⟩ => ⟨S384, .i1⟩
  | .hbm, ⟨21, _⟩ => ⟨S384, .i1⟩
  | .hbm, ⟨22, _⟩ => ⟨S384, .i1⟩
  | .hbm, ⟨23, _⟩ => ⟨S4096x28x28, .f32⟩
  | .hbm, ⟨24, _⟩ => ⟨S_, .i32⟩
  | .hbm, ⟨25, _⟩ => ⟨S448, .i32⟩
  | .hbm, ⟨26, _⟩ => ⟨S448, .i32⟩
  | .hbm, ⟨27, _⟩ => ⟨S448, .i32⟩
  | .hbm, ⟨28, _⟩ => ⟨S448x1, .i32⟩
  | .hbm, ⟨29, _⟩ => ⟨S84x448, .f32⟩
  | .hbm, ⟨30, _⟩ => ⟨S_, .f32⟩
  | .hbm, ⟨31, _⟩ => ⟨S84x64, .f32⟩
  | .hbm, ⟨32, _⟩ => ⟨S_, .i32⟩
  | .hbm, ⟨33, _⟩ => ⟨S448, .i32⟩
  | .hbm, ⟨34, _⟩ => ⟨S448, .i32⟩
  | .hbm, ⟨35, _⟩ => ⟨S448, .i32⟩
  | .hbm, ⟨36, _⟩ => ⟨S448x1, .i32⟩
  | .hbm, ⟨37, _⟩ => ⟨S84x448, .f32⟩
  | .hbm, ⟨38, _⟩ => ⟨S_, .f32⟩
  | .hbm, ⟨39, _⟩ => ⟨S84x64, .f32⟩
  | .hbm, ⟨40, _⟩ => ⟨S84x1024, .f32⟩
  | .hbm, ⟨41, _⟩ => ⟨S_, .i32⟩
  | .hbm, ⟨42, _⟩ => ⟨S448, .i32⟩
  | .hbm, ⟨43, _⟩ => ⟨S448, .i32⟩
  | .hbm, ⟨44, _⟩ => ⟨S448, .i32⟩
  | .hbm, ⟨45, _⟩ => ⟨S448x1, .i32⟩
  | .hbm, ⟨46, _⟩ => ⟨S1x448, .f32⟩
  | .hbm, ⟨47, _⟩ => ⟨S_, .f32⟩
  | .hbm, ⟨48, _⟩ => ⟨S1x64, .f32⟩
  | .hbm, ⟨49, _⟩ => ⟨S_, .i32⟩
  | .hbm, ⟨50, _⟩ => ⟨S448, .i32⟩
  | .hbm, ⟨51, _⟩ => ⟨S448, .i32⟩
  | .hbm, ⟨52, _⟩ => ⟨S448, .i32⟩
  | .hbm, ⟨53, _⟩ => ⟨S448x1, .i32⟩
  | .hbm, ⟨54, _⟩ => ⟨S1x448, .f32⟩
  | .hbm, ⟨55, _⟩ => ⟨S_, .f32⟩
  | .hbm, ⟨56, _⟩ => ⟨S1x64, .f32⟩
  | .hbm, ⟨57, _⟩ => ⟨S1x1024, .f32⟩
  | .hbm, ⟨58, _⟩ => ⟨S_, .f32⟩
  | .hbm, ⟨59, _⟩ => ⟨S64x768, .f32⟩
  | .hbm, ⟨60, _⟩ => ⟨S448x768, .f32⟩
  | .hbm, ⟨61, _⟩ => ⟨S448x768, .f32⟩
  | .hbm, ⟨62, _⟩ => ⟨S448x768, .f32⟩
  | .hbm, ⟨63, _⟩ => ⟨S1536x768, .f32⟩
  | .hbm, ⟨64, _⟩ => ⟨S_, .i32⟩
  | .hbm, ⟨65, _⟩ => ⟨S384, .i32⟩
  | .hbm, ⟨66, _⟩ => ⟨S384, .i32⟩
  | .hbm, ⟨67, _⟩ => ⟨S384, .i32⟩
  | .hbm, ⟨68, _⟩ => ⟨S384x1, .i32⟩
  | .hbm, ⟨69, _⟩ => ⟨S1536x384, .f32⟩
  | .hbm, ⟨70, _⟩ => ⟨S_, .i32⟩
  | .hbm, ⟨71, _⟩ => ⟨S384, .i32⟩
  | .hbm, ⟨72, _⟩ => ⟨S384, .i32⟩
  | .hbm, ⟨73, _⟩ => ⟨S384, .i32⟩
  | .hbm, ⟨74, _⟩ => ⟨S384x1, .i32⟩
  | .hbm, ⟨75, _⟩ => ⟨S1536x384, .f32⟩
  | .hbm, ⟨76, _⟩ => ⟨S1536x768, .f32⟩
  | .hbm, ⟨77, _⟩ => ⟨S_, .i32⟩
  | .hbm, ⟨78, _⟩ => ⟨S384, .i32⟩
  | .hbm, ⟨79, _⟩ => ⟨S384, .i32⟩
  | .hbm, ⟨80, _⟩ => ⟨S384, .i32⟩
  | .hbm, ⟨81, _⟩ => ⟨S384x1, .i32⟩
  | .hbm, ⟨82, _⟩ => ⟨S1x384, .f32⟩
  | .hbm, ⟨83, _⟩ => ⟨S_, .i32⟩
  | .hbm, ⟨84, _⟩ => ⟨S384, .i32⟩
  | .hbm, ⟨85, _⟩ => ⟨S384, .i32⟩
  | .hbm, ⟨86, _⟩ => ⟨S384, .i32⟩
  | .hbm, ⟨87, _⟩ => ⟨S384x1, .i32⟩
  | .hbm, ⟨88, _⟩ => ⟨S1x384, .f32⟩
  | .hbm, ⟨89, _⟩ => ⟨S1x768, .f32⟩
  | .hbm, ⟨90, _⟩ => ⟨S4096x10, .f32⟩
  | .local _ .vmem, ⟨0, _⟩ => ⟨S64x28x28, .f32⟩
  | .local _ .vmem, ⟨1, _⟩ => ⟨S64x28x28, .f32⟩
  | .local _ .vmem, ⟨2, _⟩ => ⟨S84x1024, .f32⟩
  | .local _ .vmem, ⟨3, _⟩ => ⟨S1x1024, .f32⟩
  | .local _ .vmem, ⟨4, _⟩ => ⟨S1536x768, .f32⟩
  | .local _ .vmem, ⟨5, _⟩ => ⟨S1x768, .f32⟩
  | .local _ .vmem, ⟨6, _⟩ => ⟨S2304x640, .f32⟩
  | .local _ .vmem, ⟨7, _⟩ => ⟨S1x640, .f32⟩
  | .local _ .vmem, ⟨8, _⟩ => ⟨S640x128, .f32⟩
  | .local _ .vmem, ⟨9, _⟩ => ⟨S1x128, .f32⟩
  | .local _ .vmem, ⟨10, _⟩ => ⟨S128x10, .f32⟩
  | .local _ .vmem, ⟨11, _⟩ => ⟨S1x10, .f32⟩
  | .local _ .vmem, ⟨12, _⟩ => ⟨S64x10, .f32⟩
  | .local _ .vmem, ⟨13, _⟩ => ⟨S64x10, .f32⟩
  | _, _ => ⟨S4096x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_c_2 : Ref sig .tc := ⟨.hbm, 14, rfl⟩
abbrev main_c_3 : Ref sig .tc := ⟨.hbm, 15, rfl⟩
abbrev main_c_4 : Ref sig .tc := ⟨.hbm, 16, rfl⟩
abbrev main_c_5 : Ref sig .tc := ⟨.hbm, 17, rfl⟩
abbrev main_c_6 : Ref sig .tc := ⟨.hbm, 18, rfl⟩
abbrev main_c_7 : Ref sig .tc := ⟨.hbm, 19, rfl⟩
abbrev main_c_8 : Ref sig .tc := ⟨.hbm, 20, rfl⟩
abbrev main_c_9 : Ref sig .tc := ⟨.hbm, 21, rfl⟩
abbrev main_c_10 : Ref sig .tc := ⟨.hbm, 22, rfl⟩
abbrev main_v0 : Ref sig .tc := ⟨.hbm, 23, rfl⟩
abbrev main_c_11 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_cst : Ref sig .tc := ⟨.hbm, 30, rfl⟩
abbrev main_v6 : Ref sig .tc := ⟨.hbm, 31, rfl⟩
abbrev main_c_12 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_13 : Ref sig .tc := ⟨.hbm, 38, rfl⟩
abbrev main_v12 : Ref sig .tc := ⟨.hbm, 39, rfl⟩
abbrev main_v13 : Ref sig .tc := ⟨.hbm, 40, rfl⟩
abbrev main_c_14 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst_15 : Ref sig .tc := ⟨.hbm, 47, rfl⟩
abbrev main_v19 : Ref sig .tc := ⟨.hbm, 48, rfl⟩
abbrev main_c_16 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_17 : Ref sig .tc := ⟨.hbm, 55, rfl⟩
abbrev main_v25 : Ref sig .tc := ⟨.hbm, 56, rfl⟩
abbrev main_v26 : Ref sig .tc := ⟨.hbm, 57, rfl⟩
abbrev main_cst_18 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_c_19 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_c_20 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_c_21 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_c_22 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x28x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S84x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2304x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x640 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S640x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S64x10 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S4096x1x28x28_S4096x28x28 : S4096x1x28x28.ShapeCasts S4096x28x28
  bcast_S_S448 : S_.BroadcastsInDim S448 (![] : Fin 0 → Fin S448.rank)
  bcast_S448_S448x1_0 : S448.BroadcastsInDim S448x1 (![0] : Fin 1 → Fin S448x1.rank)
  bcast_S_S84x64 : S_.BroadcastsInDim S84x64 (![] : Fin 0 → Fin S84x64.rank)
  concatenates_S84x448_S84x64_S84x448_S84x64_S84x1024_d1 : Shape.Concatenates [S84x448, S84x64, S84x448, S84x64] S84x1024 1
  bcast_S_S1x64 : S_.BroadcastsInDim S1x64 (![] : Fin 0 → Fin S1x64.rank)
  concatenates_S1x448_S1x64_S1x448_S1x64_S1x1024_d1 : Shape.Concatenates [S1x448, S1x64, S1x448, S1x64] S1x1024 1
  bcast_S_S64x768 : S_.BroadcastsInDim S64x768 (![] : Fin 0 → Fin S64x768.rank)
  slices_S1344x768_S448x768_0_0 : S1344x768.Slices ![0, 0] S448x768
  slices_S1344x768_S448x768_448_0 : S1344x768.Slices ![448, 0] S448x768
  slices_S1344x768_S448x768_896_0 : S1344x768.Slices ![896, 0] S448x768
  concatenates_S448x768_S64x768_S448x768_S64x768_S448x768_S64x768_S1536x768_d0 : Shape.Concatenates [S448x768, S64x768, S448x768, S64x768, S448x768, S64x768] S1536x768 0
  bcast_S_S384 : S_.BroadcastsInDim S384 (![] : Fin 0 → Fin S384.rank)
  bcast_S384_S384x1_0 : S384.BroadcastsInDim S384x1 (![0] : Fin 1 → Fin S384x1.rank)
  concatenates_S1536x384_S1536x384_S1536x768_d1 : Shape.Concatenates [S1536x384, S1536x384] S1536x768 1
  concatenates_S1x384_S1x384_S1x768_d1 : Shape.Concatenates [S1x384, S1x384] S1x768 1
  inb_S64x28x28_S64x28x28_0_0_0 : ∀ a, (![0, 0, 0] : Fin 3 → Nat) a + S64x28x28.size a ≤ S64x28x28.size a
  h_S64x28x28 : 0 < S64x28x28.numel
  shapeCasts_S64x28x28_S64x28x28 : S64x28x28.ShapeCasts S64x28x28
  slices_S64x28x28_o0_0_0_S64x27x28 : S64x28x28.Slices ![0, 0, 0] S64x27x28
  concatenates_S64x1x28_S64x27x28_S64x28x28_d1 : Shape.Concatenates [S64x1x28, S64x27x28] S64x28x28 1
  slices_S64x28x28_o0_1_0_S64x27x28 : S64x28x28.Slices ![0, 1, 0] S64x27x28
  concatenates_S64x27x28_S64x1x28_S64x28x28_d1 : Shape.Concatenates [S64x27x28, S64x1x28] S64x28x28 1
  concatenates_S64x28x28_S64x28x28_S64x28x28_S64x28x84_d2 : Shape.Concatenates [S64x28x28, S64x28x28, S64x28x28] S64x28x84 2
  shapeCasts_S64x28x84_S1792x84 : S64x28x84.ShapeCasts S1792x84
  inb_S84x1024_S84x1024_0_0 : ∀ a, (![0, 0] : Fin 2 → Nat) a + S84x1024.size a ≤ S84x1024.size a
  h_S84x1024 : 0 < S84x1024.numel
  shapeCasts_S84x1024_S84x1024 : S84x1024.ShapeCasts S84x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1792x1024 : S1x1024.Broadcasts S1792x1024
  shapeCasts_S1792x1024_S896x2x1024 : S1792x1024.ShapeCasts S896x2x1024
  reduces_S896x2x1024_S896x1024 : S896x2x1024.Reduces [1] S896x1024
  slices_S896x1024_o0_0_S896x512 : S896x1024.Slices ![0, 0] S896x512
  slices_S896x1024_o0_512_S896x512 : S896x1024.Slices ![0, 512] S896x512
  shapeCasts_S896x512_S64x14x512 : S896x512.ShapeCasts S64x14x512
  slices_S64x14x512_o0_0_0_S64x12x512 : S64x14x512.Slices ![0, 0, 0] S64x12x512
  slices_S64x14x512_o0_1_0_S64x12x512 : S64x14x512.Slices ![0, 1, 0] S64x12x512
  slices_S64x14x512_o0_2_0_S64x12x512 : S64x14x512.Slices ![0, 2, 0] S64x12x512
  concatenates_S64x12x512_S64x12x512_S64x12x512_S64x12x1536_d2 : Shape.Concatenates [S64x12x512, S64x12x512, S64x12x512] S64x12x1536 2
  shapeCasts_S64x12x1536_S768x1536 : S64x12x1536.ShapeCasts S768x1536
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S768x768 : S1x768.Broadcasts S768x768
  shapeCasts_S768x768_S384x2x768 : S768x768.ShapeCasts S384x2x768
  reduces_S384x2x768_S384x768 : S384x2x768.Reduces [1] S384x768
  slices_S384x768_o0_0_S384x384 : S384x768.Slices ![0, 0] S384x384
  slices_S384x768_o0_384_S384x384 : S384x768.Slices ![0, 384] S384x384
  shapeCasts_S384x384_S64x6x384 : S384x384.ShapeCasts S64x6x384
  slices_S64x6x384_o0_0_0_S64x1x384 : S64x6x384.Slices ![0, 0, 0] S64x1x384
  shapeCasts_S64x1x384_S64x384 : S64x1x384.ShapeCasts S64x384
  slices_S64x6x384_o0_1_0_S64x1x384 : S64x6x384.Slices ![0, 1, 0] S64x1x384
  slices_S64x6x384_o0_2_0_S64x1x384 : S64x6x384.Slices ![0, 2, 0] S64x1x384
  slices_S64x6x384_o0_3_0_S64x1x384 : S64x6x384.Slices ![0, 3, 0] S64x1x384
  slices_S64x6x384_o0_4_0_S64x1x384 : S64x6x384.Slices ![0, 4, 0] S64x1x384
  slices_S64x6x384_o0_5_0_S64x1x384 : S64x6x384.Slices ![0, 5, 0] S64x1x384
  concatenates_S64x384_S64x384_S64x384_S64x384_S64x384_S64x384_S64x2304_d1 : Shape.Concatenates [S64x384, S64x384, S64x384, S64x384, S64x384, S64x384] S64x2304 1
  inb_S2304x640_S2304x640_0_0 : ∀ a, (![0, 0] : Fin 2 → Nat) a + S2304x640.size a ≤ S2304x640.size a
  h_S2304x640 : 0 < S2304x640.numel
  inb_S1x640_S1x640_0_0 : ∀ a, (![0, 0] : Fin 2 → Nat) a + S1x640.size a ≤ S1x640.size a
  h_S1x640 : 0 < S1x640.numel
  broadcasts_S1x640_S64x640 : S1x640.Broadcasts S64x640
  inb_S640x128_S640x128_0_0 : ∀ a, (![0, 0] : Fin 2 → Nat) a + S640x128.size a ≤ S640x128.size a
  h_S640x128 : 0 < S640x128.numel
  inb_S1x128_S1x128_0_0 : ∀ a, (![0, 0] : Fin 2 → Nat) a + S1x128.size a ≤ S1x128.size a
  h_S1x128 : 0 < S1x128.numel
  broadcasts_S1x128_S64x128 : S1x128.Broadcasts S64x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  broadcasts_S1x10_S64x10 : S1x10.Broadcasts S64x10
  reduces_S64x10_S64 : S64x10.Reduces [1] S64
  shapeCasts_S64_S64x1 : S64.ShapeCasts S64x1
  broadcasts_S64x1_S64x10 : S64x1.Broadcasts S64x10
  inb_S64x10_S64x10_0_0 : ∀ a, (![0, 0] : Fin 2 → Nat) a + S64x10.size a ≤ S64x10.size a
  h_S64x10 : 0 < S64x10.numel
  gather_S84x896_S448x1_S84x448_0_1_n_n_1_1_841_wf : GatherDims.WF S84x896 S448x1 S84x448 [0] [1] [] [1] [] 1 ![84, 1]
  gather_S1x896_S448x1_S1x448_0_1_n_n_1_1_11_wf : GatherDims.WF S1x896 S448x1 S1x448 [0] [1] [] [1] [] 1 ![1, 1]
  gather_S1536x768_S384x1_S1536x384_0_1_n_n_1_1_15361_wf : GatherDims.WF S1536x768 S384x1 S1536x384 [0] [1] [] [1] [] 1 ![1536, 1]
  gather_S1x768_S384x1_S1x384_0_1_n_n_1_1_11_wf : GatherDims.WF S1x768 S384x1 S1x384 [0] [1] [] [1] [] 1 ![1, 1]
  dot_S1792x84_S84x1024_S1792x1024_1_0_0_1_n_n_wf : DotDims.WF S1792x84 S84x1024 S1792x1024 [1] [0] [0] [1] [] []
  dot_S768x1536_S1536x768_S768x768_1_0_0_1_n_n_wf : DotDims.WF S768x1536 S1536x768 S768x768 [1] [0] [0] [1] [] []
  dot_S64x2304_S2304x640_S64x640_1_0_0_1_n_n_wf : DotDims.WF S64x2304 S2304x640 S64x640 [1] [0] [0] [1] [] []
  dot_S64x640_S640x128_S64x128_1_0_0_1_n_n_wf : DotDims.WF S64x640 S640x128 S64x128 [1] [0] [0] [1] [] []
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x28x28.size a ≤ S4096x28x28.size a
  hwx0_0 : ∀ i : grid0.Coords, EltTy.bits .f32 = 32 ∨ (Rect.block (s := S4096x28x28) S64x28x28.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S84x1024.size a ≤ S84x1024.size a
  hwx0_1 : ∀ i : grid0.Coords, EltTy.bits .f32 = 32 ∨ (Rect.block (s := S84x1024) S84x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1536x768.size a ≤ S1536x768.size a
  hwx0_3 : ∀ i : grid0.Coords, EltTy.bits .f32 = 32 ∨ (Rect.block (s := S1536x768) S1536x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2304x640.size a ≤ S2304x640.size a
  hwx0_5 : ∀ i : grid0.Coords, EltTy.bits .f32 = 32 ∨ (Rect.block (s := S2304x640) S2304x640.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x640.size a ≤ S1x640.size a
  hwx0_6 : ∀ i : grid0.Coords, EltTy.bits .f32 = 32 ∨ (Rect.block (s := S1x640) S1x640.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S640x128.size a ≤ S640x128.size a
  hwx0_7 : ∀ i : grid0.Coords, EltTy.bits .f32 = 32 ∨ (Rect.block (s := S640x128) S640x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x10.size a ≤ S128x10.size a
  hwx0_9 : ∀ i : grid0.Coords, EltTy.bits .f32 = 32 ∨ (Rect.block (s := S128x10) S128x10.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x10.size a ≤ S1x10.size a
  hwx0_10 : ∀ i : grid0.Coords, EltTy.bits .f32 = 32 ∨ (Rect.block (s := S1x10) S1x10.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S64x10.size a ≤ S4096x10.size a
  hwx0_11 : ∀ i : grid0.Coords, EltTy.bits .f32 = 32 ∨ (Rect.block (s := S4096x10) S64x10.size (cc0_transform_11 i) (hinb0_11 i)).WholeWords (EltTy.packing .f32)

variable [Facts₀]

def gather_S84x896_S448x1_S84x448_0_1_n_n_1_1_841 : GatherDims S84x896 S448x1 S84x448 where
  offsetDims := [0]
  collapsedSliceDims := [1]
  operandBatchingDims := []
  startIndicesBatchingDims := []
  startIndexMap := [1]
  indexVectorDim := 1
  sliceSizes := ![84, 1]
  wf := gather_S84x896_S448x1_S84x448_0_1_n_n_1_1_841_wf
def gather_S1x896_S448x1_S1x448_0_1_n_n_1_1_11 : GatherDims S1x896 S448x1 S1x448 where
  offsetDims := [0]
  collapsedSliceDims := [1]
  operandBatchingDims := []
  startIndicesBatchingDims := []
  startIndexMap := [1]
  indexVectorDim := 1
  sliceSizes := ![1, 1]
  wf := gather_S1x896_S448x1_S1x448_0_1_n_n_1_1_11_wf
def gather_S1536x768_S384x1_S1536x384_0_1_n_n_1_1_15361 : GatherDims S1536x768 S384x1 S1536x384 where
  offsetDims := [0]
  collapsedSliceDims := [1]
  operandBatchingDims := []
  startIndicesBatchingDims := []
  startIndexMap := [1]
  indexVectorDim := 1
  sliceSizes := ![1536, 1]
  wf := gather_S1536x768_S384x1_S1536x384_0_1_n_n_1_1_15361_wf
def gather_S1x768_S384x1_S1x384_0_1_n_n_1_1_11 : GatherDims S1x768 S384x1 S1x384 where
  offsetDims := [0]
  collapsedSliceDims := [1]
  operandBatchingDims := []
  startIndicesBatchingDims := []
  startIndexMap := [1]
  indexVectorDim := 1
  sliceSizes := ![1, 1]
  wf := gather_S1x768_S384x1_S1x384_0_1_n_n_1_1_11_wf
def dot_S1792x84_S84x1024_S1792x1024_1_0_0_1_n_n : DotDims S1792x84 S84x1024 S1792x1024 where
  lhsContracting := [1]
  rhsContracting := [0]
  lhsNonContracting := [0]
  rhsNonContracting := [1]
  lhsBatch := []
  rhsBatch := []
  wf := dot_S1792x84_S84x1024_S1792x1024_1_0_0_1_n_n_wf
def dot_S768x1536_S1536x768_S768x768_1_0_0_1_n_n : DotDims S768x1536 S1536x768 S768x768 where
  lhsContracting := [1]
  rhsContracting := [0]
  lhsNonContracting := [0]
  rhsNonContracting := [1]
  lhsBatch := []
  rhsBatch := []
  wf := dot_S768x1536_S1536x768_S768x768_1_0_0_1_n_n_wf
def dot_S64x2304_S2304x640_S64x640_1_0_0_1_n_n : DotDims S64x2304 S2304x640 S64x640 where
  lhsContracting := [1]
  rhsContracting := [0]
  lhsNonContracting := [0]
  rhsNonContracting := [1]
  lhsBatch := []
  rhsBatch := []
  wf := dot_S64x2304_S2304x640_S64x640_1_0_0_1_n_n_wf
def dot_S64x640_S640x128_S64x128_1_0_0_1_n_n : DotDims S64x640 S640x128 S64x128 where
  lhsContracting := [1]
  rhsContracting := [0]
  lhsNonContracting := [0]
  rhsNonContracting := [1]
  lhsBatch := []
  rhsBatch := []
  wf := dot_S64x640_S640x128_S64x128_1_0_0_1_n_n_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_v0) S64x28x28.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S84x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v42) S1536x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v53) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2304x640.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x640.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S640x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x10.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x10.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v54) S64x10.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x1x28x28 : Shape := ⟨4, ![4096, 1, 28, 28]⟩
abbrev S84x896 : Shape := ⟨2, ![84, 896]⟩
abbrev S1x896 : Shape := ⟨2, ![1, 896]⟩
abbrev S1344x768 : Shape := ⟨2, ![1344, 768]⟩
abbrev S1x768 : Shape := ⟨2, ![1, 768]⟩
abbrev S2304x640 : Shape := ⟨2, ![2304, 640]⟩
abbrev S1x640 : Shape := ⟨2, ![1, 640]⟩
abbrev S640x128 : Shape := ⟨2, ![640, 128]⟩
abbrev S1x128 : Shape := ⟨2, ![1, 128]⟩
abbrev S128x10 : Shape := ⟨2, ![128, 10]⟩
abbrev S1x10 : Shape := ⟨2, ![1, 10]⟩
abbrev S4096x28x28 : Shape := ⟨3, ![4096, 28, 28]⟩
abbrev S4096x2304 : Shape := ⟨2, ![4096, 2304]⟩
abbrev S8x28x28 : Shape := ⟨3, ![8, 28, 28]⟩
abbrev S8x2304 : Shape := ⟨2, ![8, 2304]⟩
abbrev S8x1x28 : Shape := ⟨3, ![8, 1, 28]⟩
abbrev S8x27x28 : Shape := ⟨3, ![8, 27, 28]⟩
abbrev S8x28x84 : Shape := ⟨3, ![8, 28, 84]⟩
abbrev S224x84 : Shape := ⟨2, ![224, 84]⟩
abbrev S224x896 : Shape := ⟨2, ![224, 896]⟩
abbrev S8x14x2x896 : Shape := ⟨4, ![8, 14, 2, 896]⟩
abbrev S8x14x896 : Shape := ⟨3, ![8, 14, 896]⟩
abbrev S8x14x32 : Shape := ⟨3, ![8, 14, 32]⟩
abbrev S8x14x448 : Shape := ⟨3, ![8, 14, 448]⟩
abbrev S8x12x448 : Shape := ⟨3, ![8, 12, 448]⟩
abbrev S8x12x1344 : Shape := ⟨3, ![8, 12, 1344]⟩
abbrev S96x1344 : Shape := ⟨2, ![96, 1344]⟩
abbrev S96x768 : Shape := ⟨2, ![96, 768]⟩
abbrev S8x6x2x768 : Shape := ⟨4, ![8, 6, 2, 768]⟩
abbrev S8x6x768 : Shape := ⟨3, ![8, 6, 768]⟩
abbrev S8x6x64 : Shape := ⟨3, ![8, 6, 64]⟩
abbrev S8x6x384 : Shape := ⟨3, ![8, 6, 384]⟩
abbrev S8x1x384 : Shape := ⟨3, ![8, 1, 384]⟩
abbrev S8x384 : Shape := ⟨2, ![8, 384]⟩
abbrev S4096x10 : Shape := ⟨2, ![4096, 10]⟩
abbrev S8x10 : Shape := ⟨2, ![8, 10]⟩
abbrev S8x640 : Shape := ⟨2, ![8, 640]⟩
abbrev S8x128 : Shape := ⟨2, ![8, 128]⟩
abbrev S8 : Shape := ⟨1, ![8]⟩
abbrev S8x1 : Shape := ⟨2, ![8, 1]⟩

abbrev nBuf : Space → Nat
  | .hbm => 14
  | .vmem => 18
  | .smem => 0
  | _ => 0

abbrev bufTy : (tb : Table) → Fin (tcTables nBuf tb) → BufTy
  | .hbm, ⟨0, _⟩ => ⟨S4096x1x28x28, .f32⟩
  | .hbm, ⟨1, _⟩ => ⟨S84x896, .f32⟩
  | .hbm, ⟨2, _⟩ => ⟨S1x896, .f32⟩
  | .hbm, ⟨3, _⟩ => ⟨S1344x768, .f32⟩
  | .hbm, ⟨4, _⟩ => ⟨S1x768, .f32⟩
  | .hbm, ⟨5, _⟩ => ⟨S2304x640, .f32⟩
  | .hbm, ⟨6, _⟩ => ⟨S1x640, .f32⟩
  | .hbm, ⟨7, _⟩ => ⟨S640x128, .f32⟩
  | .hbm, ⟨8, _⟩ => ⟨S1x128, .f32⟩
  | .hbm, ⟨9, _⟩ => ⟨S128x10, .f32⟩
  | .hbm, ⟨10, _⟩ => ⟨S1x10, .f32⟩
  | .hbm, ⟨11, _⟩ => ⟨S4096x28x28, .f32⟩
  | .hbm, ⟨12, _⟩ => ⟨S4096x2304, .f32⟩
  | .hbm, ⟨13, _⟩ => ⟨S4096x10, .f32⟩
  | .local _ .vmem, ⟨0, _⟩ => ⟨S8x28x28, .f32⟩
  | .local _ .vmem, ⟨1, _⟩ => ⟨S8x28x28, .f32⟩
  | .local _ .vmem, ⟨2, _⟩ => ⟨S84x896, .f32⟩
  | .local _ .vmem, ⟨3, _⟩ => ⟨S1x896, .f32⟩
  | .local _ .vmem, ⟨4, _⟩ => ⟨S1344x768, .f32⟩
  | .local _ .vmem, ⟨5, _⟩ => ⟨S1x768, .f32⟩
  | .local _ .vmem, ⟨6, _⟩ => ⟨S8x2304, .f32⟩
  | .local _ .vmem, ⟨7, _⟩ => ⟨S8x2304, .f32⟩
  | .local _ .vmem, ⟨8, _⟩ => ⟨S8x2304, .f32⟩
  | .local _ .vmem, ⟨9, _⟩ => ⟨S8x2304, .f32⟩
  | .local _ .vmem, ⟨10, _⟩ => ⟨S2304x640, .f32⟩
  | .local _ .vmem, ⟨11, _⟩ => ⟨S1x640, .f32⟩
  | .local _ .vmem, ⟨12, _⟩ => ⟨S640x128, .f32⟩
  | .local _ .vmem, ⟨13, _⟩ => ⟨S1x128, .f32⟩
  | .local _ .vmem, ⟨14, _⟩ => ⟨S128x10, .f32⟩
  | .local _ .vmem, ⟨15, _⟩ => ⟨S1x10, .f32⟩
  | .local _ .vmem, ⟨16, _⟩ => ⟨S8x10, .f32⟩
  | .local _ .vmem, ⟨17, _⟩ => ⟨S8x10, .f32⟩
  | _, _ => ⟨S4096x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![512], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x28x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S84x896 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x896 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1344x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![512], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x2304 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2304x640 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x640 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S640x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x10 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x10 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8x10 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S4096x1x28x28_S4096x28x28 : S4096x1x28x28.ShapeCasts S4096x28x28
  inb_S8x28x28_S8x28x28_0_0_0 : ∀ a, (![0, 0, 0] : Fin 3 → Nat) a + S8x28x28.size a ≤ S8x28x28.size a
  h_S8x28x28 : 0 < S8x28x28.numel
  shapeCasts_S8x28x28_S8x28x28 : S8x28x28.ShapeCasts S8x28x28
  slices_S8x28x28_o0_0_0_S8x27x28 : S8x28x28.Slices ![0, 0, 0] S8x27x28
  concatenates_S8x1x28_S8x27x28_S8x28x28_d1 : Shape.Concatenates [S8x1x28, S8x27x28] S8x28x28 1
  slices_S8x28x28_o0_1_0_S8x27x28 : S8x28x28.Slices ![0, 1, 0] S8x27x28
  concatenates_S8x27x28_S8x1x28_S8x28x28_d1 : Shape.Concatenates [S8x27x28, S8x1x28] S8x28x28 1
  concatenates_S8x28x28_S8x28x28_S8x28x28_S8x28x84_d2 : Shape.Concatenates [S8x28x28, S8x28x28, S8x28x28] S8x28x84 2
  shapeCasts_S8x28x84_S224x84 : S8x28x84.ShapeCasts S224x84
  inb_S84x896_S84x896_0_0 : ∀ a, (![0, 0] : Fin 2 → Nat) a + S84x896.size a ≤ S84x896.size a
  h_S84x896 : 0 < S84x896.numel
  inb_S1x896_S1x896_0_0 : ∀ a, (![0, 0] : Fin 2 → Nat) a + S1x896.size a ≤ S1x896.size a
  h_S1x896 : 0 < S1x896.numel
  broadcasts_S1x896_S224x896 : S1x896.Broadcasts S224x896
  shapeCasts_S224x896_S8x14x2x896 : S224x896.ShapeCasts S8x14x2x896
  reduces_S8x14x2x896_S8x14x896 : S8x14x2x896.Reduces [2] S8x14x896
  slices_S8x14x896_o0_0_0_S8x14x32 : S8x14x896.Slices ![0, 0, 0] S8x14x32
  slices_S8x14x896_o0_0_32_S8x14x32 : S8x14x896.Slices ![0, 0, 32] S8x14x32
  slices_S8x14x896_o0_0_64_S8x14x32 : S8x14x896.Slices ![0, 0, 64] S8x14x32
  slices_S8x14x896_o0_0_96_S8x14x32 : S8x14x896.Slices ![0, 0, 96] S8x14x32
  slices_S8x14x896_o0_0_128_S8x14x32 : S8x14x896.Slices ![0, 0, 128] S8x14x32
  slices_S8x14x896_o0_0_160_S8x14x32 : S8x14x896.Slices ![0, 0, 160] S8x14x32
  slices_S8x14x896_o0_0_192_S8x14x32 : S8x14x896.Slices ![0, 0, 192] S8x14x32
  slices_S8x14x896_o0_0_224_S8x14x32 : S8x14x896.Slices ![0, 0, 224] S8x14x32
  slices_S8x14x896_o0_0_256_S8x14x32 : S8x14x896.Slices ![0, 0, 256] S8x14x32
  slices_S8x14x896_o0_0_288_S8x14x32 : S8x14x896.Slices ![0, 0, 288] S8x14x32
  slices_S8x14x896_o0_0_320_S8x14x32 : S8x14x896.Slices ![0, 0, 320] S8x14x32
  slices_S8x14x896_o0_0_352_S8x14x32 : S8x14x896.Slices ![0, 0, 352] S8x14x32
  slices_S8x14x896_o0_0_384_S8x14x32 : S8x14x896.Slices ![0, 0, 384] S8x14x32
  slices_S8x14x896_o0_0_416_S8x14x32 : S8x14x896.Slices ![0, 0, 416] S8x14x32
  slices_S8x14x896_o0_0_448_S8x14x32 : S8x14x896.Slices ![0, 0, 448] S8x14x32
  slices_S8x14x896_o0_0_480_S8x14x32 : S8x14x896.Slices ![0, 0, 480] S8x14x32
  slices_S8x14x896_o0_0_512_S8x14x32 : S8x14x896.Slices ![0, 0, 512] S8x14x32
  slices_S8x14x896_o0_0_544_S8x14x32 : S8x14x896.Slices ![0, 0, 544] S8x14x32
  slices_S8x14x896_o0_0_576_S8x14x32 : S8x14x896.Slices ![0, 0, 576] S8x14x32
  slices_S8x14x896_o0_0_608_S8x14x32 : S8x14x896.Slices ![0, 0, 608] S8x14x32
  slices_S8x14x896_o0_0_640_S8x14x32 : S8x14x896.Slices ![0, 0, 640] S8x14x32
  slices_S8x14x896_o0_0_672_S8x14x32 : S8x14x896.Slices ![0, 0, 672] S8x14x32
  slices_S8x14x896_o0_0_704_S8x14x32 : S8x14x896.Slices ![0, 0, 704] S8x14x32
  slices_S8x14x896_o0_0_736_S8x14x32 : S8x14x896.Slices ![0, 0, 736] S8x14x32
  slices_S8x14x896_o0_0_768_S8x14x32 : S8x14x896.Slices ![0, 0, 768] S8x14x32
  slices_S8x14x896_o0_0_800_S8x14x32 : S8x14x896.Slices ![0, 0, 800] S8x14x32
  slices_S8x14x896_o0_0_832_S8x14x32 : S8x14x896.Slices ![0, 0, 832] S8x14x32
  slices_S8x14x896_o0_0_864_S8x14x32 : S8x14x896.Slices ![0, 0, 864] S8x14x32
  concatenates_S8x14x32_S8x14x32_S8x14x32_S8x14x32_S8x14x32_S8x14x32_S8x14x32_S8x14x32_S8x14x32_S8x14x32_S8x14x32_S8x14x32_S8x14x32_S8x14x32_S8x14x448_d2 : Shape.Concatenates [S8x14x32, S8x14x32, S8x14x32, S8x14x32, S8x14x32, S8x14x32, S8x14x32, S8x14x32, S8x14x32, S8x14x32, S8x14x32, S8x14x32, S8x14x32, S8x14x32] S8x14x448 2
  slices_S8x14x448_o0_0_0_S8x12x448 : S8x14x448.Slices ![0, 0, 0] S8x12x448
  slices_S8x14x448_o0_1_0_S8x12x448 : S8x14x448.Slices ![0, 1, 0] S8x12x448
  slices_S8x14x448_o0_2_0_S8x12x448 : S8x14x448.Slices ![0, 2, 0] S8x12x448
  concatenates_S8x12x448_S8x12x448_S8x12x448_S8x12x1344_d2 : Shape.Concatenates [S8x12x448, S8x12x448, S8x12x448] S8x12x1344 2
  shapeCasts_S8x12x1344_S96x1344 : S8x12x1344.ShapeCasts S96x1344
  inb_S1344x768_S1344x768_0_0 : ∀ a, (![0, 0] : Fin 2 → Nat) a + S1344x768.size a ≤ S1344x768.size a
  h_S1344x768 : 0 < S1344x768.numel
  inb_S1x768_S1x768_0_0 : ∀ a, (![0, 0] : Fin 2 → Nat) a + S1x768.size a ≤ S1x768.size a
  h_S1x768 : 0 < S1x768.numel
  broadcasts_S1x768_S96x768 : S1x768.Broadcasts S96x768
  shapeCasts_S96x768_S8x6x2x768 : S96x768.ShapeCasts S8x6x2x768
  reduces_S8x6x2x768_S8x6x768 : S8x6x2x768.Reduces [2] S8x6x768
  slices_S8x6x768_o0_0_0_S8x6x64 : S8x6x768.Slices ![0, 0, 0] S8x6x64
  slices_S8x6x768_o0_0_64_S8x6x64 : S8x6x768.Slices ![0, 0, 64] S8x6x64
  slices_S8x6x768_o0_0_128_S8x6x64 : S8x6x768.Slices ![0, 0, 128] S8x6x64
  slices_S8x6x768_o0_0_192_S8x6x64 : S8x6x768.Slices ![0, 0, 192] S8x6x64
  slices_S8x6x768_o0_0_256_S8x6x64 : S8x6x768.Slices ![0, 0, 256] S8x6x64
  slices_S8x6x768_o0_0_320_S8x6x64 : S8x6x768.Slices ![0, 0, 320] S8x6x64
  slices_S8x6x768_o0_0_384_S8x6x64 : S8x6x768.Slices ![0, 0, 384] S8x6x64
  slices_S8x6x768_o0_0_448_S8x6x64 : S8x6x768.Slices ![0, 0, 448] S8x6x64
  slices_S8x6x768_o0_0_512_S8x6x64 : S8x6x768.Slices ![0, 0, 512] S8x6x64
  slices_S8x6x768_o0_0_576_S8x6x64 : S8x6x768.Slices ![0, 0, 576] S8x6x64
  slices_S8x6x768_o0_0_640_S8x6x64 : S8x6x768.Slices ![0, 0, 640] S8x6x64
  slices_S8x6x768_o0_0_704_S8x6x64 : S8x6x768.Slices ![0, 0, 704] S8x6x64
  concatenates_S8x6x64_S8x6x64_S8x6x64_S8x6x64_S8x6x64_S8x6x64_S8x6x384_d2 : Shape.Concatenates [S8x6x64, S8x6x64, S8x6x64, S8x6x64, S8x6x64, S8x6x64] S8x6x384 2
  slices_S8x6x384_o0_0_0_S8x1x384 : S8x6x384.Slices ![0, 0, 0] S8x1x384
  shapeCasts_S8x1x384_S8x384 : S8x1x384.ShapeCasts S8x384
  slices_S8x6x384_o0_1_0_S8x1x384 : S8x6x384.Slices ![0, 1, 0] S8x1x384
  slices_S8x6x384_o0_2_0_S8x1x384 : S8x6x384.Slices ![0, 2, 0] S8x1x384
  slices_S8x6x384_o0_3_0_S8x1x384 : S8x6x384.Slices ![0, 3, 0] S8x1x384
  slices_S8x6x384_o0_4_0_S8x1x384 : S8x6x384.Slices ![0, 4, 0] S8x1x384
  slices_S8x6x384_o0_5_0_S8x1x384 : S8x6x384.Slices ![0, 5, 0] S8x1x384
  concatenates_S8x384_S8x384_S8x384_S8x384_S8x384_S8x384_S8x2304_d1 : Shape.Concatenates [S8x384, S8x384, S8x384, S8x384, S8x384, S8x384] S8x2304 1
  inb_S8x2304_S8x2304_0_0 : ∀ a, (![0, 0] : Fin 2 → Nat) a + S8x2304.size a ≤ S8x2304.size a
  h_S8x2304 : 0 < S8x2304.numel
  shapeCasts_S8x2304_S8x2304 : S8x2304.ShapeCasts S8x2304
  inb_S2304x640_S2304x640_0_0 : ∀ a, (![0, 0] : Fin 2 → Nat) a + S2304x640.size a ≤ S2304x640.size a
  h_S2304x640 : 0 < S2304x640.numel
  inb_S1x640_S1x640_0_0 : ∀ a, (![0, 0] : Fin 2 → Nat) a + S1x640.size a ≤ S1x640.size a
  h_S1x640 : 0 < S1x640.numel
  broadcasts_S1x640_S8x640 : S1x640.Broadcasts S8x640
  inb_S640x128_S640x128_0_0 : ∀ a, (![0, 0] : Fin 2 → Nat) a + S640x128.size a ≤ S640x128.size a
  h_S640x128 : 0 < S640x128.numel
  inb_S1x128_S1x128_0_0 : ∀ a, (![0, 0] : Fin 2 → Nat) a + S1x128.size a ≤ S1x128.size a
  h_S1x128 : 0 < S1x128.numel
  broadcasts_S1x128_S8x128 : S1x128.Broadcasts S8x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  broadcasts_S1x10_S8x10 : S1x10.Broadcasts S8x10
  reduces_S8x10_S8 : S8x10.Reduces [1] S8
  shapeCasts_S8_S8x1 : S8.ShapeCasts S8x1
  broadcasts_S8x1_S8x10 : S8x1.Broadcasts S8x10
  inb_S8x10_S8x10_0_0 : ∀ a, (![0, 0] : Fin 2 → Nat) a + S8x10.size a ≤ S8x10.size a
  h_S8x10 : 0 < S8x10.numel
  dot_S224x84_S84x896_S224x896_1_0_0_1_n_n_wf : DotDims.WF S224x84 S84x896 S224x896 [1] [0] [0] [1] [] []
  dot_S96x1344_S1344x768_S96x768_1_0_0_1_n_n_wf : DotDims.WF S96x1344 S1344x768 S96x768 [1] [0] [0] [1] [] []
  dot_S8x2304_S2304x640_S8x640_1_0_0_1_n_n_wf : DotDims.WF S8x2304 S2304x640 S8x640 [1] [0] [0] [1] [] []
  dot_S8x640_S640x128_S8x128_1_0_0_1_n_n_wf : DotDims.WF S8x640 S640x128 S8x128 [1] [0] [0] [1] [] []
  dot_S8x128_S128x10_S8x10_1_0_0_1_n_n_wf : DotDims.WF S8x128 S128x10 S8x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x28x28.size a ≤ S4096x28x28.size a
  hwx0_0 : ∀ i : grid0.Coords, EltTy.bits .f32 = 32 ∨ (Rect.block (s := S4096x28x28) S8x28x28.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S84x896.size a ≤ S84x896.size a
  hwx0_1 : ∀ i : grid0.Coords, EltTy.bits .f32 = 32 ∨ (Rect.block (s := S84x896) S84x896.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x896.size a ≤ S1x896.size a
  hwx0_2 : ∀ i : grid0.Coords, EltTy.bits .f32 = 32 ∨ (Rect.block (s := S1x896) S1x896.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1344x768.size a ≤ S1344x768.size a
  hwx0_3 : ∀ i : grid0.Coords, EltTy.bits .f32 = 32 ∨ (Rect.block (s := S1344x768) S1344x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x2304.size a ≤ S4096x2304.size a
  hwx0_5 : ∀ i : grid0.Coords, EltTy.bits .f32 = 32 ∨ (Rect.block (s := S4096x2304) S8x2304.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x2304.size a ≤ S4096x2304.size a
  hwx1_0 : ∀ i : grid1.Coords, EltTy.bits .f32 = 32 ∨ (Rect.block (s := S4096x2304) S8x2304.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2304x640.size a ≤ S2304x640.size a
  hwx1_1 : ∀ i : grid1.Coords, EltTy.bits .f32 = 32 ∨ (Rect.block (s := S2304x640) S2304x640.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x640.size a ≤ S1x640.size a
  hwx1_2 : ∀ i : grid1.Coords, EltTy.bits .f32 = 32 ∨ (Rect.block (s := S1x640) S1x640.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S640x128.size a ≤ S640x128.size a
  hwx1_3 : ∀ i : grid1.Coords, EltTy.bits .f32 = 32 ∨ (Rect.block (s := S640x128) S640x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x10.size a ≤ S128x10.size a
  hwx1_5 : ∀ i : grid1.Coords, EltTy.bits .f32 = 32 ∨ (Rect.block (s := S128x10) S128x10.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x10.size a ≤ S1x10.size a
  hwx1_6 : ∀ i : grid1.Coords, EltTy.bits .f32 = 32 ∨ (Rect.block (s := S1x10) S1x10.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8x10.size a ≤ S4096x10.size a
  hwx1_7 : ∀ i : grid1.Coords, EltTy.bits .f32 = 32 ∨ (Rect.block (s := S4096x10) S8x10.size (cc1_transform_7 i) (hinb1_7 i)).WholeWords (EltTy.packing .f32)

variable [Facts₀]

def dot_S224x84_S84x896_S224x896_1_0_0_1_n_n : DotDims S224x84 S84x896 S224x896 where
  lhsContracting := [1]
  rhsContracting := [0]
  lhsNonContracting := [0]
  rhsNonContracting := [1]
  lhsBatch := []
  rhsBatch := []
  wf := dot_S224x84_S84x896_S224x896_1_0_0_1_n_n_wf
def dot_S96x1344_S1344x768_S96x768_1_0_0_1_n_n : DotDims S96x1344 S1344x768 S96x768 where
  lhsContracting := [1]
  rhsContracting := [0]
  lhsNonContracting := [0]
  rhsNonContracting := [1]
  lhsBatch := []
  rhsBatch := []
  wf := dot_S96x1344_S1344x768_S96x768_1_0_0_1_n_n_wf
def dot_S8x2304_S2304x640_S8x640_1_0_0_1_n_n : DotDims S8x2304 S2304x640 S8x640 where
  lhsContracting := [1]
  rhsContracting := [0]
  lhsNonContracting := [0]
  rhsNonContracting := [1]
  lhsBatch := []
  rhsBatch := []
  wf := dot_S8x2304_S2304x640_S8x640_1_0_0_1_n_n_wf
def dot_S8x640_S640x128_S8x128_1_0_0_1_n_n : DotDims S8x640 S640x128 S8x128 where
  lhsContracting := [1]
  rhsContracting := [0]
  lhsNonContracting := [0]
  rhsNonContracting := [1]
  lhsBatch := []
  rhsBatch := []
  wf := dot_S8x640_S640x128_S8x128_1_0_0_1_n_n_wf
def dot_S8x128_S128x10_S8x10_1_0_0_1_n_n : DotDims S8x128 S128x10 S8x10 where
  lhsContracting := [1]
  rhsContracting := [0]
  lhsNonContracting := [0]
  rhsNonContracting := [1]
  lhsBatch := []
  rhsBatch := []
  wf := dot_S8x128_S128x10_S8x10_1_0_0_1_n_n_wf

abbrev win0_0 : Pipeline.Window sig grid0 :=
  Pipeline.Window.ofSpec (Memref.whole main_v0) S8x28x28.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S84x896.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x896.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1344x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S8x2304.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v1) S8x2304.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S2304x640.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1x640.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S640x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x10.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S1x10.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v2) S8x10.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== Proof.KEntryB.lean ====
/-
  The buffers of core `c` when the one kernel region of the program is entered: the launch memory
  after the host operations that precede the region (constants, the column gathers, the zero pads and
  the concatenations that build the permuted weight matrices).
-/
import proofs.«171558_g2000600275687624_pallasbulk_458_2_alg».proof.Proof.Gen.Kernel.Launch
import Idealize.ShloMosaic.Lib.Pipeline.FrameBody

noncomputable section

namespace Cert.Kernel.Hand

open Idealize.ShloMosaic Idealize.ShloMosaic.TcCoe
open Idealize.SL Idealize.SL.Sem
open Cert.Kernel Cert.Kernel.Gen

variable {F : FTy → Type} [FloatOps F]
variable (m : (ℓ : Loc nD τ sig) → Buf (Elt F) ℓ)

/-- Core `c`'s TensorCore buffers at the region's entry. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

end Cert.Kernel.Hand

end
-- ==== Proof.KDataB.lean ====
/-
  The proof data of the kernel region on core `c`. Window `w`'s block at grid point `t` is read off the
  window's array as the region finds it (`V`): point `t` takes images `64 t … 64 t + 63` and every weight
  array whole. After the body each input buffer still holds its block, and the output buffer holds the
  body's one store over the whole 64 × 10 rectangle: the scores computed from the eleven input blocks.
-/
import proofs.«171558_g2000600275687624_pallasbulk_458_2_alg».proof.Proof.KEntryB
import proofs.«171558_g2000600275687624_pallasbulk_458_2_alg».proof.Proof.Gen.Kernel.Skeleton
import proofs.«171558_g2000600275687624_pallasbulk_458_2_alg».proof.Proof.Gen.Kernel.Points
import Idealize.ShloMosaic.Lib.Pipeline.FrameBody

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)
open Cert.Kernel Cert.Kernel.Gen

variable {F : FTy → Type} [FloatOps F]
variable (m : (ℓ : Loc nD τ sig) → Buf (Elt F) ℓ)

/-- Window `w`'s block at point `t`, read off its array at the region's entry. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! The whole-buffer rectangles the body loads and stores through. -/
abbrev r0_0 : Rect S64x28x28 := Rect.unit (s := S64x28x28) ![0, 0, 0] S64x28x28.size inb_S64x28x28_S64x28x28_0_0_0
abbrev r0_1 : Rect S84x1024 := Rect.unit (s := S84x1024) ![0, 0] S84x1024.size inb_S84x1024_S84x1024_0_0
abbrev r0_2 : Rect S1x1024 := Rect.unit (s := S1x1024) ![0, 0] S1x1024.size inb_S1x1024_S1x1024_0_0
abbrev r0_3 : Rect S1536x768 := Rect.unit (s := S1536x768) ![0, 0] S1536x768.size inb_S1536x768_S1536x768_0_0
abbrev r0_4 : Rect S1x768 := Rect.unit (s := S1x768) ![0, 0] S1x768.size inb_S1x768_S1x768_0_0
abbrev r0_5 : Rect S2304x640 := Rect.unit (s := S2304x640) ![0, 0] S2304x640.size inb_S2304x640_S2304x640_0_0
abbrev r0_6 : Rect S1x640 := Rect.unit (s := S1x640) ![0, 0] S1x640.size inb_S1x640_S1x640_0_0
abbrev r0_7 : Rect S640x128 := Rect.unit (s := S640x128) ![0, 0] S640x128.size inb_S640x128_S640x128_0_0
abbrev r0_8 : Rect S1x128 := Rect.unit (s := S1x128) ![0, 0] S1x128.size inb_S1x128_S1x128_0_0
abbrev r0_9 : Rect S128x10 := Rect.unit (s := S128x10) ![0, 0] S128x10.size inb_S128x10_S128x10_0_0
abbrev r0_10 : Rect S1x10 := Rect.unit (s := S1x10) ![0, 0] S1x10.size inb_S1x10_S1x10_0_0
abbrev r0_11 : Rect S64x10 := Rect.unit (s := S64x10) ![0, 0] S64x10.size inb_S64x10_S64x10_0_0

/-- The output buffer after the body, from the input blocks: one store over the whole rectangle. -/
def out0_11 (x0 : Vec F S64x28x28 .f32) (x1 : Vec F S84x1024 .f32) (x2 : Vec F S1x1024 .f32) (x3 : Vec F S1536x768 .f32) (x4 : Vec F S1x768 .f32) (x5 : Vec F S2304x640 .f32) (x6 : Vec F S1x640 .f32) (x7 : Vec F S640x128 .f32) (x8 : Vec F S1x128 .f32) (x9 : Vec F S128x10 .f32) (x10 : Vec F S1x10 .f32) : Vec F S64x10 .f32 :=
  View.canon [⟨r0_11, k0_pay3 (k0_pay1 (View.ld x0 r0_0) (View.ld x1 r0_1) (View.ld x2 r0_2) (View.ld x3 r0_3) (View.ld x4 r0_4)) (k0_pay2 (View.ld x0 r0_0) (View.ld x1 r0_1) (View.ld x2 r0_2) (View.ld x3 r0_3) (View.ld x4 r0_4)) (View.ld x5 r0_5) (View.ld x6 r0_6) (View.ld x7 r0_7) (View.ld x8 r0_8) (View.ld x9 r0_9) (View.ld x10 r0_10)⟩]

/-- That store covers the buffer. -/
theorem cover0_11 (p0 : Vec F S64x10 .f32) (y : S64x10.Idx) :
    ∃ pc ∈ ([⟨r0_11, p0⟩] : List (View.Piece (Elt F) S64x10 .f32)), y ∈ pc.1.set :=
  View.cover_of_tiled [⟨r0_11, p0⟩] S64x10.size (by rfl) y

/-- The proof data: arrays as the region finds them; inputs left in place, the output at `out0_11` of the
    input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

end Cert.Kernel.Hand

end
-- ==== Proof.KFrameB.lean ====
/-
  The frame of the word-level kernel program: every weakly fair execution of @main — the host
  operations that build the permuted and padded weight matrices, then the one kernel region over its
  grid of 64 points — terminates without fault and leaves the eleven argument arrays as launched.

  The kernel body loads each of its eleven input windows whole, computes, and stores the output window
  whole: what it leaves in the output window's buffer is a closed function of the input blocks at the
  point (`out0_11`), and what it finds in an input buffer is that window's block at the point, fetched
  there or not (windows 1–10 have a constant block index and are fetched once; window 0 moves with the
  point). No host operation writes an argument array; windows 5–10 stage the arguments 5–10 themselves
  (inputs: the region leaves them as found), the arguments 0–4 are staged by no window and bypass the
  region.
-/
import proofs.«171558_g2000600275687624_pallasbulk_458_2_alg».proof.Proof.KDataB
import proofs.«171558_g2000600275687624_pallasbulk_458_2_alg».proof.Proof.Gen.Kernel.Launch
import proofs.«171558_g2000600275687624_pallasbulk_458_2_alg».proof.Proof.Gen.Kernel.Skeleton
import proofs.«171558_g2000600275687624_pallasbulk_458_2_alg».proof.Proof.Gen.Kernel.Points
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 4000000 in
/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 4000000 in
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 4000000 in
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 4000000 in
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 4000000 in
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 4000000 in
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 4000000 in
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 4000000 in
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 4000000 in
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 4000000 in
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 4000000 in
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The windows' blocks (each window's block at a point is the data module's `iblk`) -/

/-- Input window 0's current staging buffer holds its block at every point, fetched there or not, for any proof
    data whose array is the region-entry contents and whose body leaves the block in place: where the window is
    not fetched its block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry contents and whose body leaves the block in place: where the window is
    not fetched its block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the region-entry contents and whose body leaves the block in place: where the window is
    not fetched its block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is the region-entry contents and whose body leaves the block in place: where the window is
    not fetched its block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is the region-entry contents and whose body leaves the block in place: where the window is
    not fetched its block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is the region-entry contents and whose body leaves the block in place: where the window is
    not fetched its block index has not moved. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is the region-entry contents and whose body leaves the block in place: where the window is
    not fetched its block index has not moved. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof
    data whose array is the region-entry contents and whose body leaves the block in place: where the window is
    not fetched its block index has not moved. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for any proof
    data whose array is the region-entry contents and whose body leaves the block in place: where the window is
    not fetched its block index has not moved. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for any proof
    data whose array is the region-entry contents and whose body leaves the block in place: where the window is
    not fetched its block index has not moved. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for any proof
    data whose array is the region-entry contents and whose body leaves the block in place: where the window is
    not fetched its block index has not moved. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents, a run to the
    frame run's post read at the argument arrays — an argument a window stages (5–10: inputs, left as found),
    an argument no window stages (0–4) by the post's second clause, each then as launched since no host
    operation writes it — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c)))⟩) h

/-! ## The body's triple -/

set_option maxHeartbeats 8000000 in
/-- The kernel body on whole staging memrefs, the inputs' at read contents `xW` and the output's at anything, runs to
    the continuation holding the inputs' as they were and the output's at `out0_11` of the inputs'. -/
theorem sound_kernel (c : Dev nD) (E : Set ℕ) (i : grid0.Coords) (arg1 : Memref sig .tc .vmem S64x28x28 .f32) (harg1 : arg1.IsWhole) (arg2 : Memref sig .tc .vmem S84x1024 .f32) (harg2 : arg2.IsWhole) (arg3 : Memref sig .tc .vmem S1x1024 .f32) (harg3 : arg3.IsWhole) (arg4 : Memref sig .tc .vmem S1536x768 .f32) (harg4 : arg4.IsWhole) (arg5 : Memref sig .tc .vmem S1x768 .f32) (harg5 : arg5.IsWhole) (arg6 : Memref sig .tc .vmem S2304x640 .f32) (harg6 : arg6.IsWhole) (arg7 : Memref sig .tc .vmem S1x640 .f32) (harg7 : arg7.IsWhole) (arg8 : Memref sig .tc .vmem S640x128 .f32) (harg8 : arg8.IsWhole) (arg9 : Memref sig .tc .vmem S1x128 .f32) (harg9 : arg9.IsWhole) (arg10 : Memref sig .tc .vmem S128x10 .f32) (harg10 : arg10.IsWhole) (arg11 : Memref sig .tc .vmem S1x10 .f32) (harg11 : arg11.IsWhole) (arg12 : Memref sig .tc .vmem S64x10 .f32) (harg12 : arg12.IsWhole)
    (x0 : Vec F S64x28x28 .f32) (x1 : Vec F S84x1024 .f32) (x2 : Vec F S1x1024 .f32) (x3 : Vec F S1536x768 .f32) (x4 : Vec F S1x768 .f32) (x5 : Vec F S2304x640 .f32) (x6 : Vec F S1x640 .f32) (x7 : Vec F S640x128 .f32) (x8 : Vec F S1x128 .f32) (x9 : Vec F S128x10 .f32) (x10 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K := by
  simp only [cc0__fused_kernel_eq_skeleton]; unfold cc0__fused_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover0_11 _)

/-! ## What the body finds, for the proof data -/

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the inputs' memrefs hold their blocks, so `sound_kernel` applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters: every weakly fair execution of @main on the TensorCores terminates, and
    every final state has every array of the pipeline at what the proof data give and every other unscoped buffer
    as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every weakly fair execution of @main terminates without fault with its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Hand

end
-- ==== Proof.KEntry.lean ====
/-
  The buffers of core `c` when the one kernel region of the program is entered: the launch memory
  after the host operations that precede the region (constants, the column gathers, the zero pads and
  the concatenations that build the permuted weight matrices).
-/
import proofs.«171558_g2000600275687624_pallasbulk_458_2_alg».proof.Proof.Gen.KernelIdeal.Launch
import Idealize.ShloMosaic.Lib.Pipeline.FrameBody

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- Core `c`'s TensorCore buffers at the region's entry. -/
abbrev V (c : Dev nD) (b : Ref sig .tc) : Buf (Elt F) ((c : Thread nD τ).loc b) :=
  StableHlo.after hostOps0 (fun b => m (c, b)) b

/-- No host operation allocates a buffer. -/
theorem hostOps0_fresh : (hostOps0 : List (HloOp τ sig (Elt F))).Forall fun op => op.fresh = ∅ := by
  simp only [List.Forall]; repeat' constructor

end Cert.KernelIdeal.Hand

end
-- ==== Proof.KData.lean ====
/-
  The proof data of the kernel region on core `c`. Window `w`'s block at grid point `t` is read off the
  window's array as the region finds it (`V`): point `t` takes images `64 t … 64 t + 63` and every weight
  array whole. After the body each input buffer still holds its block, and the output buffer holds the
  body's one store over the whole 64 × 10 rectangle: the scores computed from the eleven input blocks.
-/
import proofs.«171558_g2000600275687624_pallasbulk_458_2_alg».proof.Proof.KEntry
import proofs.«171558_g2000600275687624_pallasbulk_458_2_alg».proof.Proof.Gen.KernelIdeal.Skeleton
import proofs.«171558_g2000600275687624_pallasbulk_458_2_alg».proof.Proof.Gen.KernelIdeal.Points
import Idealize.ShloMosaic.Lib.Pipeline.FrameBody

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)
open Cert.KernelIdeal Cert.KernelIdeal.Gen

variable {F : FTy → Type} [FloatOps F]
variable (m : (ℓ : Loc nD τ sig) → Buf (Elt F) ℓ)

/-- Window `w`'s block at point `t`, read off its array at the region's entry. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! The whole-buffer rectangles the body loads and stores through. -/
abbrev r0_0 : Rect S64x28x28 := Rect.unit (s := S64x28x28) ![0, 0, 0] S64x28x28.size inb_S64x28x28_S64x28x28_0_0_0
abbrev r0_1 : Rect S84x1024 := Rect.unit (s := S84x1024) ![0, 0] S84x1024.size inb_S84x1024_S84x1024_0_0
abbrev r0_2 : Rect S1x1024 := Rect.unit (s := S1x1024) ![0, 0] S1x1024.size inb_S1x1024_S1x1024_0_0
abbrev r0_3 : Rect S1536x768 := Rect.unit (s := S1536x768) ![0, 0] S1536x768.size inb_S1536x768_S1536x768_0_0
abbrev r0_4 : Rect S1x768 := Rect.unit (s := S1x768) ![0, 0] S1x768.size inb_S1x768_S1x768_0_0
abbrev r0_5 : Rect S2304x640 := Rect.unit (s := S2304x640) ![0, 0] S2304x640.size inb_S2304x640_S2304x640_0_0
abbrev r0_6 : Rect S1x640 := Rect.unit (s := S1x640) ![0, 0] S1x640.size inb_S1x640_S1x640_0_0
abbrev r0_7 : Rect S640x128 := Rect.unit (s := S640x128) ![0, 0] S640x128.size inb_S640x128_S640x128_0_0
abbrev r0_8 : Rect S1x128 := Rect.unit (s := S1x128) ![0, 0] S1x128.size inb_S1x128_S1x128_0_0
abbrev r0_9 : Rect S128x10 := Rect.unit (s := S128x10) ![0, 0] S128x10.size inb_S128x10_S128x10_0_0
abbrev r0_10 : Rect S1x10 := Rect.unit (s := S1x10) ![0, 0] S1x10.size inb_S1x10_S1x10_0_0
abbrev r0_11 : Rect S64x10 := Rect.unit (s := S64x10) ![0, 0] S64x10.size inb_S64x10_S64x10_0_0

/-- The output buffer after the body, from the input blocks: one store over the whole rectangle. -/
def out0_11 (x0 : Vec F S64x28x28 .f32) (x1 : Vec F S84x1024 .f32) (x2 : Vec F S1x1024 .f32) (x3 : Vec F S1536x768 .f32) (x4 : Vec F S1x768 .f32) (x5 : Vec F S2304x640 .f32) (x6 : Vec F S1x640 .f32) (x7 : Vec F S640x128 .f32) (x8 : Vec F S1x128 .f32) (x9 : Vec F S128x10 .f32) (x10 : Vec F S1x10 .f32) : Vec F S64x10 .f32 :=
  View.canon [⟨r0_11, k0_pay3 (k0_pay1 (View.ld x0 r0_0) (View.ld x1 r0_1) (View.ld x2 r0_2) (View.ld x3 r0_3) (View.ld x4 r0_4)) (k0_pay2 (View.ld x0 r0_0) (View.ld x1 r0_1) (View.ld x2 r0_2) (View.ld x3 r0_3) (View.ld x4 r0_4)) (View.ld x5 r0_5) (View.ld x6 r0_6) (View.ld x7 r0_7) (View.ld x8 r0_8) (View.ld x9 r0_9) (View.ld x10 r0_10)⟩]

/-- That store covers the buffer. -/
theorem cover0_11 (p0 : Vec F S64x10 .f32) (y : S64x10.Idx) :
    ∃ pc ∈ ([⟨r0_11, p0⟩] : List (View.Piece (Elt F) S64x10 .f32)), y ∈ pc.1.set :=
  View.cover_of_tiled [⟨r0_11, p0⟩] S64x10.size (by rfl) y

/-- The proof data: arrays as the region finds them; inputs left in place, the output at `out0_11` of the
    input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

end Cert.KernelIdeal.Hand

end
-- ==== Proof.KFrame.lean ====
/-
  The frame of the idealized kernel program: every weakly fair execution of @main — the host
  operations that build the permuted and padded weight matrices, then the one kernel region over its
  grid of 64 points — terminates without fault and leaves the eleven argument arrays as launched.

  The kernel body loads each of its eleven input windows whole, computes, and stores the output window
  whole: what it leaves in the output window's buffer is a closed function of the input blocks at the
  point (`out0_11`), and what it finds in an input buffer is that window's block at the point, fetched
  there or not (windows 1–10 have a constant block index and are fetched once; window 0 moves with the
  point). No host operation writes an argument array; windows 5–10 stage the arguments 5–10 themselves
  (inputs: the region leaves them as found), the arguments 0–4 are staged by no window and bypass the
  region.
-/
import proofs.«171558_g2000600275687624_pallasbulk_458_2_alg».proof.Proof.KData
import proofs.«171558_g2000600275687624_pallasbulk_458_2_alg».proof.Proof.Gen.KernelIdeal.Launch
import proofs.«171558_g2000600275687624_pallasbulk_458_2_alg».proof.Proof.Gen.KernelIdeal.Skeleton
import proofs.«171558_g2000600275687624_pallasbulk_458_2_alg».proof.Proof.Gen.KernelIdeal.Points
import Idealize.ShloMosaic.Lib.Pipeline.FrameBody
import Idealize.ShloMosaic.Lib.Ring
import Idealize.ShloMosaic.Lib.Tactic

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- @main up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option maxHeartbeats 4000000 in
/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 4000000 in
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 4000000 in
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 4000000 in
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 4000000 in
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 4000000 in
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 4000000 in
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 4000000 in
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 4000000 in
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 4000000 in
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
set_option maxHeartbeats 4000000 in
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The windows' blocks (each window's block at a point is the data module's `iblk`) -/

/-- Input window 0's current staging buffer holds its block at every point, fetched there or not, for any proof
    data whose array is the region-entry contents and whose body leaves the block in place: where the window is
    not fetched its block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry contents and whose body leaves the block in place: where the window is
    not fetched its block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the region-entry contents and whose body leaves the block in place: where the window is
    not fetched its block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is the region-entry contents and whose body leaves the block in place: where the window is
    not fetched its block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is the region-entry contents and whose body leaves the block in place: where the window is
    not fetched its block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is the region-entry contents and whose body leaves the block in place: where the window is
    not fetched its block index has not moved. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is the region-entry contents and whose body leaves the block in place: where the window is
    not fetched its block index has not moved. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof
    data whose array is the region-entry contents and whose body leaves the block in place: where the window is
    not fetched its block index has not moved. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for any proof
    data whose array is the region-entry contents and whose body leaves the block in place: where the window is
    not fetched its block index has not moved. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for any proof
    data whose array is the region-entry contents and whose body leaves the block in place: where the window is
    not fetched its block index has not moved. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for any proof
    data whose array is the region-entry contents and whose body leaves the block in place: where the window is
    not fetched its block index has not moved. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents, a run to the
    frame run's post read at the argument arrays — an argument a window stages (5–10: inputs, left as found),
    an argument no window stages (0–4) by the post's second clause, each then as launched since no host
    operation writes it — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c)))⟩) h

/-! ## The body's triple -/

set_option maxHeartbeats 8000000 in
/-- The kernel body on whole staging memrefs, the inputs' at read contents `xW` and the output's at anything, runs to
    the continuation holding the inputs' as they were and the output's at `out0_11` of the inputs'. -/
theorem sound_kernel (c : Dev nD) (E : Set ℕ) (i : grid0.Coords) (arg1 : Memref sig .tc .vmem S64x28x28 .f32) (harg1 : arg1.IsWhole) (arg2 : Memref sig .tc .vmem S84x1024 .f32) (harg2 : arg2.IsWhole) (arg3 : Memref sig .tc .vmem S1x1024 .f32) (harg3 : arg3.IsWhole) (arg4 : Memref sig .tc .vmem S1536x768 .f32) (harg4 : arg4.IsWhole) (arg5 : Memref sig .tc .vmem S1x768 .f32) (harg5 : arg5.IsWhole) (arg6 : Memref sig .tc .vmem S2304x640 .f32) (harg6 : arg6.IsWhole) (arg7 : Memref sig .tc .vmem S1x640 .f32) (harg7 : arg7.IsWhole) (arg8 : Memref sig .tc .vmem S640x128 .f32) (harg8 : arg8.IsWhole) (arg9 : Memref sig .tc .vmem S1x128 .f32) (harg9 : arg9.IsWhole) (arg10 : Memref sig .tc .vmem S128x10 .f32) (harg10 : arg10.IsWhole) (arg11 : Memref sig .tc .vmem S1x10 .f32) (harg11 : arg11.IsWhole) (arg12 : Memref sig .tc .vmem S64x10 .f32) (harg12 : arg12.IsWhole)
    (x0 : Vec F S64x28x28 .f32) (x1 : Vec F S84x1024 .f32) (x2 : Vec F S1x1024 .f32) (x3 : Vec F S1536x768 .f32) (x4 : Vec F S1x768 .f32) (x5 : Vec F S2304x640 .f32) (x6 : Vec F S1x640 .f32) (x7 : Vec F S640x128 .f32) (x8 : Vec F S1x128 .f32) (x9 : Vec F S128x10 .f32) (x10 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K := by
  simp only [cc0__fused_kernel_eq_skeleton]; unfold cc0__fused_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover0_11 _)

/-! ## What the body finds, for the proof data -/

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- The body at any point: the inputs' memrefs hold their blocks, so `sound_kernel` applies; the invariant and
    the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters: every weakly fair execution of @main on the TensorCores terminates, and
    every final state has every array of the pipeline at what the proof data give and every other unscoped buffer
    as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every weakly fair execution of @main terminates without fault with its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Hand

end
-- ==== Proof.Spec.lean ====
/-
  The mathematics both programs compute, one image at a time, over the extended reals.

  An image is a 28 × 28 array. A 3 × 3 convolution with one input channel is written as one matrix
  product: row `h` of the left factor lists the three image rows `h - 1`, `h`, `h + 1` side by side
  (84 entries, a zero row beyond the border), and the weight matrix is banded. A rectified linear unit
  follows, then a 2 × 2 maximum pool: first over pairs of rows, then over pairs of 32-channel lane groups.
  The second convolution (three pooled rows side by side), its rectifier and pool have the same shape,
  and the pooled 6 × 384 result, flattened, feeds three affine layers and a log-softmax.

  Two lane arrangements of the convolution stage are stated. In the first (`featR`) lane `w * C + c`
  of a convolution output holds column `w`, channel `c`, and the pool pairs lane groups `2 j`, `2 j + 1`.
  In the second (`featK`) the weight columns have been permuted beforehand so that the even groups fill
  the lower half of the lanes and the odd groups the upper half (zero columns pad each half of the first
  stage from 448 to 512 lanes, and zero rows pad the second weight matrix to match), and the pool is the
  maximum of the two halves. `permB1`, `permS1`, `permB2`, `permS2` are those permutations.
-/
import Idealize.ShloMosaic.PureOps.Ideal
import Idealize.ShloMosaic.Lib.ValueIdx

noncomputable section

namespace Cert.Spec

open Idealize.ShloMosaic

/-- The value of the word `0xFF800000`: minus infinity, where a maximum starts. -/
def negInf : EReal := Ideal.ofBits .f32 0xFF800000#32
/-- The value of the zero word. -/
def zeroF : EReal := Ideal.ofBits .f32 0x00000000#32

/-- A maximum over `n` values, started at minus infinity. -/
def maxOver {n : Nat} (f : Fin n → EReal) : EReal := (Finset.univ : Finset (Fin n)).fold max negInf f

/-- The rectifier. -/
def relu (a : EReal) : EReal := max a zeroF

/-- Row `h` of the first convolution's left factor: image rows `h - 1`, `h`, `h + 1`, zero beyond the border. -/
def lhs1 (img : Fin 28 → Fin 28 → EReal) (h : Fin 28) (k : Fin 84) : EReal :=
  if h1 : k.val < 28 then
    (if h0 : h.val = 0 then zeroF else img ⟨h.val - 1, by omega⟩ ⟨k.val, h1⟩)
  else if h2 : k.val < 56 then img h ⟨k.val - 28, by omega⟩
  else (if h27 : h.val = 27 then zeroF else img ⟨h.val + 1, by omega⟩ ⟨k.val - 56, by omega⟩)

/-! ## The convolution stage, lanes in column-major order (`w * C + c`) -/

section R
variable (img : Fin 28 → Fin 28 → EReal) (B1 : Fin 84 → Fin 896 → EReal) (s1 : Fin 896 → EReal)
  (B2 : Fin 1344 → Fin 768 → EReal) (s2 : Fin 768 → EReal)

def y1R (h : Fin 28) (l : Fin 896) : EReal := relu ((∑ k : Fin 84, lhs1 img h k * B1 k l) + s1 l)
def yhR (h2 : Fin 14) (l : Fin 896) : EReal := maxOver fun k : Fin 2 => y1R img B1 s1 ⟨2 * h2.val + k.val, by omega⟩ l
def p1R (h2 : Fin 14) (l : Fin 448) : EReal :=
  max (yhR img B1 s1 h2 ⟨64 * (l.val / 32) + l.val % 32, by omega⟩)
      (yhR img B1 s1 h2 ⟨64 * (l.val / 32) + 32 + l.val % 32, by omega⟩)
def lhs2R (h3 : Fin 12) (k : Fin 1344) : EReal := p1R img B1 s1 ⟨h3.val + k.val / 448, by omega⟩ ⟨k.val % 448, by omega⟩
def zR (h3 : Fin 12) (l : Fin 768) : EReal := relu ((∑ k : Fin 1344, lhs2R img B1 s1 h3 k * B2 k l) + s2 l)
def zhR (h4 : Fin 6) (l : Fin 768) : EReal := maxOver fun k : Fin 2 => zR img B1 s1 B2 s2 ⟨2 * h4.val + k.val, by omega⟩ l
def qR (h4 : Fin 6) (l : Fin 384) : EReal :=
  max (zhR img B1 s1 B2 s2 h4 ⟨128 * (l.val / 64) + l.val % 64, by omega⟩)
      (zhR img B1 s1 B2 s2 h4 ⟨128 * (l.val / 64) + 64 + l.val % 64, by omega⟩)
def featR (f : Fin 2304) : EReal := qR img B1 s1 B2 s2 ⟨f.val / 384, by omega⟩ ⟨f.val % 384, by omega⟩
end R

/-! ## The convolution stage, even lane groups in the lower half and odd ones in the upper half -/

section K
variable (img : Fin 28 → Fin 28 → EReal) (B1 : Fin 84 → Fin 1024 → EReal) (s1 : Fin 1024 → EReal)
  (B2 : Fin 1536 → Fin 768 → EReal) (s2 : Fin 768 → EReal)

def y1K (h : Fin 28) (l : Fin 1024) : EReal := relu ((∑ k : Fin 84, lhs1 img h k * B1 k l) + s1 l)
def yhK (h2 : Fin 14) (l : Fin 1024) : EReal := maxOver fun k : Fin 2 => y1K img B1 s1 ⟨2 * h2.val + k.val, by omega⟩ l
def p1K (h2 : Fin 14) (l : Fin 512) : EReal :=
  max (yhK img B1 s1 h2 ⟨l.val, by omega⟩) (yhK img B1 s1 h2 ⟨512 + l.val, by omega⟩)
def lhs2K (h3 : Fin 12) (k : Fin 1536) : EReal := p1K img B1 s1 ⟨h3.val + k.val / 512, by omega⟩ ⟨k.val % 512, by omega⟩
def zK (h3 : Fin 12) (l : Fin 768) : EReal := relu ((∑ k : Fin 1536, lhs2K img B1 s1 h3 k * B2 k l) + s2 l)
def zhK (h4 : Fin 6) (l : Fin 768) : EReal := maxOver fun k : Fin 2 => zK img B1 s1 B2 s2 ⟨2 * h4.val + k.val, by omega⟩ l
def qK (h4 : Fin 6) (l : Fin 384) : EReal :=
  max (zhK img B1 s1 B2 s2 h4 ⟨l.val, by omega⟩) (zhK img B1 s1 B2 s2 h4 ⟨384 + l.val, by omega⟩)
def featK (f : Fin 2304) : EReal := qK img B1 s1 B2 s2 ⟨f.val / 384, by omega⟩ ⟨f.val % 384, by omega⟩
end K

/-! ## The weight permutations -/

/-- First-stage weight columns: even groups, 64 zero columns, odd groups, 64 zero columns. -/
def permB1 (B1 : Fin 84 → Fin 896 → EReal) (k : Fin 84) (l : Fin 1024) : EReal :=
  if h : l.val < 448 then B1 k ⟨64 * (l.val / 32) + l.val % 32, by omega⟩
  else if h' : l.val < 512 then zeroF
  else if h'' : l.val < 960 then B1 k ⟨64 * ((l.val - 512) / 32) + 32 + (l.val - 512) % 32, by omega⟩
  else zeroF
/-- The first-stage shift, permuted the same way. -/
def permS1 (s1 : Fin 896 → EReal) (l : Fin 1024) : EReal :=
  if h : l.val < 448 then s1 ⟨64 * (l.val / 32) + l.val % 32, by omega⟩
  else if h' : l.val < 512 then zeroF
  else if h'' : l.val < 960 then s1 ⟨64 * ((l.val - 512) / 32) + 32 + (l.val - 512) % 32, by omega⟩
  else zeroF
/-- Second-stage weight rows: each block of 448 rows followed by 64 zero rows. -/
def padB2 (B2 : Fin 1344 → Fin 768 → EReal) (k : Fin 1536) (l : Fin 768) : EReal :=
  if h : k.val % 512 < 448 then B2 ⟨448 * (k.val / 512) + k.val % 512, by omega⟩ l else zeroF
/-- The column order of the second stage: even groups of 64, then odd groups. -/
def perm2 (l : Fin 768) : Fin 768 :=
  if h : l.val < 384 then ⟨128 * (l.val / 64) + l.val % 64, by omega⟩
  else ⟨128 * ((l.val - 384) / 64) + 64 + (l.val - 384) % 64, by omega⟩
def permB2 (B2 : Fin 1344 → Fin 768 → EReal) (k : Fin 1536) (l : Fin 768) : EReal := padB2 B2 k (perm2 l)
def permS2 (s2 : Fin 768 → EReal) (l : Fin 768) : EReal := s2 (perm2 l)

/-! ## The three affine layers and the log-softmax -/

section M
variable (feat : Fin 2304 → EReal) (w1 : Fin 2304 → Fin 640 → EReal) (b1 : Fin 640 → EReal)
  (w2 : Fin 640 → Fin 128 → EReal) (b2 : Fin 128 → EReal) (w3 : Fin 128 → Fin 10 → EReal) (b3 : Fin 10 → EReal)

def fc1 (j : Fin 640) : EReal := (∑ k : Fin 2304, feat k * w1 k j) + b1 j
def fc2 (j : Fin 128) : EReal := (∑ k : Fin 640, fc1 feat w1 b1 k * w2 k j) + b2 j
def fc3 (j : Fin 10) : EReal := (∑ k : Fin 128, fc2 feat w1 b1 w2 b2 k * w3 k j) + b3 j
def shifted (j : Fin 10) : EReal := fc3 feat w1 b1 w2 b2 w3 b3 j - maxOver (fc3 feat w1 b1 w2 b2 w3 b3)
def logits (j : Fin 10) : EReal :=
  shifted feat w1 b1 w2 b2 w3 b3 j - Ideal.log (∑ k : Fin 10, Ideal.exp (shifted feat w1 b1 w2 b2 w3 b3 k))
end M

end Cert.Spec

end
-- ==== Proof.KPayConv1.lean ====
import proofs.«171558_g2000600275687624_pallasbulk_458_2_alg».proof.Proof.Gen.KernelIdeal.Skeleton
import proofs.«171558_g2000600275687624_pallasbulk_458_2_alg».proof.Proof.Spec
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.SL.Sem Cert.KernelIdeal Cert.KernelIdeal.Gen Idealize.ShloMosaic.ValueIdx

/-- The image block with a zero row above: row `h` holds image row `h - 1`, row 0 the zero word. -/
theorem padTop_apply (x : FVec Ideal S64x28x28 .f32) (z : Ideal .f32)
    (hs : S64x28x28.Slices ![0, 0, 0] S64x27x28) (hc : Shape.Concatenates [S64x1x28, S64x27x28] S64x28x28 1)
    (b : Fin 64) (h : Fin 28) (w : Fin 28) :
    concatenate S64x28x28 1 [⟨S64x1x28, broadcast S64x1x28 z⟩, ⟨S64x27x28, extractStridedSlice S64x27x28 ![0, 0, 0] x hs⟩] hc (ix3 b h w)
      = if h0 : h.val = 0 then z else x (ix3 b ⟨h.val - 1, by omega⟩ w) := by
  by_cases h0 : h.val = 0
  · rw [dif_pos h0]
    refine (concatenate_pair_apply_left (t := S64x28x28) (s₁ := S64x1x28) (s₂ := S64x27x28) (1 : Fin 3) _ _ hc (ix3 b h w) rfl (ix3 b (0 : Fin 1) w) ?_).trans ?_
    · intro a
      match a with
      | ⟨0, _⟩ => rfl
      | ⟨1, _⟩ => exact h0.symm
      | ⟨2, _⟩ => rfl
    · rfl
  · rw [dif_neg h0]
    refine (concatenate_pair_apply_right (t := S64x28x28) (s₁ := S64x1x28) (s₂ := S64x27x28) (1 : Fin 3) _ _ hc (ix3 b h w) rfl rfl (ix3 b (⟨h.val - 1, by omega⟩ : Fin 27) w) ?_ ?_).trans ?_
    · intro a ha
      match a with
      | ⟨0, _⟩ => rfl
      | ⟨1, _⟩ => exact absurd rfl ha
      | ⟨2, _⟩ => rfl
    · show h.val - 1 + 1 = h.val
      omega
    · refine extractStridedSlice_apply _ x hs _ _ ?_
      intro a
      match a with
      | ⟨0, _⟩ => exact (Nat.zero_add _).symm
      | ⟨1, _⟩ => exact (Nat.zero_add _).symm
      | ⟨2, _⟩ => exact (Nat.zero_add _).symm

/-- The image block with a zero row below: row `h` holds image row `h + 1`, row 27 the zero word. -/
theorem padBot_apply (x : FVec Ideal S64x28x28 .f32) (z : Ideal .f32)
    (hs : S64x28x28.Slices ![0, 1, 0] S64x27x28) (hc : Shape.Concatenates [S64x27x28, S64x1x28] S64x28x28 1)
    (b : Fin 64) (h : Fin 28) (w : Fin 28) :
    concatenate S64x28x28 1 [⟨S64x27x28, extractStridedSlice S64x27x28 ![0, 1, 0] x hs⟩, ⟨S64x1x28, broadcast S64x1x28 z⟩] hc (ix3 b h w)
      = if h27 : h.val = 27 then z else x (ix3 b ⟨h.val + 1, by omega⟩ w) := by
  by_cases h27 : h.val = 27
  · rw [dif_pos h27]
    refine (concatenate_pair_apply_right (t := S64x28x28) (s₁ := S64x27x28) (s₂ := S64x1x28) (1 : Fin 3) _ _ hc (ix3 b h w) rfl rfl (ix3 b (0 : Fin 1) w) ?_ ?_).trans ?_
    · intro a ha
      match a with
      | ⟨0, _⟩ => rfl
      | ⟨1, _⟩ => exact absurd rfl ha
      | ⟨2, _⟩ => rfl
    · show 0 + 27 = h.val
      omega
    · rfl
  · rw [dif_neg h27]
    refine (concatenate_pair_apply_left (t := S64x28x28) (s₁ := S64x27x28) (s₂ := S64x1x28) (1 : Fin 3) _ _ hc (ix3 b h w) rfl (ix3 b (⟨h.val, by omega⟩ : Fin 27) w) ?_).trans ?_
    · intro a
      match a with
      | ⟨0, _⟩ => rfl
      | ⟨1, _⟩ => rfl
      | ⟨2, _⟩ => rfl
    · refine extractStridedSlice_apply _ x hs _ _ ?_
      intro a
      match a with
      | ⟨0, _⟩ => exact (Nat.zero_add _).symm
      | ⟨1, _⟩ => exact Nat.add_comm _ _
      | ⟨2, _⟩ => exact (Nat.zero_add _).symm

/-- Three blocks side by side along the last axis: lane `k` reads block `k / 28` at lane `k % 28`. -/
theorem cat3_apply (A B C : FVec Ideal S64x28x28 .f32)
    (hc : Shape.Concatenates [S64x28x28, S64x28x28, S64x28x28] S64x28x84 2)
    (b : Fin 64) (h : Fin 28) (k : Fin 84) :
    concatenate S64x28x84 2 [⟨S64x28x28, A⟩, ⟨S64x28x28, B⟩, ⟨S64x28x28, C⟩] hc (ix3 b h k)
      = if h1 : k.val < 28 then A (ix3 b h ⟨k.val, h1⟩)
        else if h2 : k.val < 56 then B (ix3 b h ⟨k.val - 28, by omega⟩)
        else C (ix3 b h ⟨k.val - 56, by omega⟩) := by
  by_cases h1 : k.val < 28
  · rw [dif_pos h1]
    refine concatenate_apply_piece (t := S64x28x84) (2 : Fin 3) [⟨S64x28x28, A⟩, ⟨S64x28x28, B⟩, ⟨S64x28x28, C⟩] hc (ix3 b h k) 0 (by show 0 < 3; omega) S64x28x28 A rfl rfl 0 rfl
      (ix3 b h ⟨k.val, h1⟩) ?_ ?_
    · intro a ha
      match a with
      | ⟨0, _⟩ => rfl
      | ⟨1, _⟩ => rfl
      | ⟨2, _⟩ => exact absurd rfl ha
    · exact Nat.zero_add _
  · rw [dif_neg h1]
    by_cases h2 : k.val < 56
    · rw [dif_pos h2]
      refine concatenate_apply_piece (t := S64x28x84) (2 : Fin 3) [⟨S64x28x28, A⟩, ⟨S64x28x28, B⟩, ⟨S64x28x28, C⟩] hc (ix3 b h k) 1 (by show 1 < 3; omega) S64x28x28 B rfl rfl 28 rfl
        (ix3 b h ⟨k.val - 28, by omega⟩) ?_ ?_
      · intro a ha
        match a with
        | ⟨0, _⟩ => rfl
        | ⟨1, _⟩ => rfl
        | ⟨2, _⟩ => exact absurd rfl ha
      · show 28 + (k.val - 28) = k.val
        omega
    · rw [dif_neg h2]
      refine concatenate_apply_piece (t := S64x28x84) (2 : Fin 3) [⟨S64x28x28, A⟩, ⟨S64x28x28, B⟩, ⟨S64x28x28, C⟩] hc (ix3 b h k) 2 (by show 2 < 3; omega) S64x28x28 C rfl rfl 56 rfl
        (ix3 b h ⟨k.val - 56, by omega⟩) ?_ ?_
      · intro a ha
        match a with
        | ⟨0, _⟩ => rfl
        | ⟨1, _⟩ => rfl
        | ⟨2, _⟩ => exact absurd rfl ha
      · show 56 + (k.val - 56) = k.val
        omega

/-- The first convolution's left factor: at block row `(b, h)` and lane `k` it is row `h` of image `b`'s
    three-row window. -/
theorem lhs1K_apply (x : FVec Ideal S64x28x28 .f32)
    (hs0 : S64x28x28.Slices ![0, 0, 0] S64x27x28) (hc0 : Shape.Concatenates [S64x1x28, S64x27x28] S64x28x28 1)
    (hs1 : S64x28x28.Slices ![0, 1, 0] S64x27x28) (hc1 : Shape.Concatenates [S64x27x28, S64x1x28] S64x28x28 1)
    (hc : Shape.Concatenates [S64x28x28, S64x28x28, S64x28x28] S64x28x84 2)
    (b : Fin 64) (h : Fin 28) (k : Fin 84) :
    concatenate S64x28x84 2
        [⟨S64x28x28, concatenate S64x28x28 1 [⟨S64x1x28, broadcast S64x1x28 (Scalar.ofBits (F := Ideal) .f32 0x00000000#32)⟩,
            ⟨S64x27x28, extractStridedSlice S64x27x28 ![0, 0, 0] x hs0⟩] hc0⟩,
         ⟨S64x28x28, x⟩,
         ⟨S64x28x28, concatenate S64x28x28 1 [⟨S64x27x28, extractStridedSlice S64x27x28 ![0, 1, 0] x hs1⟩,
            ⟨S64x1x28, broadcast S64x1x28 (Scalar.ofBits (F := Ideal) .f32 0x00000000#32)⟩] hc1⟩] hc (ix3 b h k)
      = Spec.lhs1 (fun h w => x (ix3 b h w)) h k := by
  rw [cat3_apply]
  unfold Spec.lhs1
  by_cases h1 : k.val < 28
  · rw [dif_pos h1, dif_pos h1, padTop_apply]
    rfl
  · rw [dif_neg h1, dif_neg h1]
    by_cases h2 : k.val < 56
    · rw [dif_pos h2, dif_pos h2]
    · rw [dif_neg h2, dif_neg h2, padBot_apply]
      rfl

/-! ## The first matrix product -/

theorem dot1_lhs_0 (j : S1792x1024.Idx) (k : dot_S1792x84_S84x1024_S1792x1024_1_0_0_1_n_n.contr.Idx) :
    (dot_S1792x84_S84x1024_S1792x1024_1_0_0_1_n_n.lhsIdx j k 0).val = (j 0).val := by
  simp [DotDims.lhsIdx, dot_S1792x84_S84x1024_S1792x1024_1_0_0_1_n_n]
  rfl
theorem dot1_lhs_1 (j : S1792x1024.Idx) (k : dot_S1792x84_S84x1024_S1792x1024_1_0_0_1_n_n.contr.Idx) :
    (dot_S1792x84_S84x1024_S1792x1024_1_0_0_1_n_n.lhsIdx j k 1).val = (k ⟨0, by decide⟩).val :=
  dot_S1792x84_S84x1024_S1792x1024_1_0_0_1_n_n.lhsIdx_val_of_single rfl j k
theorem dot1_rhs_0 (j : S1792x1024.Idx) (k : dot_S1792x84_S84x1024_S1792x1024_1_0_0_1_n_n.contr.Idx) :
    (dot_S1792x84_S84x1024_S1792x1024_1_0_0_1_n_n.rhsIdx j k 0).val = (k ⟨0, by decide⟩).val :=
  dot_S1792x84_S84x1024_S1792x1024_1_0_0_1_n_n.rhsIdx_val_of_single rfl j k
theorem dot1_rhs_1 (j : S1792x1024.Idx) (k : dot_S1792x84_S84x1024_S1792x1024_1_0_0_1_n_n.contr.Idx) :
    (dot_S1792x84_S84x1024_S1792x1024_1_0_0_1_n_n.rhsIdx j k 1).val = (j 1).val := by
  simp [DotDims.rhsIdx, dot_S1792x84_S84x1024_S1792x1024_1_0_0_1_n_n]
  rfl

/-- The first matrix product into the zero accumulator, at row `r` and lane `l`: the sum over the 84 contracted lanes. -/
theorem matmul1_apply (A : FVec Ideal S1792x84 .f32) (W : FVec Ideal S84x1024 .f32) (r : Fin 1792) (l : Fin 1024) :
    matmul dot_S1792x84_S84x1024_S1792x1024_1_0_0_1_n_n none A W (constant (F := Ideal) S1792x1024 .f32 0x00000000#32) (ix2 r l)
      = ∑ k : Fin 84, A (ix2 r k) * W (ix2 k l) := by
  refine (Ideal.matmul_constant_zero_apply dot_S1792x84_S84x1024_S1792x1024_1_0_0_1_n_n none A W (ix2 r l)).trans ?_
  rw [← Equiv.sum_comp (contrEquiv1 dot_S1792x84_S84x1024_S1792x1024_1_0_0_1_n_n 84 rfl rfl).symm]
  refine Finset.sum_congr rfl fun c _ => ?_
  have hk := contrEquiv1_symm_val dot_S1792x84_S84x1024_S1792x1024_1_0_0_1_n_n 84 rfl rfl c
  have hl : dot_S1792x84_S84x1024_S1792x1024_1_0_0_1_n_n.lhsIdx (ix2 r l)
      ((contrEquiv1 dot_S1792x84_S84x1024_S1792x1024_1_0_0_1_n_n 84 rfl rfl).symm c) = ix2 r c := by
    funext ax; apply Fin.ext
    match ax with
    | ⟨0, _⟩ => exact dot1_lhs_0 _ _
    | ⟨1, _⟩ => exact (dot1_lhs_1 _ _).trans hk
  have hr : dot_S1792x84_S84x1024_S1792x1024_1_0_0_1_n_n.rhsIdx (ix2 r l)
      ((contrEquiv1 dot_S1792x84_S84x1024_S1792x1024_1_0_0_1_n_n 84 rfl rfl).symm c) = ix2 c l := by
    funext ax; apply Fin.ext
    match ax with
    | ⟨0, _⟩ => exact (dot1_rhs_0 _ _).trans hk
    | ⟨1, _⟩ => exact dot1_rhs_1 _ _
  rw [hl, hr]

/-- The reshape of the 64 x 28 x 84 factor to 1792 rows: row `28 b + h` is `(b, h)`. -/
theorem rows1_apply (A : FVec Ideal S64x28x84 .f32) (hh : S64x28x84.ShapeCasts S1792x84) (b : Fin 64) (h : Fin 28) (k : Fin 84) :
    shapeCast S1792x84 A hh (ix2 (⟨b.val * 28 + h.val, by omega⟩ : Fin 1792) k) = A (ix3 b h k) := by
  refine shapeCast_apply A hh _ _ ?_
  rw [Shape.rowMajor_val_three, Shape.rowMajor_val_two]
  rfl

/-- The first convolution with its shift and rectifier, at block row `(b, h)` and lane `l`. -/
theorem conv1_apply (L : FVec Ideal S64x28x84 .f32) (W : FVec Ideal S84x1024 .f32) (s : FVec Ideal S1x1024 .f32)
    (hh : S64x28x84.ShapeCasts S1792x84) (hb : S1x1024.Broadcasts S1792x1024) (b : Fin 64) (h : Fin 28) (l : Fin 1024) :
    maximumf (addf (matmul dot_S1792x84_S84x1024_S1792x1024_1_0_0_1_n_n none (shapeCast S1792x84 L hh) W
          (constant (F := Ideal) S1792x1024 .f32 0x00000000#32)) (broadcastTo S1792x1024 s hb))
        (broadcast S1792x1024 (Scalar.ofBits (F := Ideal) .f32 0x00000000#32)) (ix2 (⟨b.val * 28 + h.val, by omega⟩ : Fin 1792) l)
      = Spec.relu ((∑ k : Fin 84, L (ix3 b h k) * W (ix2 k l)) + s (ix2 0 l)) := by
  rw [maximumf_apply, addf_apply, matmul1_apply, broadcast_apply]
  unfold Spec.relu
  have hs : broadcastTo S1792x1024 s hb (ix2 (⟨b.val * 28 + h.val, by omega⟩ : Fin 1792) l) = s (ix2 0 l) := by
    refine broadcastTo_apply s hb _ _ ?_
    intro a
    match a with
    | ⟨0, _⟩ => rfl
    | ⟨1, _⟩ => rfl
  rw [hs]
  have hsum : ∀ k : Fin 84, shapeCast S1792x84 L hh (ix2 (⟨b.val * 28 + h.val, by omega⟩ : Fin 1792) k) = L (ix3 b h k) :=
    fun k => rows1_apply L hh b h k
  simp only [hsum]
  rfl

/-! ## The maximum over pairs of rows -/

/-- The reshape to pairs of rows and the maximum over each pair, started at minus infinity: pooled row `r` is the
    maximum of rows `2 r` and `2 r + 1`. -/
theorem pairMax1_apply (Y : FVec Ideal S1792x1024 .f32) (hh : S1792x1024.ShapeCasts S896x2x1024)
    (hr : S896x2x1024.Reduces [1] S896x1024) (hφ : FKind.Formats .f32)
    (hacc : (0xFF800000#32 : BitVec 32) = FKind.maximumf.neutral .f32 hφ) (r : Fin 896) (l : Fin 1024) :
    multiReduction .maximumf [1] S896x1024 (shapeCast S896x2x1024 Y hh) 0xFF800000#32 hr hφ hacc (ix2 r l)
      = Spec.maxOver fun k : Fin 2 => Y (ix2 (⟨2 * r.val + k.val, by omega⟩ : Fin 1792) l) := by
  refine (Ideal.multiReduction_maximumf_single (shapeCast S896x2x1024 Y hh) _ hr hφ hacc (ix2 r l)).trans ?_
  unfold Spec.maxOver Spec.negInf
  show (Finset.univ : Finset (Fin 2)).fold max _ _ = _
  congr 1
  funext k
  show shapeCast S896x2x1024 Y hh (hr.lift (ix2 r l) k) = _
  refine shapeCast_apply Y hh _ _ ?_
  rw [Shape.rowMajor_val_three, Shape.rowMajor_val_two]
  show (2 * r.val + k.val) * 1024 + l.val = (r.val * 2 + k.val) * 1024 + l.val
  omega

end Cert.KernelIdeal.Hand

end
-- ==== Proof.KPayConv.lean ====
import proofs.«171558_g2000600275687624_pallasbulk_458_2_alg».proof.Proof.Gen.KernelIdeal.Skeleton
import proofs.«171558_g2000600275687624_pallasbulk_458_2_alg».proof.Proof.Spec
import proofs.«171558_g2000600275687624_pallasbulk_458_2_alg».proof.Proof.KPayConv1
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.SL.Sem Cert.KernelIdeal Cert.KernelIdeal.Gen Idealize.ShloMosaic.ValueIdx

/-- Two rank-2 indices with equal coordinates are equal. -/
theorem ix2_congr {n0 n1 : Nat} {a a' : Fin n0} {b b' : Fin n1} (ha : a.val = a'.val) (hb : b.val = b'.val) :
    ix2 a b = ix2 a' b' := by
  cases Fin.ext ha; cases Fin.ext hb; rfl

/-! ## The maximum of the two half-lane slices -/

theorem halves1_apply (YH : FVec Ideal S896x1024 .f32) (h0 : S896x1024.Slices ![0, 0] S896x512)
    (h1 : S896x1024.Slices ![0, 512] S896x512) (r : Fin 896) (l : Fin 512) :
    maximumf (extractStridedSlice S896x512 ![0, 0] YH h0) (extractStridedSlice S896x512 ![0, 512] YH h1) (ix2 r l)
      = max (YH (ix2 r (⟨l.val, by omega⟩ : Fin 1024))) (YH (ix2 r (⟨512 + l.val, by omega⟩ : Fin 1024))) := by
  rw [maximumf_apply]
  congr 1
  · refine extractStridedSlice_apply _ YH h0 _ _ ?_
    intro a
    match a with
    | ⟨0, _⟩ => exact (Nat.zero_add _).symm
    | ⟨1, _⟩ => exact (Nat.zero_add _).symm
  · refine extractStridedSlice_apply _ YH h1 _ _ ?_
    intro a
    match a with
    | ⟨0, _⟩ => exact (Nat.zero_add _).symm
    | ⟨1, _⟩ => rfl

/-! ## The second convolution's left factor -/

/-- The pooled rows as 64 images of 14 rows, read `i` rows down: row `h3` of image `b` is pooled row `14 b + h3 + i`. -/
theorem rowShift_apply (Q : FVec Ideal S896x512 .f32) (hh : S896x512.ShapeCasts S64x14x512) (i : Nat) (hi : i ≤ 2)
    (hs : S64x14x512.Slices ![0, i, 0] S64x12x512) (b : Fin 64) (h3 : Fin 12) (w : Fin 512) :
    extractStridedSlice S64x12x512 ![0, i, 0] (shapeCast S64x14x512 Q hh) hs (ix3 b h3 w)
      = Q (ix2 (⟨b.val * 14 + (h3.val + i), by omega⟩ : Fin 896) w) := by
  refine (extractStridedSlice_apply _ _ hs _ (ix3 b (⟨h3.val + i, by omega⟩ : Fin 14) w) ?_).trans ?_
  · intro a
    match a with
    | ⟨0, _⟩ => exact (Nat.zero_add _).symm
    | ⟨1, _⟩ => exact Nat.add_comm _ _
    | ⟨2, _⟩ => exact (Nat.zero_add _).symm
  · refine shapeCast_apply Q hh _ _ ?_
    rw [Shape.rowMajor_val_three, Shape.rowMajor_val_two]
    rfl

/-- Three blocks side by side along the last axis: lane `k` reads block `k / 512` at lane `k % 512`. -/
theorem cat3b_apply (A B C : FVec Ideal S64x12x512 .f32)
    (hc : Shape.Concatenates [S64x12x512, S64x12x512, S64x12x512] S64x12x1536 2)
    (b : Fin 64) (h : Fin 12) (k : Fin 1536) :
    concatenate S64x12x1536 2 [⟨S64x12x512, A⟩, ⟨S64x12x512, B⟩, ⟨S64x12x512, C⟩] hc (ix3 b h k)
      = if h1 : k.val < 512 then A (ix3 b h ⟨k.val, h1⟩)
        else if h2 : k.val < 1024 then B (ix3 b h ⟨k.val - 512, by omega⟩)
        else C (ix3 b h ⟨k.val - 1024, by omega⟩) := by
  by_cases h1 : k.val < 512
  · rw [dif_pos h1]
    refine concatenate_apply_piece (t := S64x12x1536) (2 : Fin 3) [⟨S64x12x512, A⟩, ⟨S64x12x512, B⟩, ⟨S64x12x512, C⟩] hc (ix3 b h k) 0 (by show 0 < 3; omega) S64x12x512 A rfl rfl 0 rfl
      (ix3 b h ⟨k.val, h1⟩) ?_ ?_
    · intro a ha
      match a with
      | ⟨0, _⟩ => rfl
      | ⟨1, _⟩ => rfl
      | ⟨2, _⟩ => exact absurd rfl ha
    · exact Nat.zero_add _
  · rw [dif_neg h1]
    by_cases h2 : k.val < 1024
    · rw [dif_pos h2]
      refine concatenate_apply_piece (t := S64x12x1536) (2 : Fin 3) [⟨S64x12x512, A⟩, ⟨S64x12x512, B⟩, ⟨S64x12x512, C⟩] hc (ix3 b h k) 1 (by show 1 < 3; omega) S64x12x512 B rfl rfl 512 rfl
        (ix3 b h ⟨k.val - 512, by omega⟩) ?_ ?_
      · intro a ha
        match a with
        | ⟨0, _⟩ => rfl
        | ⟨1, _⟩ => rfl
        | ⟨2, _⟩ => exact absurd rfl ha
      · show 512 + (k.val - 512) = k.val
        omega
    · rw [dif_neg h2]
      refine concatenate_apply_piece (t := S64x12x1536) (2 : Fin 3) [⟨S64x12x512, A⟩, ⟨S64x12x512, B⟩, ⟨S64x12x512, C⟩] hc (ix3 b h k) 2 (by show 2 < 3; omega) S64x12x512 C rfl rfl 1024 rfl
        (ix3 b h ⟨k.val - 1024, by omega⟩) ?_ ?_
      · intro a ha
        match a with
        | ⟨0, _⟩ => rfl
        | ⟨1, _⟩ => rfl
        | ⟨2, _⟩ => exact absurd rfl ha
      · show 1024 + (k.val - 1024) = k.val
        omega

/-- Three row-shifted copies side by side: lane `k` of row `h3` reads pooled row `h3 + k / 512` at lane `k % 512`. -/
theorem lhs2K_apply (Q : FVec Ideal S896x512 .f32) (hh : S896x512.ShapeCasts S64x14x512)
    (h0 : S64x14x512.Slices ![0, 0, 0] S64x12x512) (h1 : S64x14x512.Slices ![0, 1, 0] S64x12x512)
    (h2 : S64x14x512.Slices ![0, 2, 0] S64x12x512)
    (hc : Shape.Concatenates [S64x12x512, S64x12x512, S64x12x512] S64x12x1536 2)
    (b : Fin 64) (h3 : Fin 12) (k : Fin 1536) :
    concatenate S64x12x1536 2
        [⟨S64x12x512, extractStridedSlice S64x12x512 ![0, 0, 0] (shapeCast S64x14x512 Q hh) h0⟩,
         ⟨S64x12x512, extractStridedSlice S64x12x512 ![0, 1, 0] (shapeCast S64x14x512 Q hh) h1⟩,
         ⟨S64x12x512, extractStridedSlice S64x12x512 ![0, 2, 0] (shapeCast S64x14x512 Q hh) h2⟩] hc (ix3 b h3 k)
      = Q (ix2 (⟨b.val * 14 + (h3.val + k.val / 512), by omega⟩ : Fin 896) (⟨k.val % 512, by omega⟩ : Fin 512)) := by
  rw [cat3b_apply]
  by_cases k1 : k.val < 512
  · rw [dif_pos k1]
    refine (rowShift_apply Q hh 0 (by omega) h0 b h3 _).trans (congrArg Q (ix2_congr ?_ ?_))
    · show b.val * 14 + (h3.val + 0) = b.val * 14 + (h3.val + k.val / 512)
      omega
    · show k.val = k.val % 512
      omega
  · rw [dif_neg k1]
    by_cases k2 : k.val < 1024
    · rw [dif_pos k2]
      refine (rowShift_apply Q hh 1 (by omega) h1 b h3 _).trans (congrArg Q (ix2_congr ?_ ?_))
      · show b.val * 14 + (h3.val + 1) = b.val * 14 + (h3.val + k.val / 512)
        omega
      · show k.val - 512 = k.val % 512
        omega
    · rw [dif_neg k2]
      refine (rowShift_apply Q hh 2 (by omega) h2 b h3 _).trans (congrArg Q (ix2_congr ?_ ?_))
      · show b.val * 14 + (h3.val + 2) = b.val * 14 + (h3.val + k.val / 512)
        omega
      · show k.val - 1024 = k.val % 512
        omega

/-! ## The second matrix product -/

theorem dot2_lhs_0 (j : S768x768.Idx) (k : dot_S768x1536_S1536x768_S768x768_1_0_0_1_n_n.contr.Idx) :
    (dot_S768x1536_S1536x768_S768x768_1_0_0_1_n_n.lhsIdx j k 0).val = (j 0).val := by
  simp [DotDims.lhsIdx, dot_S768x1536_S1536x768_S768x768_1_0_0_1_n_n]
  rfl
theorem dot2_lhs_1 (j : S768x768.Idx) (k : dot_S768x1536_S1536x768_S768x768_1_0_0_1_n_n.contr.Idx) :
    (dot_S768x1536_S1536x768_S768x768_1_0_0_1_n_n.lhsIdx j k 1).val = (k ⟨0, by decide⟩).val :=
  dot_S768x1536_S1536x768_S768x768_1_0_0_1_n_n.lhsIdx_val_of_single rfl j k
theorem dot2_rhs_0 (j : S768x768.Idx) (k : dot_S768x1536_S1536x768_S768x768_1_0_0_1_n_n.contr.Idx) :
    (dot_S768x1536_S1536x768_S768x768_1_0_0_1_n_n.rhsIdx j k 0).val = (k ⟨0, by decide⟩).val :=
  dot_S768x1536_S1536x768_S768x768_1_0_0_1_n_n.rhsIdx_val_of_single rfl j k
theorem dot2_rhs_1 (j : S768x768.Idx) (k : dot_S768x1536_S1536x768_S768x768_1_0_0_1_n_n.contr.Idx) :
    (dot_S768x1536_S1536x768_S768x768_1_0_0_1_n_n.rhsIdx j k 1).val = (j 1).val := by
  simp [DotDims.rhsIdx, dot_S768x1536_S1536x768_S768x768_1_0_0_1_n_n]
  rfl

/-- The second matrix product into the zero accumulator, at row `r` and lane `l`: the sum over the 1536 contracted lanes. -/
theorem matmul2_apply (A : FVec Ideal S768x1536 .f32) (W : FVec Ideal S1536x768 .f32) (r : Fin 768) (l : Fin 768) :
    matmul dot_S768x1536_S1536x768_S768x768_1_0_0_1_n_n none A W (constant (F := Ideal) S768x768 .f32 0x00000000#32) (ix2 r l)
      = ∑ k : Fin 1536, A (ix2 r k) * W (ix2 k l) := by
  refine (Ideal.matmul_constant_zero_apply dot_S768x1536_S1536x768_S768x768_1_0_0_1_n_n none A W (ix2 r l)).trans ?_
  rw [← Equiv.sum_comp (contrEquiv1 dot_S768x1536_S1536x768_S768x768_1_0_0_1_n_n 1536 rfl rfl).symm]
  refine Finset.sum_congr rfl fun c _ => ?_
  have hk := contrEquiv1_symm_val dot_S768x1536_S1536x768_S768x768_1_0_0_1_n_n 1536 rfl rfl c
  have hl : dot_S768x1536_S1536x768_S768x768_1_0_0_1_n_n.lhsIdx (ix2 r l)
      ((contrEquiv1 dot_S768x1536_S1536x768_S768x768_1_0_0_1_n_n 1536 rfl rfl).symm c) = ix2 r c := by
    funext ax; apply Fin.ext
    match ax with
    | ⟨0, _⟩ => exact dot2_lhs_0 _ _
    | ⟨1, _⟩ => exact (dot2_lhs_1 _ _).trans hk
  have hr : dot_S768x1536_S1536x768_S768x768_1_0_0_1_n_n.rhsIdx (ix2 r l)
      ((contrEquiv1 dot_S768x1536_S1536x768_S768x768_1_0_0_1_n_n 1536 rfl rfl).symm c) = ix2 c l := by
    funext ax; apply Fin.ext
    match ax with
    | ⟨0, _⟩ => exact (dot2_rhs_0 _ _).trans hk
    | ⟨1, _⟩ => exact dot2_rhs_1 _ _
  rw [hl, hr]

/-- The reshape of the 64 x 12 x 1536 factor to 768 rows: row `12 b + h` is `(b, h)`. -/
theorem rows2_apply (A : FVec Ideal S64x12x1536 .f32) (hh : S64x12x1536.ShapeCasts S768x1536) (b : Fin 64) (h : Fin 12) (k : Fin 1536) :
    shapeCast S768x1536 A hh (ix2 (⟨b.val * 12 + h.val, by omega⟩ : Fin 768) k) = A (ix3 b h k) := by
  refine shapeCast_apply A hh _ _ ?_
  rw [Shape.rowMajor_val_three, Shape.rowMajor_val_two]
  rfl

/-- The second convolution with its shift and rectifier, at block row `(b, h)` and lane `l`. -/
theorem conv2_apply (L : FVec Ideal S64x12x1536 .f32) (W : FVec Ideal S1536x768 .f32) (s : FVec Ideal S1x768 .f32)
    (hh : S64x12x1536.ShapeCasts S768x1536) (hb : S1x768.Broadcasts S768x768) (b : Fin 64) (h : Fin 12) (l : Fin 768) :
    maximumf (addf (matmul dot_S768x1536_S1536x768_S768x768_1_0_0_1_n_n none (shapeCast S768x1536 L hh) W
          (constant (F := Ideal) S768x768 .f32 0x00000000#32)) (broadcastTo S768x768 s hb))
        (broadcast S768x768 (Scalar.ofBits (F := Ideal) .f32 0x00000000#32)) (ix2 (⟨b.val * 12 + h.val, by omega⟩ : Fin 768) l)
      = Spec.relu ((∑ k : Fin 1536, L (ix3 b h k) * W (ix2 k l)) + s (ix2 0 l)) := by
  rw [maximumf_apply, addf_apply, matmul2_apply, broadcast_apply]
  unfold Spec.relu
  have hs : broadcastTo S768x768 s hb (ix2 (⟨b.val * 12 + h.val, by omega⟩ : Fin 768) l) = s (ix2 0 l) := by
    refine broadcastTo_apply s hb _ _ ?_
    intro a
    match a with
    | ⟨0, _⟩ => rfl
    | ⟨1, _⟩ => rfl
  rw [hs]
  have hsum : ∀ k : Fin 1536, shapeCast S768x1536 L hh (ix2 (⟨b.val * 12 + h.val, by omega⟩ : Fin 768) k) = L (ix3 b h k) :=
    fun k => rows2_apply L hh b h k
  simp only [hsum]
  rfl

/-- The second maximum over pairs of rows: pooled row `r` is the maximum of rows `2 r` and `2 r + 1`. -/
theorem pairMax2_apply (Z : FVec Ideal S768x768 .f32) (hh : S768x768.ShapeCasts S384x2x768)
    (hr : S384x2x768.Reduces [1] S384x768) (hφ : FKind.Formats .f32)
    (hacc : (0xFF800000#32 : BitVec 32) = FKind.maximumf.neutral .f32 hφ) (r : Fin 384) (l : Fin 768) :
    multiReduction .maximumf [1] S384x768 (shapeCast S384x2x768 Z hh) 0xFF800000#32 hr hφ hacc (ix2 r l)
      = Spec.maxOver fun k : Fin 2 => Z (ix2 (⟨2 * r.val + k.val, by omega⟩ : Fin 768) l) := by
  refine (Ideal.multiReduction_maximumf_single (shapeCast S384x2x768 Z hh) _ hr hφ hacc (ix2 r l)).trans ?_
  unfold Spec.maxOver Spec.negInf
  show (Finset.univ : Finset (Fin 2)).fold max _ _ = _
  congr 1
  funext k
  show shapeCast S384x2x768 Z hh (hr.lift (ix2 r l) k) = _
  refine shapeCast_apply Z hh _ _ ?_
  rw [Shape.rowMajor_val_three, Shape.rowMajor_val_two]
  show (2 * r.val + k.val) * 768 + l.val = (r.val * 2 + k.val) * 768 + l.val
  omega

/-! ## The stages with the identity reshapes of the arguments -/

theorem lhs1K_apply' (x : FVec Ideal S64x28x28 .f32) (hx : S64x28x28.ShapeCasts S64x28x28)
    (hs0 : S64x28x28.Slices ![0, 0, 0] S64x27x28) (hc0 : Shape.Concatenates [S64x1x28, S64x27x28] S64x28x28 1)
    (hs1 : S64x28x28.Slices ![0, 1, 0] S64x27x28) (hc1 : Shape.Concatenates [S64x27x28, S64x1x28] S64x28x28 1)
    (hc : Shape.Concatenates [S64x28x28, S64x28x28, S64x28x28] S64x28x84 2)
    (b : Fin 64) (h : Fin 28) (k : Fin 84) :
    concatenate S64x28x84 2
        [⟨S64x28x28, concatenate S64x28x28 1 [⟨S64x1x28, broadcast S64x1x28 (Scalar.ofBits (F := Ideal) .f32 0x00000000#32)⟩,
            ⟨S64x27x28, extractStridedSlice S64x27x28 ![0, 0, 0] (shapeCast S64x28x28 x hx) hs0⟩] hc0⟩,
         ⟨S64x28x28, shapeCast S64x28x28 x hx⟩,
         ⟨S64x28x28, concatenate S64x28x28 1 [⟨S64x27x28, extractStridedSlice S64x27x28 ![0, 1, 0] (shapeCast S64x28x28 x hx) hs1⟩,
            ⟨S64x1x28, broadcast S64x1x28 (Scalar.ofBits (F := Ideal) .f32 0x00000000#32)⟩] hc1⟩] hc (ix3 b h k)
      = Spec.lhs1 (fun h w => x (ix3 b h w)) h k := by
  rw [shapeCast_self x hx]
  exact lhs1K_apply x hs0 hc0 hs1 hc1 hc b h k

theorem conv1_apply' (L : FVec Ideal S64x28x84 .f32) (W : FVec Ideal S84x1024 .f32) (s : FVec Ideal S1x1024 .f32)
    (hh : S64x28x84.ShapeCasts S1792x84) (hW : S84x1024.ShapeCasts S84x1024) (hS : S1x1024.ShapeCasts S1x1024)
    (hb : S1x1024.Broadcasts S1792x1024) (b : Fin 64) (h : Fin 28) (r : Fin 1792) (hr : r.val = b.val * 28 + h.val) (l : Fin 1024) :
    maximumf (addf (matmul dot_S1792x84_S84x1024_S1792x1024_1_0_0_1_n_n none (shapeCast S1792x84 L hh) (shapeCast S84x1024 W hW)
          (constant (F := Ideal) S1792x1024 .f32 0x00000000#32)) (broadcastTo S1792x1024 (shapeCast S1x1024 s hS) hb))
        (broadcast S1792x1024 (Scalar.ofBits (F := Ideal) .f32 0x00000000#32)) (ix2 r l)
      = Spec.relu ((∑ k : Fin 84, L (ix3 b h k) * W (ix2 k l)) + s (ix2 0 l)) := by
  rw [show r = (⟨b.val * 28 + h.val, by omega⟩ : Fin 1792) from Fin.ext hr]
  rw [shapeCast_self W hW, shapeCast_self s hS]
  exact conv1_apply L W s hh hb b h l

theorem conv2_apply' (L : FVec Ideal S64x12x1536 .f32) (W : FVec Ideal S1536x768 .f32) (s : FVec Ideal S1x768 .f32)
    (hh : S64x12x1536.ShapeCasts S768x1536) (hW : S1536x768.ShapeCasts S1536x768) (hS : S1x768.ShapeCasts S1x768)
    (hb : S1x768.Broadcasts S768x768) (b : Fin 64) (h : Fin 12) (r : Fin 768) (hr : r.val = b.val * 12 + h.val) (l : Fin 768) :
    maximumf (addf (matmul dot_S768x1536_S1536x768_S768x768_1_0_0_1_n_n none (shapeCast S768x1536 L hh) (shapeCast S1536x768 W hW)
          (constant (F := Ideal) S768x768 .f32 0x00000000#32)) (broadcastTo S768x768 (shapeCast S1x768 s hS) hb))
        (broadcast S768x768 (Scalar.ofBits (F := Ideal) .f32 0x00000000#32)) (ix2 r l)
      = Spec.relu ((∑ k : Fin 1536, L (ix3 b h k) * W (ix2 k l)) + s (ix2 0 l)) := by
  rw [show r = (⟨b.val * 12 + h.val, by omega⟩ : Fin 768) from Fin.ext hr]
  rw [shapeCast_self W hW, shapeCast_self s hS]
  exact conv2_apply L W s hh hb b h l

/-! ## The convolution stage read at an index -/

theorem pay1_apply (x0 : Vec Ideal S64x28x28 .f32) (w1 : Vec Ideal S84x1024 .f32) (s1 : Vec Ideal S1x1024 .f32)
    (w2 : Vec Ideal S1536x768 .f32) (s2 : Vec Ideal S1x768 .f32) (b : Fin 64) (h4 : Fin 6) (l : Fin 768) :
    Gen.k0_pay1 x0 w1 s1 w2 s2 (ix2 (⟨b.val * 6 + h4.val, by omega⟩ : Fin 384) l)
      = Spec.zhK (fun h w => x0 (ix3 b h w)) (fun k l => w1 (ix2 k l)) (fun l => s1 (ix2 0 l))
          (fun k l => w2 (ix2 k l)) (fun l => s2 (ix2 0 l)) h4 l := by
  unfold Gen.k0_pay1
  refine (pairMax2_apply _ _ _ _ _ _ l).trans ?_
  unfold Spec.zhK
  refine congrArg Spec.maxOver (funext fun k => ?_)
  refine (conv2_apply' _ w2 s2 _ _ _ _ b (⟨2 * h4.val + k.val, by omega⟩ : Fin 12) _
    (by show 2 * (b.val * 6 + h4.val) + k.val = b.val * 12 + (2 * h4.val + k.val); omega) l).trans ?_
  unfold Spec.zK
  refine congrArg Spec.relu ?_
  refine congrArg₂ (· + ·) (Finset.sum_congr rfl fun c _ => ?_) rfl
  refine congrArg₂ (· * ·) ?_ rfl
  refine (lhs2K_apply _ _ _ _ _ _ b _ c).trans ?_
  refine (halves1_apply _ _ _ _ _).trans ?_
  unfold Spec.lhs2K Spec.p1K
  refine congrArg₂ max ?_ ?_
  all_goals
    refine (pairMax1_apply _ _ _ _ _ _ _).trans ?_
    unfold Spec.yhK
    refine congrArg Spec.maxOver (funext fun k' => ?_)
    refine (conv1_apply' _ w1 s1 _ _ _ _ b (⟨2 * (2 * h4.val + k.val + c.val / 512) + k'.val, by omega⟩ : Fin 28) _
      (by show 2 * (b.val * 14 + (2 * h4.val + k.val + c.val / 512)) + k'.val
            = b.val * 28 + (2 * (2 * h4.val + k.val + c.val / 512) + k'.val); omega) _).trans ?_
    unfold Spec.y1K
    refine congrArg Spec.relu ?_
    refine congrArg₂ (· + ·) (Finset.sum_congr rfl fun c' _ => ?_) rfl
    refine congrArg₂ (· * ·) ?_ rfl
    exact lhs1K_apply' x0 _ _ _ _ _ _ b _ c'

theorem pay2_apply (x0 : Vec Ideal S64x28x28 .f32) (w1 : Vec Ideal S84x1024 .f32) (s1 : Vec Ideal S1x1024 .f32)
    (w2 : Vec Ideal S1536x768 .f32) (s2 : Vec Ideal S1x768 .f32) (b : Fin 64) (h4 : Fin 6) (l : Fin 384) :
    Gen.k0_pay2 x0 w1 s1 w2 s2 (ix2 (⟨b.val * 6 + h4.val, by omega⟩ : Fin 384) l)
      = Spec.zhK (fun h w => x0 (ix3 b h w)) (fun k l => w1 (ix2 k l)) (fun l => s1 (ix2 0 l))
          (fun k l => w2 (ix2 k l)) (fun l => s2 (ix2 0 l)) h4 (⟨l.val, by omega⟩ : Fin 768) := by
  unfold Gen.k0_pay2
  refine (extractStridedSlice_apply _ _ _ _
    (ix2 (⟨b.val * 6 + h4.val, by omega⟩ : Fin 384) (⟨l.val, by omega⟩ : Fin 768)) ?_).trans
    (pay1_apply x0 w1 s1 w2 s2 b h4 _)
  intro a
  match a with
  | ⟨0, _⟩ => exact (Nat.zero_add _).symm
  | ⟨1, _⟩ => exact (Nat.zero_add _).symm

end Cert.KernelIdeal.Hand

end
-- ==== Proof.KPayMlp.lean ====
/-
  The kernel's last payload read at an index.

  The payload takes the 384 x 768 array of row-pooled second-stage outputs and the lower lane half already
  cut from it. It cuts the upper lane half, takes the maximum of the two halves (the lane pool), regroups the
  384 rows as 64 images of 6 rows, lays the six rows of each image side by side (2304 features an image),
  applies three affine layers (a product into the zero constant plus a broadcast bias row, three times) and a
  log-softmax along each row: the row maximum from minus infinity is subtracted, and then the logarithm of the
  row sum of the exponentials.

  Each operation is read at explicit coordinates by one small lemma, stated for any number of rows where the
  number of rows plays no part; the payload at row `b`, column `j` is then `Spec.logits` of image `b`'s features.
-/
import Idealize.ShloMosaic.PureOps.Ideal.Laws
import Idealize.ShloMosaic.Lib.ValueLayout
import proofs.«171558_g2000600275687624_pallasbulk_458_2_alg».proof.Proof.Gen.KernelIdeal.Skeleton
import proofs.«171558_g2000600275687624_pallasbulk_458_2_alg».proof.Proof.Spec

noncomputable section

namespace Cert.KernelIdeal.Hand

open Idealize.ShloMosaic Idealize.ShloMosaic.ValueIdx

open Cert.KernelIdeal Cert.KernelIdeal.Gen

namespace Mlp

/-! ## Operations read at an index, for any number of rows -/

section Generic

/-- A product into the zero constant, read at row `b`, column `j`: the sum over the contracted
    coordinate `k` of the left factor at `(b, k)` times the right factor at `(k, j)`. The four facts
    say which coordinate of each operand index is the output's and which the contracted one. -/
theorem matmul_zero_ix2 {n K m : Nat} (D : DotDims ⟨2, ![n, K]⟩ ⟨2, ![K, m]⟩ ⟨2, ![n, m]⟩)
    (hr : D.contr.rank = 1) (hs : D.contr.size ⟨0, by omega⟩ = K)
    (hl0 : ∀ (i : (⟨2, ![n, m]⟩ : Shape).Idx) (q : D.contr.Idx), (D.lhsIdx i q 0).val = (i 0).val)
    (hl1 : ∀ (i : (⟨2, ![n, m]⟩ : Shape).Idx) (q : D.contr.Idx), (D.lhsIdx i q 1).val = (q ⟨0, by omega⟩).val)
    (hr0 : ∀ (i : (⟨2, ![n, m]⟩ : Shape).Idx) (q : D.contr.Idx), (D.rhsIdx i q 0).val = (q ⟨0, by omega⟩).val)
    (hr1 : ∀ (i : (⟨2, ![n, m]⟩ : Shape).Idx) (q : D.contr.Idx), (D.rhsIdx i q 1).val = (i 1).val)
    (l : FVec Ideal ⟨2, ![n, K]⟩ .f32) (r : FVec Ideal ⟨2, ![K, m]⟩ .f32) (b : Fin n) (j : Fin m) :
    matmul D none l r (constant (F := Ideal) ⟨2, ![n, m]⟩ .f32 0x00000000#32) (ix2 b j)
      = ∑ k : Fin K, l (ix2 b k) * r (ix2 k j) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 b j) ((contrEquiv1 D K hr hs).symm k) = ix2 b k := funext fun a => Fin.ext (by
    match a with
    | ⟨0, _⟩ => exact hl0 _ _
    | ⟨1, _⟩ => exact (hl1 _ _).trans hk)
  have er : D.rhsIdx (ix2 b j) ((contrEquiv1 D K hr hs).symm k) = ix2 k j := funext fun a => Fin.ext (by
    match a with
    | ⟨0, _⟩ => exact (hr0 _ _).trans hk
    | ⟨1, _⟩ => exact hr1 _ _)
  rw [el, er]

/-- The maximum along a row of a ten-column array, started at the word `0xFF800000`. -/
theorem rowMax_apply {n : Nat} (x : FVec Ideal ⟨2, ![n, 10]⟩ .f32)
    (h : (⟨2, ![n, 10]⟩ : Shape).Reduces [1] ⟨1, ![n]⟩) (hφ : FKind.Formats .f32)
    (hacc : (0xFF800000#32 : BitVec 32) = 0xFF800000#32) (b : Fin n) :
    multiReduction (F := Ideal) .maximumf [1] ⟨1, ![n]⟩ x 0xFF800000#32 h hφ hacc (ix1 b)
      = Spec.maxOver fun k : Fin 10 => x (ix2 b k) := by
  refine (Ideal.multiReduction_maximumf_single x 0xFF800000#32 h hφ hacc (ix1 b)).trans ?_
  unfold Spec.maxOver Spec.negInf
  have e : (x ∘ h.lift (ix1 b)) = fun k : Fin 10 => x (ix2 b k) := funext fun k => congrArg x (funext fun a => Fin.ext (by
    match a with
    | ⟨0, _⟩ => rfl
    | ⟨1, _⟩ => rfl))
  rw [e]
  rfl

/-- The sum along a row of a ten-column array. -/
theorem rowSum_apply {n : Nat} (x : FVec Ideal ⟨2, ![n, 10]⟩ .f32)
    (h : (⟨2, ![n, 10]⟩ : Shape).Reduces [1] ⟨1, ![n]⟩) (hφ : FKind.Formats .f32)
    (hacc : (0x00000000#32 : BitVec 32) = 0x00000000#32) (b : Fin n) :
    multiReduction (F := Ideal) .add [1] ⟨1, ![n]⟩ x 0x00000000#32 h hφ hacc (ix1 b)
      = ∑ k : Fin 10, x (ix2 b k) := by
  refine (Ideal.multiReduction_add_single x 0x00000000#32 h hφ hacc (ix1 b)).trans ?_
  refine Finset.sum_congr rfl fun k _ => congrArg x (funext fun a => Fin.ext (by
    match a with
    | ⟨0, _⟩ => rfl
    | ⟨1, _⟩ => rfl))

/-- A vector of `n` entries cast to one column reads, at `(b, u)`, the vector at `b`. -/
theorem shapeCast_a_a1_apply {α : Type} {n : Nat} (x : (⟨1, ![n]⟩ : Shape).Idx → α)
    (h : (⟨1, ![n]⟩ : Shape).ShapeCasts ⟨2, ![n, 1]⟩) (b : Fin n) (u : Fin 1) :
    shapeCast ⟨2, ![n, 1]⟩ x h (ix2 b u) = x (ix1 b) :=
  shapeCast_apply x h _ _ (by
    have hu : u.val = 0 := by omega
    rw [Shape.rowMajor_val_two, Shape.rowMajor_val_one]
    show b.val = b.val * 1 + u.val
    rw [hu, Nat.mul_one, Nat.add_zero])

/-- One column broadcast over `m` columns reads, at `(b, j)`, the column at `b`. -/
theorem broadcastTo_a1_ab_apply {α : Type} {n m : Nat} (v : (⟨2, ![n, 1]⟩ : Shape).Idx → α)
    (h : (⟨2, ![n, 1]⟩ : Shape).Broadcasts ⟨2, ![n, m]⟩) (b : Fin n) (j : Fin m) :
    broadcastTo ⟨2, ![n, m]⟩ v h (ix2 b j) = v (ix2 b (0 : Fin 1)) := by
  refine broadcastTo_apply v h (ix2 b j) (ix2 b (0 : Fin 1)) fun ax => ?_
  match ax with
  | ⟨0, _⟩ =>
    show b.val = if n = 1 then 0 else b.val
    split
    · have := b.isLt; omega
    · rfl
  | ⟨1, _⟩ => rfl

/-- The exponential of an array, entry by entry. -/
theorem exp_apply {s : Shape} (x : FVec Ideal s .f32) (i : s.Idx) :
    Idealize.ShloMosaic.exp x i = Ideal.exp (x i) := rfl

/-- The logarithm of an array, entry by entry. -/
theorem log_apply {s : Shape} (x : FVec Ideal s .f32) (i : s.Idx) :
    Idealize.ShloMosaic.log x i = Ideal.log (x i) := rfl

end Generic

/-! ## The three products of this program, each into the zero constant -/

/-- The first layer's product at row `b`, column `j`. -/
theorem mm1_apply (l : FVec Ideal S64x2304 .f32) (r : FVec Ideal S2304x640 .f32) (b : Fin 64) (j : Fin 640) :
    matmul dot_S64x2304_S2304x640_S64x640_1_0_0_1_n_n none l r (constant (F := Ideal) S64x640 .f32 0x00000000#32) (ix2 b j)
      = ∑ k : Fin 2304, l (ix2 b k) * r (ix2 k j) :=
  matmul_zero_ix2 dot_S64x2304_S2304x640_S64x640_1_0_0_1_n_n rfl rfl (fun _ _ => rfl)
    (fun i q => dot_S64x2304_S2304x640_S64x640_1_0_0_1_n_n.lhsIdx_val_of_single rfl i q)
    (fun i q => dot_S64x2304_S2304x640_S64x640_1_0_0_1_n_n.rhsIdx_val_of_single rfl i q) (fun _ _ => rfl) l r b j

/-- The second layer's product at row `b`, column `j`. -/
theorem mm2_apply (l : FVec Ideal S64x640 .f32) (r : FVec Ideal S640x128 .f32) (b : Fin 64) (j : Fin 128) :
    matmul dot_S64x640_S640x128_S64x128_1_0_0_1_n_n none l r (constant (F := Ideal) S64x128 .f32 0x00000000#32) (ix2 b j)
      = ∑ k : Fin 640, l (ix2 b k) * r (ix2 k j) :=
  matmul_zero_ix2 dot_S64x640_S640x128_S64x128_1_0_0_1_n_n rfl rfl (fun _ _ => rfl)
    (fun i q => dot_S64x640_S640x128_S64x128_1_0_0_1_n_n.lhsIdx_val_of_single rfl i q)
    (fun i q => dot_S64x640_S640x128_S64x128_1_0_0_1_n_n.rhsIdx_val_of_single rfl i q) (fun _ _ => rfl) l r b j

/-- The third layer's product at row `b`, column `j`. -/
theorem mm3_apply (l : FVec Ideal S64x128 .f32) (r : FVec Ideal S128x10 .f32) (b : Fin 64) (j : Fin 10) :
    matmul dot_S64x128_S128x10_S64x10_1_0_0_1_n_n none l r (constant (F := Ideal) S64x10 .f32 0x00000000#32) (ix2 b j)
      = ∑ k : Fin 128, l (ix2 b k) * r (ix2 k j) :=
  matmul_zero_ix2 dot_S64x128_S128x10_S64x10_1_0_0_1_n_n rfl rfl (fun _ _ => rfl)
    (fun i q => dot_S64x128_S128x10_S64x10_1_0_0_1_n_n.lhsIdx_val_of_single rfl i q)
    (fun i q => dot_S64x128_S128x10_S64x10_1_0_0_1_n_n.rhsIdx_val_of_single rfl i q) (fun _ _ => rfl) l r b j

/-! ## The pooled rows laid side by side -/

/-- The upper half of the lanes: column `l` of the cut is column `384 + l` of the source. -/
theorem upperHalf_apply (X : FVec Ideal S384x768 .f32) (h : S384x768.Slices ![0, 384] S384x384)
    (r : Fin 384) (l : Fin 384) :
    extractStridedSlice S384x384 ![0, 384] X h (ix2 r l) = X (ix2 r ⟨384 + l.val, by omega⟩) :=
  slice2_axis1_apply 384 X h r l ⟨384 + l.val, by omega⟩ rfl

/-- Row `b * 6 + c` of the 384-row array is entry `(b, c)` of its 64 x 6 regrouping. -/
theorem regroup_apply (X : FVec Ideal S384x384 .f32) (h : S384x384.ShapeCasts S64x6x384)
    (b : Fin 64) (c : Fin 6) (l : Fin 384) :
    shapeCast S64x6x384 X h (ix3 b c l) = X (ix2 ⟨b.val * 6 + c.val, by omega⟩ l) :=
  shapeCast_apply X h _ _ (by
    rw [Shape.rowMajor_val_two, Shape.rowMajor_val_three]
    rfl)

/-- One of the six rows of a group, cut out and flattened: at `(b, l)` it reads the source at `(b, c, l)`. -/
theorem piece_apply (X : FVec Ideal S64x6x384 .f32) (o : Nat) (h : S64x6x384.Slices ![0, o, 0] S64x1x384)
    (h' : S64x1x384.ShapeCasts S64x384) (b : Fin 64) (c : Fin 6) (hc : c.val = o) (l : Fin 384) :
    shapeCast S64x384 (extractStridedSlice S64x1x384 ![0, o, 0] X h) h' (ix2 b l) = X (ix3 b c l) := by
  refine (shapeCast_apply _ h' (ix2 b l) (ix3 b (0 : Fin 1) l) (by
    rw [Shape.rowMajor_val_three, Shape.rowMajor_val_two]
    show (b.val * 1 + 0) * 384 + l.val = b.val * 384 + l.val
    rw [Nat.mul_one, Nat.add_zero])).trans ?_
  exact slice3_axis1_apply o X h b (0 : Fin 1) l c (by rw [hc]; rfl)

/-- The six rows of each group laid side by side: column `f` of the wide array is row `f / 384` of the
    group, column `f % 384`. Piece `c` starts at column `384 * c`. -/
theorem unstack_apply (X : FVec Ideal S64x6x384 .f32)
    (h0 : S64x6x384.Slices ![0, 0, 0] S64x1x384) (h1 : S64x6x384.Slices ![0, 1, 0] S64x1x384)
    (h2 : S64x6x384.Slices ![0, 2, 0] S64x1x384) (h3 : S64x6x384.Slices ![0, 3, 0] S64x1x384)
    (h4 : S64x6x384.Slices ![0, 4, 0] S64x1x384) (h5 : S64x6x384.Slices ![0, 5, 0] S64x1x384)
    (h' : S64x1x384.ShapeCasts S64x384)
    (hc : Shape.Concatenates [S64x384, S64x384, S64x384, S64x384, S64x384, S64x384] S64x2304 1)
    (b : Fin 64) (f : Fin 2304) :
    concatenate S64x2304 1
        [⟨S64x384, shapeCast S64x384 (extractStridedSlice S64x1x384 ![0, 0, 0] X h0) h'⟩,
         ⟨S64x384, shapeCast S64x384 (extractStridedSlice S64x1x384 ![0, 1, 0] X h1) h'⟩,
         ⟨S64x384, shapeCast S64x384 (extractStridedSlice S64x1x384 ![0, 2, 0] X h2) h'⟩,
         ⟨S64x384, shapeCast S64x384 (extractStridedSlice S64x1x384 ![0, 3, 0] X h3) h'⟩,
         ⟨S64x384, shapeCast S64x384 (extractStridedSlice S64x1x384 ![0, 4, 0] X h4) h'⟩,
         ⟨S64x384, shapeCast S64x384 (extractStridedSlice S64x1x384 ![0, 5, 0] X h5) h'⟩] hc (ix2 b f)
      = X (ix3 b ⟨f.val / 384, by omega⟩ ⟨f.val % 384, by omega⟩) := by
  have hf := f.isLt
  have side : ∀ a : Fin S64x384.rank, a.cast (rfl : S64x384.rank = S64x2304.rank) ≠ (1 : Fin S64x2304.rank) →
      ((ix2 b (⟨f.val % 384, by omega⟩ : Fin 384) : S64x384.Idx) a).val = ((ix2 b f : S64x2304.Idx) (a.cast rfl)).val := by
    intro a ha
    match a with
    | ⟨0, _⟩ => rfl
    | ⟨1, _⟩ => exact absurd rfl ha
  rcases (show f.val / 384 = 0 ∨ f.val / 384 = 1 ∨ f.val / 384 = 2 ∨ f.val / 384 = 3 ∨ f.val / 384 = 4
      ∨ f.val / 384 = 5 by omega) with e | e | e | e | e | e
  · refine (concatenate_apply_piece (1 : Fin S64x2304.rank)
      [⟨S64x384, _⟩, ⟨S64x384, _⟩, ⟨S64x384, _⟩, ⟨S64x384, _⟩, ⟨S64x384, _⟩, ⟨S64x384, _⟩] hc (ix2 b f) 0 (by simp)
      S64x384 _ rfl rfl 0 rfl (ix2 b ⟨f.val % 384, by omega⟩) side (by show 0 + f.val % 384 = f.val; omega)).trans ?_
    exact piece_apply X 0 h0 h' b ⟨f.val / 384, by omega⟩ e ⟨f.val % 384, by omega⟩
  · refine (concatenate_apply_piece (1 : Fin S64x2304.rank)
      [⟨S64x384, _⟩, ⟨S64x384, _⟩, ⟨S64x384, _⟩, ⟨S64x384, _⟩, ⟨S64x384, _⟩, ⟨S64x384, _⟩] hc (ix2 b f) 1 (by simp)
      S64x384 _ rfl rfl 384 rfl (ix2 b ⟨f.val % 384, by omega⟩) side (by show 384 + f.val % 384 = f.val; omega)).trans ?_
    exact piece_apply X 1 h1 h' b ⟨f.val / 384, by omega⟩ e ⟨f.val % 384, by omega⟩
  · refine (concatenate_apply_piece (1 : Fin S64x2304.rank)
      [⟨S64x384, _⟩, ⟨S64x384, _⟩, ⟨S64x384, _⟩, ⟨S64x384, _⟩, ⟨S64x384, _⟩, ⟨S64x384, _⟩] hc (ix2 b f) 2 (by simp)
      S64x384 _ rfl rfl 768 rfl (ix2 b ⟨f.val % 384, by omega⟩) side (by show 768 + f.val % 384 = f.val; omega)).trans ?_
    exact piece_apply X 2 h2 h' b ⟨f.val / 384, by omega⟩ e ⟨f.val % 384, by omega⟩
  · refine (concatenate_apply_piece (1 : Fin S64x2304.rank)
      [⟨S64x384, _⟩, ⟨S64x384, _⟩, ⟨S64x384, _⟩, ⟨S64x384, _⟩, ⟨S64x384, _⟩, ⟨S64x384, _⟩] hc (ix2 b f) 3 (by simp)
      S64x384 _ rfl rfl 1152 rfl (ix2 b ⟨f.val % 384, by omega⟩) side (by show 1152 + f.val % 384 = f.val; omega)).trans ?_
    exact piece_apply X 3 h3 h' b ⟨f.val / 384, by omega⟩ e ⟨f.val % 384, by omega⟩
  · refine (concatenate_apply_piece (1 : Fin S64x2304.rank)
      [⟨S64x384, _⟩, ⟨S64x384, _⟩, ⟨S64x384, _⟩, ⟨S64x384, _⟩, ⟨S64x384, _⟩, ⟨S64x384, _⟩] hc (ix2 b f) 4 (by simp)
      S64x384 _ rfl rfl 1536 rfl (ix2 b ⟨f.val % 384, by omega⟩) side (by show 1536 + f.val % 384 = f.val; omega)).trans ?_
    exact piece_apply X 4 h4 h' b ⟨f.val / 384, by omega⟩ e ⟨f.val % 384, by omega⟩
  · refine (concatenate_apply_piece (1 : Fin S64x2304.rank)
      [⟨S64x384, _⟩, ⟨S64x384, _⟩, ⟨S64x384, _⟩, ⟨S64x384, _⟩, ⟨S64x384, _⟩, ⟨S64x384, _⟩] hc (ix2 b f) 5 (by simp)
      S64x384 _ rfl rfl 1920 rfl (ix2 b ⟨f.val % 384, by omega⟩) side (by show 1920 + f.val % 384 = f.val; omega)).trans ?_
    exact piece_apply X 5 h5 h' b ⟨f.val / 384, by omega⟩ e ⟨f.val % 384, by omega⟩

end Mlp

/-! ## The payload at an index -/

/-- The last payload of the kernel's body at row `b`, column `j`: the log-softmax of the three affine
    layers applied to the pooled features of image `b`, the maximum of the two lane halves. Every operation
    is pushed to the index by its lemma above; what is left is `Spec.logits` unfolded. -/
theorem pay3_apply (v39 : FVec Ideal S384x768 .f32) (v40 : FVec Ideal S384x384 .f32) (fw1 : Vec Ideal S2304x640 .f32) (fb1 : Vec Ideal S1x640 .f32) (fw2 : Vec Ideal S640x128 .f32) (fb2 : Vec Ideal S1x128 .f32) (fw3 : Vec Ideal S128x10 .f32) (fb3 : Vec Ideal S1x10 .f32) (b : Fin 64) (j : Fin 10) :
    Gen.k0_pay3 v39 v40 fw1 fb1 fw2 fb2 fw3 fb3 (ix2 b j)
      = Spec.logits (fun f : Fin 2304 => max (v40 (ix2 ⟨b.val * 6 + f.val / 384, by omega⟩ ⟨f.val % 384, by omega⟩)) (v39 (ix2 ⟨b.val * 6 + f.val / 384, by omega⟩ ⟨384 + f.val % 384, by omega⟩)))
          (fun k j => fw1 (ix2 k j)) (fun j => fb1 (ix2 0 j)) (fun k j => fw2 (ix2 k j)) (fun j => fb2 (ix2 0 j)) (fun k j => fw3 (ix2 k j)) (fun j => fb3 (ix2 0 j)) j := by
  unfold Gen.k0_pay3
  simp -proj only [subf_apply, addf_apply, maximumf_apply, broadcastTo_1b_ab_apply, Mlp.exp_apply, Mlp.log_apply,
    Mlp.broadcastTo_a1_ab_apply, Mlp.shapeCast_a_a1_apply, Mlp.rowMax_apply, Mlp.rowSum_apply, Mlp.mm1_apply, Mlp.mm2_apply,
    Mlp.mm3_apply, Mlp.unstack_apply, Mlp.regroup_apply, Mlp.upperHalf_apply]
  rfl

end Cert.KernelIdeal.Hand

end
-- ==== Proof.KHost.lean ====
/-
  The buffers the host operations before the kernel region build, read at an index: the image array
  with its unit axis dropped, and the two weight matrices and two shift vectors with their columns
  permuted (even lane groups first, then odd ones) and padded with zeros.
-/
import proofs.«171558_g2000600275687624_pallasbulk_458_2_alg».proof.Proof.KEntry
import proofs.«171558_g2000600275687624_pallasbulk_458_2_alg».proof.Proof.Spec
import Idealize.ShloMosaic.Lib.StableHlo.Run
import Idealize.ShloMosaic.Lib.ValueIdx
import Idealize.ShloMosaic.Lib.Pipeline.Value

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

/-! ## A gather of whole columns, read at an index

The operand is `[R, N]`, the start indices an `[n, 1]` column of column numbers, the result `[R, n]`: offset axis 0
(the rows, whole), operand axis 1 collapsed and start-indexed. Result element `(k, l)` is the operand's at row `k` and
the column the `l`-th start index names, read signed and clamped into `[0, N - 1]`. -/

section Col
variable {α : Type}

/-- Those dimension numbers. -/
abbrev colDims (R N n : Nat) (wf : GatherDims.WF ⟨2, ![R, N]⟩ ⟨2, ![n, 1]⟩ ⟨2, ![R, n]⟩ [0] [1] [] [1] [] 1 ![R, 1]) :
    GatherDims ⟨2, ![R, N]⟩ ⟨2, ![n, 1]⟩ ⟨2, ![R, n]⟩ where
  offsetDims := [0]
  collapsedSliceDims := [1]
  operandBatchingDims := []
  startIndicesBatchingDims := []
  startIndexMap := [1]
  indexVectorDim := 1
  sliceSizes := ![R, 1]
  wf := wf

theorem gather_col_apply {R N n w : Nat} (hN : 0 < N)
    (wf : GatherDims.WF ⟨2, ![R, N]⟩ ⟨2, ![n, 1]⟩ ⟨2, ![R, n]⟩ [0] [1] [] [1] [] 1 ![R, 1])
    (x : (⟨2, ![R, N]⟩ : Shape).Idx → α) (idx : IVec ⟨2, ![n, 1]⟩ w) (k : Fin R) (l : Fin n) :
    Host.gather (colDims R N n wf) x idx (ix2 k l)
      = x (ix2 k ⟨min (idx (ix2 l (0 : Fin 1))).toInt.toNat (N - 1), by omega⟩) := by
  unfold Host.gather
  refine congrArg x (funext fun a => Fin.ext ?_)
  show (colDims R N n wf).start (ix2 k l) idx a + (colDims R N n wf).batchCoord (ix2 k l) a
    + (colDims R N n wf).offCoord (ix2 k l) a = _
  rw [GatherDims.batchCoord_eq_zero _ _ _ List.not_mem_nil, Nat.add_zero]
  match a with
  | ⟨0, _⟩ =>
    have h0 : (⟨0, by decide⟩ : Fin 2) ∉ (colDims R N n wf).startIndexMap := by
      show (⟨0, by decide⟩ : Fin 2) ∉ [(1 : Fin 2)]; decide
    have hk : (⟨0, by decide⟩ : Fin 2) ∈ (colDims R N n wf).sKept :=
      (GatherDims.mem_sKept _ _).2 ⟨(by show (⟨0, by decide⟩ : Fin 2) ∉ [(1 : Fin 2)]; decide), List.not_mem_nil⟩
    unfold GatherDims.start GatherDims.offCoord
    rw [dif_neg h0, dif_pos hk, Nat.zero_add]
    rfl
  | ⟨1, _⟩ =>
    have h1 : (⟨1, by decide⟩ : Fin 2) ∈ (colDims R N n wf).startIndexMap := by
      show (⟨1, by decide⟩ : Fin 2) ∈ [(1 : Fin 2)]; decide
    have hk : (⟨1, by decide⟩ : Fin 2) ∉ (colDims R N n wf).sKept := fun h =>
      ((GatherDims.mem_sKept _ _).1 h).1 (by show (⟨1, by decide⟩ : Fin 2) ∈ [(1 : Fin 2)]; decide)
    rw [GatherDims.offCoord_eq_zero _ _ _ hk, Nat.add_zero]
    unfold GatherDims.start
    rw [dif_pos h1]
    have hsi : (colDims R N n wf).siIdx (ix2 k l) ⟨List.idxOf (⟨1, by decide⟩ : Fin 2) (colDims R N n wf).startIndexMap,
        List.idxOf_lt_length_iff.2 h1⟩ = ix2 l (0 : Fin 1) := by
      funext b; refine Fin.ext ?_
      match b with
      | ⟨0, _⟩ => rfl
      | ⟨1, _⟩ => rfl
    rw [hsi]
    rfl

end Col

/-! ## The start indices: a table as a column -/

/-- The start indices a table of column numbers gives: the wrap-around branch of the select is never taken (its
    condition is the constant false), so the column reads the table. -/
theorem idxcol_apply {n : Nat} (hb : (⟨1, ![n]⟩ : Shape).BroadcastsInDim ⟨2, ![n, 1]⟩ ![0])
    (A T : IVec ⟨1, ![n]⟩ 32) (l : Fin n) :
    broadcastInDim ⟨2, ![n, 1]⟩ ![0] hb (select (constantI ⟨1, ![n]⟩ 1 0#1) A T) (ix2 l (0 : Fin 1)) = T (ix1 l) := by
  rw [broadcastInDim_apply _ _ _ _ (ix1 l) (fun a => ?_)]
  · rw [select_apply]; exact select_zero _ _
  · match a with
    | ⟨0, _⟩ =>
      show l.val = if n = 1 then 0 else l.val
      have := l.isLt
      split <;> omega

/-! ## Concatenations read at an index -/

section Cat
variable {α : Type}

/-- Four pieces side by side, of 448, 64, 448 and 64 columns. -/
theorem cat4_apply {R : Nat} (x0 : (⟨2, ![R, 448]⟩ : Shape).Idx → α) (x1 : (⟨2, ![R, 64]⟩ : Shape).Idx → α)
    (x2 : (⟨2, ![R, 448]⟩ : Shape).Idx → α) (x3 : (⟨2, ![R, 64]⟩ : Shape).Idx → α)
    (h : Shape.Concatenates [(⟨2, ![R, 448]⟩ : Shape), ⟨2, ![R, 64]⟩, ⟨2, ![R, 448]⟩, ⟨2, ![R, 64]⟩] ⟨2, ![R, 1024]⟩ 1)
    (k : Fin R) (l : Fin 1024) :
    concatenate (⟨2, ![R, 1024]⟩ : Shape) 1 [⟨_, x0⟩, ⟨_, x1⟩, ⟨_, x2⟩, ⟨_, x3⟩] h (ix2 k l)
      = if h0 : l.val < 448 then x0 (ix2 k ⟨l.val, h0⟩)
        else if h1 : l.val < 512 then x1 (ix2 k ⟨l.val - 448, by omega⟩)
        else if h2 : l.val < 960 then x2 (ix2 k ⟨l.val - 512, by omega⟩)
        else x3 (ix2 k ⟨l.val - 960, by omega⟩) := by
  have hl := l.isLt
  split
  · next h0 =>
    exact concatenate_apply_piece (t := ⟨2, ![R, 1024]⟩) 1 [⟨_, x0⟩, ⟨_, x1⟩, ⟨_, x2⟩, ⟨_, x3⟩] h (ix2 k l) 0 (by simp) _ x0 rfl rfl 0 rfl (ix2 k ⟨l.val, h0⟩)
      (fun b hb => by match b with | ⟨0, _⟩ => rfl | ⟨1, _⟩ => exact absurd rfl hb) (by show 0 + l.val = l.val; omega)
  · split
    · next h0 h1 =>
      exact concatenate_apply_piece (t := ⟨2, ![R, 1024]⟩) 1 [⟨_, x0⟩, ⟨_, x1⟩, ⟨_, x2⟩, ⟨_, x3⟩] h (ix2 k l) 1 (by simp) _ x1 rfl rfl 448 rfl (ix2 k ⟨l.val - 448, by omega⟩)
        (fun b hb => by match b with | ⟨0, _⟩ => rfl | ⟨1, _⟩ => exact absurd rfl hb) (by show 448 + (l.val - 448) = l.val; omega)
    · split
      · next h0 h1 h2 =>
        exact concatenate_apply_piece (t := ⟨2, ![R, 1024]⟩) 1 [⟨_, x0⟩, ⟨_, x1⟩, ⟨_, x2⟩, ⟨_, x3⟩] h (ix2 k l) 2 (by simp) _ x2 rfl rfl 512 rfl (ix2 k ⟨l.val - 512, by omega⟩)
          (fun b hb => by match b with | ⟨0, _⟩ => rfl | ⟨1, _⟩ => exact absurd rfl hb) (by show 512 + (l.val - 512) = l.val; omega)
      · next h0 h1 h2 =>
        exact concatenate_apply_piece (t := ⟨2, ![R, 1024]⟩) 1 [⟨_, x0⟩, ⟨_, x1⟩, ⟨_, x2⟩, ⟨_, x3⟩] h (ix2 k l) 3 (by simp) _ x3 rfl rfl 960 rfl (ix2 k ⟨l.val - 960, by omega⟩)
          (fun b hb => by match b with | ⟨0, _⟩ => rfl | ⟨1, _⟩ => exact absurd rfl hb) (by show 960 + (l.val - 960) = l.val; omega)

/-- Two pieces side by side, of 384 columns each. -/
theorem cat2_apply {R : Nat} (x0 x1 : (⟨2, ![R, 384]⟩ : Shape).Idx → α)
    (h : Shape.Concatenates [(⟨2, ![R, 384]⟩ : Shape), ⟨2, ![R, 384]⟩] ⟨2, ![R, 768]⟩ 1)
    (k : Fin R) (l : Fin 768) :
    concatenate (⟨2, ![R, 768]⟩ : Shape) 1 [⟨_, x0⟩, ⟨_, x1⟩] h (ix2 k l)
      = if h0 : l.val < 384 then x0 (ix2 k ⟨l.val, h0⟩) else x1 (ix2 k ⟨l.val - 384, by omega⟩) := by
  have hl := l.isLt
  split
  · next h0 =>
    exact concatenate_apply_piece (t := ⟨2, ![R, 768]⟩) 1 [⟨_, x0⟩, ⟨_, x1⟩] h (ix2 k l) 0 (by simp) _ x0 rfl rfl 0 rfl (ix2 k ⟨l.val, h0⟩)
      (fun b hb => by match b with | ⟨0, _⟩ => rfl | ⟨1, _⟩ => exact absurd rfl hb) (by show 0 + l.val = l.val; omega)
  · next h0 =>
    exact concatenate_apply_piece (t := ⟨2, ![R, 768]⟩) 1 [⟨_, x0⟩, ⟨_, x1⟩] h (ix2 k l) 1 (by simp) _ x1 rfl rfl 384 rfl (ix2 k ⟨l.val - 384, by omega⟩)
      (fun b hb => by match b with | ⟨0, _⟩ => rfl | ⟨1, _⟩ => exact absurd rfl hb) (by show 384 + (l.val - 384) = l.val; omega)

/-- Six pieces stacked: three blocks of 448 rows, each followed by a block of 64 rows. Row `k` falls in block
    `k / 512`, in its first piece when `k % 512 < 448`. -/
theorem cat6_apply {C : Nat} (y0 y1 y2 : (⟨2, ![448, C]⟩ : Shape).Idx → α) (z0 z1 z2 : (⟨2, ![64, C]⟩ : Shape).Idx → α)
    (h : Shape.Concatenates [(⟨2, ![448, C]⟩ : Shape), ⟨2, ![64, C]⟩, ⟨2, ![448, C]⟩, ⟨2, ![64, C]⟩, ⟨2, ![448, C]⟩, ⟨2, ![64, C]⟩]
      ⟨2, ![1536, C]⟩ 0)
    (k : Fin 1536) (l : Fin C) :
    concatenate (⟨2, ![1536, C]⟩ : Shape) 0 [⟨_, y0⟩, ⟨_, z0⟩, ⟨_, y1⟩, ⟨_, z1⟩, ⟨_, y2⟩, ⟨_, z2⟩] h (ix2 k l)
      = if h0 : k.val < 448 then y0 (ix2 ⟨k.val, h0⟩ l)
        else if h1 : k.val < 512 then z0 (ix2 ⟨k.val - 448, by omega⟩ l)
        else if h2 : k.val < 960 then y1 (ix2 ⟨k.val - 512, by omega⟩ l)
        else if h3 : k.val < 1024 then z1 (ix2 ⟨k.val - 960, by omega⟩ l)
        else if h4 : k.val < 1472 then y2 (ix2 ⟨k.val - 1024, by omega⟩ l)
        else z2 (ix2 ⟨k.val - 1472, by omega⟩ l) := by
  have hk := k.isLt
  split
  · next h0 =>
    exact concatenate_apply_piece (t := ⟨2, ![1536, C]⟩) 0 [⟨_, y0⟩, ⟨_, z0⟩, ⟨_, y1⟩, ⟨_, z1⟩, ⟨_, y2⟩, ⟨_, z2⟩] h (ix2 k l) 0 (by simp) _ y0 rfl rfl 0 rfl (ix2 ⟨k.val, h0⟩ l)
      (fun b hb => by match b with | ⟨0, _⟩ => exact absurd rfl hb | ⟨1, _⟩ => rfl) (by show 0 + k.val = k.val; omega)
  · split
    · next h0 h1 =>
      exact concatenate_apply_piece (t := ⟨2, ![1536, C]⟩) 0 [⟨_, y0⟩, ⟨_, z0⟩, ⟨_, y1⟩, ⟨_, z1⟩, ⟨_, y2⟩, ⟨_, z2⟩] h (ix2 k l) 1 (by simp) _ z0 rfl rfl 448 rfl (ix2 ⟨k.val - 448, by omega⟩ l)
        (fun b hb => by match b with | ⟨0, _⟩ => exact absurd rfl hb | ⟨1, _⟩ => rfl) (by show 448 + (k.val - 448) = k.val; omega)
    · split
      · next h0 h1 h2 =>
        exact concatenate_apply_piece (t := ⟨2, ![1536, C]⟩) 0 [⟨_, y0⟩, ⟨_, z0⟩, ⟨_, y1⟩, ⟨_, z1⟩, ⟨_, y2⟩, ⟨_, z2⟩] h (ix2 k l) 2 (by simp) _ y1 rfl rfl 512 rfl (ix2 ⟨k.val - 512, by omega⟩ l)
          (fun b hb => by match b with | ⟨0, _⟩ => exact absurd rfl hb | ⟨1, _⟩ => rfl) (by show 512 + (k.val - 512) = k.val; omega)
      · split
        · next h0 h1 h2 h3 =>
          exact concatenate_apply_piece (t := ⟨2, ![1536, C]⟩) 0 [⟨_, y0⟩, ⟨_, z0⟩, ⟨_, y1⟩, ⟨_, z1⟩, ⟨_, y2⟩, ⟨_, z2⟩] h (ix2 k l) 3 (by simp) _ z1 rfl rfl 960 rfl (ix2 ⟨k.val - 960, by omega⟩ l)
            (fun b hb => by match b with | ⟨0, _⟩ => exact absurd rfl hb | ⟨1, _⟩ => rfl) (by show 960 + (k.val - 960) = k.val; omega)
        · split
          · next h0 h1 h2 h3 h4 =>
            exact concatenate_apply_piece (t := ⟨2, ![1536, C]⟩) 0 [⟨_, y0⟩, ⟨_, z0⟩, ⟨_, y1⟩, ⟨_, z1⟩, ⟨_, y2⟩, ⟨_, z2⟩] h (ix2 k l) 4 (by simp) _ y2 rfl rfl 1024 rfl (ix2 ⟨k.val - 1024, by omega⟩ l)
              (fun b hb => by match b with | ⟨0, _⟩ => exact absurd rfl hb | ⟨1, _⟩ => rfl) (by show 1024 + (k.val - 1024) = k.val; omega)
          · next h0 h1 h2 h3 h4 =>
            exact concatenate_apply_piece (t := ⟨2, ![1536, C]⟩) 0 [⟨_, y0⟩, ⟨_, z0⟩, ⟨_, y1⟩, ⟨_, z1⟩, ⟨_, y2⟩, ⟨_, z2⟩] h (ix2 k l) 5 (by simp) _ z2 rfl rfl 1472 rfl (ix2 ⟨k.val - 1472, by omega⟩ l)
              (fun b hb => by match b with | ⟨0, _⟩ => exact absurd rfl hb | ⟨1, _⟩ => rfl) (by show 1472 + (k.val - 1472) = k.val; omega)

end Cat

/-- A gather of whole columns at the start indices a table gives: column `l` of the result is the operand's column
    the table names at `l`, once that number is known and in range. -/
theorem gather_tab_apply {α : Type} {R N n : Nat} (hN : 0 < N)
    (wf : GatherDims.WF ⟨2, ![R, N]⟩ ⟨2, ![n, 1]⟩ ⟨2, ![R, n]⟩ [0] [1] [] [1] [] 1 ![R, 1])
    (hb : (⟨1, ![n]⟩ : Shape).BroadcastsInDim ⟨2, ![n, 1]⟩ ![0])
    (x : (⟨2, ![R, N]⟩ : Shape).Idx → α) (A T : IVec ⟨1, ![n]⟩ 32) (k : Fin R) (l : Fin n)
    (v : Nat) (hv : v < N) (hT : (T (ix1 l)).toInt.toNat = v) :
    Host.gather (colDims R N n wf) x (broadcastInDim ⟨2, ![n, 1]⟩ ![0] hb (select (constantI ⟨1, ![n]⟩ 1 0#1) A T)) (ix2 k l)
      = x (ix2 k ⟨v, hv⟩) := by
  rw [gather_col_apply hN]
  refine congrArg x (congrArg (ix2 k) (Fin.ext ?_))
  show min (broadcastInDim ⟨2, ![n, 1]⟩ ![0] hb (select (constantI ⟨1, ![n]⟩ 1 0#1) A T) (ix2 l (0 : Fin 1))).toInt.toNat (N - 1) = v
  rw [idxcol_apply, hT]
  omega

/-! ## The four tables of column numbers

Each is decided once, as a statement over the position: the first pair lists, for the first stage, the lanes of the even
groups of 32 and of the odd groups; the second pair, for the second stage, the lanes of the even and odd groups of 64. -/

set_option maxRecDepth 100000 in
theorem lit0_val : ∀ l : Fin 448, (lit0 l).toInt.toNat = 64 * (l.val / 32) + l.val % 32 := by decide +kernel
set_option maxRecDepth 100000 in
theorem lit1_val : ∀ l : Fin 448, (lit1 l).toInt.toNat = 64 * (l.val / 32) + 32 + l.val % 32 := by decide +kernel
set_option maxRecDepth 100000 in
theorem lit2_val : ∀ l : Fin 384, (lit2 l).toInt.toNat = 128 * (l.val / 64) + l.val % 64 := by decide +kernel
set_option maxRecDepth 100000 in
theorem lit3_val : ∀ l : Fin 384, (lit3 l).toInt.toNat = 128 * (l.val / 64) + 64 + l.val % 64 := by decide +kernel

theorem rowMajor448 (l : Fin 448) : S448.rowMajor (ix1 l) = l := Fin.ext (Shape.rowMajor_val_one _)
theorem rowMajor384 (l : Fin 384) : S384.rowMajor (ix1 l) = l := Fin.ext (Shape.rowMajor_val_one _)

theorem tab0 (l : Fin 448) :
    ((fun i : S448.Idx => lit0 (S448.rowMajor i)) (ix1 l)).toInt.toNat = 64 * (l.val / 32) + l.val % 32 := by
  show (lit0 (S448.rowMajor (ix1 l))).toInt.toNat = _
  rw [rowMajor448]; exact lit0_val l
theorem tab1 (l : Fin 448) :
    ((fun i : S448.Idx => lit1 (S448.rowMajor i)) (ix1 l)).toInt.toNat = 64 * (l.val / 32) + 32 + l.val % 32 := by
  show (lit1 (S448.rowMajor (ix1 l))).toInt.toNat = _
  rw [rowMajor448]; exact lit1_val l
theorem tab2 (l : Fin 384) :
    ((fun i : S384.Idx => lit2 (S384.rowMajor i)) (ix1 l)).toInt.toNat = 128 * (l.val / 64) + l.val % 64 := by
  show (lit2 (S384.rowMajor (ix1 l))).toInt.toNat = _
  rw [rowMajor384]; exact lit2_val l
theorem tab3 (l : Fin 384) :
    ((fun i : S384.Idx => lit3 (S384.rowMajor i)) (ix1 l)).toInt.toNat = 128 * (l.val / 64) + 64 + l.val % 64 := by
  show (lit3 (S384.rowMajor (ix1 l))).toInt.toNat = _
  rw [rowMajor384]; exact lit3_val l

theorem perm2_lo (l : Fin 768) (h0 : l.val < 384) :
    Spec.perm2 l = ⟨128 * (l.val / 64) + l.val % 64, by omega⟩ := by
  unfold Spec.perm2; rw [dif_pos h0]
theorem perm2_hi (l : Fin 768) (h0 : ¬l.val < 384) :
    Spec.perm2 l = ⟨128 * ((l.val - 384) / 64) + 64 + (l.val - 384) % 64, by have := l.isLt; omega⟩ := by
  unfold Spec.perm2; rw [dif_neg h0]

/-- The second weight matrix's rows padded: each block of 448 rows is followed by 64 zero rows. -/
theorem pad_apply (B : S1344x768.Idx → EReal)
    (hs0 : S1344x768.Slices ![0, 0] S448x768) (hs1 : S1344x768.Slices ![448, 0] S448x768)
    (hs2 : S1344x768.Slices ![896, 0] S448x768) (hb : S_.BroadcastsInDim S64x768 ![])
    (h : Shape.Concatenates [S448x768, S64x768, S448x768, S64x768, S448x768, S64x768] S1536x768 0)
    (k : Fin 1536) (l : Fin 768) :
    concatenate S1536x768 0
      [⟨S448x768, extractStridedSlice S448x768 ![0, 0] B hs0⟩,
       ⟨S64x768, broadcastInDim S64x768 ![] hb (constant (F := Ideal) S_ .f32 0x00000000#32)⟩,
       ⟨S448x768, extractStridedSlice S448x768 ![448, 0] B hs1⟩,
       ⟨S64x768, broadcastInDim S64x768 ![] hb (constant (F := Ideal) S_ .f32 0x00000000#32)⟩,
       ⟨S448x768, extractStridedSlice S448x768 ![896, 0] B hs2⟩,
       ⟨S64x768, broadcastInDim S64x768 ![] hb (constant (F := Ideal) S_ .f32 0x00000000#32)⟩] h (ix2 k l)
      = Spec.padB2 (fun k l => B (ix2 k l)) k l := by
  rw [cat6_apply]
  unfold Spec.padB2
  have hk := k.isLt
  by_cases h0 : k.val < 448
  · rw [dif_pos h0, dif_pos (by omega : k.val % 512 < 448),
      extractStridedSlice_apply _ _ _ _ (ix2 ⟨448 * (k.val / 512) + k.val % 512, by omega⟩ l) (fun a => by
        match a with
        | ⟨0, _⟩ => show 448 * (k.val / 512) + k.val % 512 = 0 + k.val; omega
        | ⟨1, _⟩ => show l.val = 0 + l.val; omega)]
  · rw [dif_neg h0]
    by_cases h1 : k.val < 512
    · rw [dif_pos h1, dif_neg (by omega : ¬k.val % 512 < 448)]; rfl
    · rw [dif_neg h1]
      by_cases h2 : k.val < 960
      · rw [dif_pos h2, dif_pos (by omega : k.val % 512 < 448),
          extractStridedSlice_apply _ _ _ _ (ix2 ⟨448 * (k.val / 512) + k.val % 512, by omega⟩ l) (fun a => by
            match a with
            | ⟨0, _⟩ => show 448 * (k.val / 512) + k.val % 512 = 448 + (k.val - 512); omega
            | ⟨1, _⟩ => show l.val = 0 + l.val; omega)]
      · rw [dif_neg h2]
        by_cases h3 : k.val < 1024
        · rw [dif_pos h3, dif_neg (by omega : ¬k.val % 512 < 448)]; rfl
        · rw [dif_neg h3]
          by_cases h4 : k.val < 1472
          · rw [dif_pos h4, dif_pos (by omega : k.val % 512 < 448),
              extractStridedSlice_apply _ _ _ _ (ix2 ⟨448 * (k.val / 512) + k.val % 512, by omega⟩ l) (fun a => by
                match a with
                | ⟨0, _⟩ => show 448 * (k.val / 512) + k.val % 512 = 896 + (k.val - 1024); omega
                | ⟨1, _⟩ => show l.val = 0 + l.val; omega)]
          · rw [dif_neg h4, dif_neg (by omega : ¬k.val % 512 < 448)]; rfl

open StableHlo in
/-- The fold of the host operations at one buffer, rewritten in one pass: each operation's result at its own buffer is
    its function of its operands' contents, any other buffer keeps what it held; an operand family given as a literal
    tuple is read at its literal position. A second pass rewrites the contents of operands read that way. -/
macro "host_results" : tactic =>
  `(tactic| (simp (disch := decide) only [after_cons, after_nil,
      nullary_result', unary_result', binary_result', ternary_result', reshape_result', nary_result',
      nullary_result_ne', unary_result_ne', binary_result_ne', ternary_result_ne', reshape_result_ne', nary_result_ne',
      Matrix.cons_val_zero, Matrix.cons_val_one, Matrix.cons_val]))

variable (m : (ℓ : Loc nD τ sig) → Buf (Elt Ideal) ℓ) (c : Dev nD)

/-- The image array with its unit axis dropped. -/
theorem V_v0 (b : Fin 4096) (h w : Fin 28) : (V m c main_v0 : S4096x28x28.Idx → EReal) (ix3 b h w) = (m ((c : Thread nD τ).loc main_arg0) : S4096x1x28x28.Idx → EReal) (ix4 b 0 h w) := by
  have e : (V m c main_v0 : S4096x28x28.Idx → EReal)
      = shapeCast S4096x28x28 (m ((c : Thread nD τ).loc main_arg0) : S4096x1x28x28.Idx → EReal) shapeCasts_S4096x1x28x28_S4096x28x28 := by
    dsimp only [V, Gen.hostOps0]; after_results; rfl
  rw [e, shapeCast_apply _ _ _ (ix4 b 0 h w)]
  rw [Shape.rowMajor_val_four, Shape.rowMajor_val_three]
  show ((b.val * 1 + 0) * 28 + h.val) * 28 + w.val = (b.val * 28 + h.val) * 28 + w.val
  omega

/-- The first weight matrix: even lane groups, 64 zero columns, odd lane groups, 64 zero columns. -/
theorem V_v13 (k : Fin 84) (l : Fin 1024) : (V m c main_v13 : S84x1024.Idx → EReal) (ix2 k l) = Spec.permB1 (fun k l => (m ((c : Thread nD τ).loc main_arg1) : S84x896.Idx → EReal) (ix2 k l)) k l := by
  dsimp only [V, Gen.hostOps0]
  host_results
  try host_results
  rw [cat4_apply]
  unfold Spec.permB1
  have hg : gather_S84x896_S448x1_S84x448_0_1_n_n_1_1_841
      = colDims 84 896 448 gather_S84x896_S448x1_S84x448_0_1_n_n_1_1_841_wf := rfl
  have hl := l.isLt
  by_cases h0 : l.val < 448
  · rw [dif_pos h0, dif_pos h0, hg]
    exact gather_tab_apply (by decide) _ _ _ _ (fun i => lit0 (S448.rowMajor i)) k ⟨l.val, h0⟩ _ (by omega) (tab0 ⟨l.val, h0⟩)
  · rw [dif_neg h0, dif_neg h0]
    by_cases h1 : l.val < 512
    · rw [dif_pos h1, dif_pos h1]; rfl
    · rw [dif_neg h1, dif_neg h1]
      by_cases h2 : l.val < 960
      · rw [dif_pos h2, dif_pos h2, hg]
        exact gather_tab_apply (by decide) _ _ _ _ (fun i => lit1 (S448.rowMajor i)) k ⟨l.val - 512, by omega⟩ _ (by omega) (tab1 ⟨l.val - 512, by omega⟩)
      · rw [dif_neg h2, dif_neg h2]; rfl

/-- The first shift vector, permuted and padded the same way. -/
theorem V_v26 (l : Fin 1024) : (V m c main_v26 : S1x1024.Idx → EReal) (ix2 0 l) = Spec.permS1 (fun l => (m ((c : Thread nD τ).loc main_arg2) : S1x896.Idx → EReal) (ix2 0 l)) l := by
  dsimp only [V, Gen.hostOps0]
  host_results
  try host_results
  rw [cat4_apply]
  unfold Spec.permS1
  have hg : gather_S1x896_S448x1_S1x448_0_1_n_n_1_1_11
      = colDims 1 896 448 gather_S1x896_S448x1_S1x448_0_1_n_n_1_1_11_wf := rfl
  have hl := l.isLt
  by_cases h0 : l.val < 448
  · rw [dif_pos h0, dif_pos h0, hg]
    exact gather_tab_apply (by decide) _ _ _ _ (fun i => lit0 (S448.rowMajor i)) 0 ⟨l.val, h0⟩ _ (by omega) (tab0 ⟨l.val, h0⟩)
  · rw [dif_neg h0, dif_neg h0]
    by_cases h1 : l.val < 512
    · rw [dif_pos h1, dif_pos h1]; rfl
    · rw [dif_neg h1, dif_neg h1]
      by_cases h2 : l.val < 960
      · rw [dif_pos h2, dif_pos h2, hg]
        exact gather_tab_apply (by decide) _ _ _ _ (fun i => lit1 (S448.rowMajor i)) 0 ⟨l.val - 512, by omega⟩ _ (by omega) (tab1 ⟨l.val - 512, by omega⟩)
      · rw [dif_neg h2, dif_neg h2]; rfl

/-- The second weight matrix: rows padded block by block, columns the even lane groups then the odd ones. -/
theorem V_v42 (k : Fin 1536) (l : Fin 768) : (V m c main_v42 : S1536x768.Idx → EReal) (ix2 k l) = Spec.permB2 (fun k l => (m ((c : Thread nD τ).loc main_arg3) : S1344x768.Idx → EReal) (ix2 k l)) k l := by
  dsimp only [V, Gen.hostOps0]
  host_results
  try host_results
  rw [cat2_apply]
  have hg : gather_S1536x768_S384x1_S1536x384_0_1_n_n_1_1_15361
      = colDims 1536 768 384 gather_S1536x768_S384x1_S1536x384_0_1_n_n_1_1_15361_wf := rfl
  have hl := l.isLt
  unfold Spec.permB2
  by_cases h0 : l.val < 384
  · rw [dif_pos h0, hg, perm2_lo l h0]
    refine (gather_tab_apply (by decide) _ _ _ _ (fun i => lit2 (S384.rowMajor i)) k ⟨l.val, h0⟩ _
      (by omega : 128 * (l.val / 64) + l.val % 64 < 768) (tab2 ⟨l.val, h0⟩)).trans ?_
    exact pad_apply _ slices_S1344x768_S448x768_0_0 slices_S1344x768_S448x768_448_0 slices_S1344x768_S448x768_896_0
      bcast_S_S64x768 concatenates_S448x768_S64x768_S448x768_S64x768_S448x768_S64x768_S1536x768_d0 k _
  · rw [dif_neg h0, hg, perm2_hi l h0]
    refine (gather_tab_apply (by decide) _ _ _ _ (fun i => lit3 (S384.rowMajor i)) k ⟨l.val - 384, by omega⟩ _
      (by omega : 128 * ((l.val - 384) / 64) + 64 + (l.val - 384) % 64 < 768) (tab3 ⟨l.val - 384, by omega⟩)).trans ?_
    exact pad_apply _ slices_S1344x768_S448x768_0_0 slices_S1344x768_S448x768_448_0 slices_S1344x768_S448x768_896_0
      bcast_S_S64x768 concatenates_S448x768_S64x768_S448x768_S64x768_S448x768_S64x768_S1536x768_d0 k _

/-- The second shift vector, its entries in the same column order. -/
theorem V_v53 (l : Fin 768) : (V m c main_v53 : S1x768.Idx → EReal) (ix2 0 l) = Spec.permS2 (fun l => (m ((c : Thread nD τ).loc main_arg4) : S1x768.Idx → EReal) (ix2 0 l)) l := by
  dsimp only [V, Gen.hostOps0]
  host_results
  try host_results
  rw [cat2_apply]
  have hg : gather_S1x768_S384x1_S1x384_0_1_n_n_1_1_11
      = colDims 1 768 384 gather_S1x768_S384x1_S1x384_0_1_n_n_1_1_11_wf := rfl
  have hl := l.isLt
  unfold Spec.permS2
  by_cases h0 : l.val < 384
  · rw [dif_pos h0, hg, perm2_lo l h0]
    exact gather_tab_apply (by decide) _ _ _ _ (fun i => lit2 (S384.rowMajor i)) 0 ⟨l.val, h0⟩ _
      (by omega : 128 * (l.val / 64) + l.val % 64 < 768) (tab2 ⟨l.val, h0⟩)
  · rw [dif_neg h0, hg, perm2_hi l h0]
    exact gather_tab_apply (by decide) _ _ _ _ (fun i => lit3 (S384.rowMajor i)) 0 ⟨l.val - 384, by omega⟩ _
      (by omega : 128 * ((l.val - 384) / 64) + 64 + (l.val - 384) % 64 < 768) (tab3 ⟨l.val - 384, by omega⟩)

end Cert.KernelIdeal.Hand

end
-- ==== Proof.ConvAlgebra.lean ====
/-
  The two lane arrangements of the convolution stage agree: with the weight columns permuted beforehand, the
  half-against-half pool of the second arrangement is the neighbouring-groups pool of the first.

  First stage: lane `l < 448` of the permuted product is lane `64 * (l / 32) + l % 32` of the original one (an even
  group), and lane `512 + l` is lane `64 * (l / 32) + 32 + l % 32` (the odd group beside it): the same sum over the 84
  entries of a left-factor row and the same shift. Lanes 448..511 and 960..1023 are padding and are never compared
  here: in the second stage they meet zero rows of the padded weight matrix, and a product with zero is zero in the
  extended reals whatever the other factor is. So the sum over 1536 = 3 * 512 entries is the sum over
  1344 = 3 * 448 entries, reindexed by `448 * a + r ↦ 512 * a + r`.
-/
import proofs.«171558_g2000600275687624_pallasbulk_458_2_alg».proof.Proof.Spec
import Idealize.ShloMosaic.PureOps.Ideal.Laws
import Mathlib.Algebra.BigOperators.Group.Finset.Basic

noncomputable section

namespace Cert.Spec

open Idealize.ShloMosaic

variable (img : Fin 28 → Fin 28 → EReal) (B1 : Fin 84 → Fin 896 → EReal) (s1 : Fin 896 → EReal)
  (B2 : Fin 1344 → Fin 768 → EReal) (s2 : Fin 768 → EReal)

/-- The zero word is the extended real zero. -/
theorem zeroF_eq : zeroF = 0 := Ideal.ofBits_zero_f32

/-- Lower half of the first stage: lane `l < 448` is the even-group lane `64 * (l / 32) + l % 32`. -/
theorem y1K_lo (h : Fin 28) (l : Nat) (hl : l < 448) :
    y1K img (permB1 B1) (permS1 s1) h ⟨l, by omega⟩
      = y1R img B1 s1 h ⟨64 * (l / 32) + l % 32, by omega⟩ := by
  unfold y1K y1R permB1 permS1
  simp only [dif_pos hl]

/-- Upper half of the first stage: lane `512 + l`, `l < 448`, is the odd-group lane `64 * (l / 32) + 32 + l % 32`. -/
theorem y1K_hi (h : Fin 28) (l : Nat) (hl : l < 448) :
    y1K img (permB1 B1) (permS1 s1) h ⟨512 + l, by omega⟩
      = y1R img B1 s1 h ⟨64 * (l / 32) + 32 + l % 32, by omega⟩ := by
  have e1 : ¬ (512 + l < 448) := by omega
  have e2 : ¬ (512 + l < 512) := by omega
  have e3 : 512 + l < 960 := by omega
  unfold y1K y1R permB1 permS1
  simp only [dif_neg e1, dif_neg e2, dif_pos e3, Nat.add_sub_cancel_left]

theorem yhK_lo (h2 : Fin 14) (l : Nat) (hl : l < 448) :
    yhK img (permB1 B1) (permS1 s1) h2 ⟨l, by omega⟩
      = yhR img B1 s1 h2 ⟨64 * (l / 32) + l % 32, by omega⟩ := by
  unfold yhK yhR
  simp only [y1K_lo img B1 s1 _ l hl]

theorem yhK_hi (h2 : Fin 14) (l : Nat) (hl : l < 448) :
    yhK img (permB1 B1) (permS1 s1) h2 ⟨512 + l, by omega⟩
      = yhR img B1 s1 h2 ⟨64 * (l / 32) + 32 + l % 32, by omega⟩ := by
  unfold yhK yhR
  simp only [y1K_hi img B1 s1 _ l hl]

/-- The first pool: the maximum of the two halves is the maximum of the two neighbouring groups. -/
theorem p1K_eq (h2 : Fin 14) (l : Nat) (hl : l < 448) :
    p1K img (permB1 B1) (permS1 s1) h2 ⟨l, by omega⟩ = p1R img B1 s1 h2 ⟨l, hl⟩ := by
  unfold p1K p1R
  simp only [yhK_lo img B1 s1 h2 l hl, yhK_hi img B1 s1 h2 l hl]

/-- The second left factor away from the padding: entry `512 * a + r`, `r < 448`, is entry `448 * a + r`. -/
theorem lhs2K_eq (h3 : Fin 12) (k : Fin 1536) (hk : k.val % 512 < 448) :
    lhs2K img (permB1 B1) (permS1 s1) h3 k
      = lhs2R img B1 s1 h3 ⟨448 * (k.val / 512) + k.val % 512, by omega⟩ := by
  unfold lhs2K lhs2R
  rw [p1K_eq img B1 s1 _ (k.val % 512) hk]
  congr 1
  · apply Fin.ext
    show h3.val + k.val / 512 = h3.val + (448 * (k.val / 512) + k.val % 512) / 448
    omega
  · apply Fin.ext
    show k.val % 512 = (448 * (k.val / 512) + k.val % 512) % 448
    omega

/-- A sum over three blocks of 512 whose last 64 entries per block vanish is the sum over three blocks of 448. -/
theorem sum_pad (F : Fin 1536 → EReal) (G : Fin 1344 → EReal)
    (h0 : ∀ k : Fin 1536, ¬ k.val % 512 < 448 → F k = 0)
    (h1 : ∀ (k : Fin 1536) (hk : k.val % 512 < 448),
      F k = G ⟨448 * (k.val / 512) + k.val % 512, by omega⟩) :
    ∑ k : Fin 1536, F k = ∑ k : Fin 1344, G k := by
  symm
  refine Finset.sum_of_injOn (fun j : Fin 1344 => (⟨512 * (j.val / 448) + j.val % 448, by omega⟩ : Fin 1536))
    ?_ ?_ ?_ ?_
  · intro a _ b _ hab
    have := congrArg Fin.val hab
    simp only at this
    apply Fin.ext
    omega
  · intro a _
    exact Finset.mem_univ _
  · intro k _ hk
    apply h0
    intro hlt
    apply hk
    refine ⟨⟨448 * (k.val / 512) + k.val % 512, by omega⟩, Finset.mem_coe.2 (Finset.mem_univ _), ?_⟩
    apply Fin.ext
    show 512 * ((448 * (k.val / 512) + k.val % 512) / 448) + (448 * (k.val / 512) + k.val % 512) % 448 = k.val
    omega
  · intro j _
    have hj : (512 * (j.val / 448) + j.val % 448) % 512 < 448 := by omega
    rw [h1 _ hj]
    congr 1
    apply Fin.ext
    show j.val = 448 * ((512 * (j.val / 448) + j.val % 448) / 512) + (512 * (j.val / 448) + j.val % 448) % 512
    omega

/-- The second stage: column `l` of the permuted product is column `perm2 l` of the original one. -/
theorem zK_eq (h3 : Fin 12) (l : Fin 768) :
    zK img (permB1 B1) (permS1 s1) (permB2 B2) (permS2 s2) h3 l = zR img B1 s1 B2 s2 h3 (perm2 l) := by
  have hs : (∑ k : Fin 1536, lhs2K img (permB1 B1) (permS1 s1) h3 k * padB2 B2 k (perm2 l))
      = ∑ k : Fin 1344, lhs2R img B1 s1 h3 k * B2 k (perm2 l) := by
    apply sum_pad (fun k : Fin 1536 => lhs2K img (permB1 B1) (permS1 s1) h3 k * padB2 B2 k (perm2 l))
      (fun k : Fin 1344 => lhs2R img B1 s1 h3 k * B2 k (perm2 l))
    · intro k hk
      show lhs2K img (permB1 B1) (permS1 s1) h3 k * padB2 B2 k (perm2 l) = 0
      unfold padB2
      rw [dif_neg hk, zeroF_eq, mul_zero]
    · intro k hk
      show lhs2K img (permB1 B1) (permS1 s1) h3 k * padB2 B2 k (perm2 l)
        = lhs2R img B1 s1 h3 ⟨448 * (k.val / 512) + k.val % 512, by omega⟩
          * B2 ⟨448 * (k.val / 512) + k.val % 512, by omega⟩ (perm2 l)
      unfold padB2
      rw [dif_pos hk, lhs2K_eq img B1 s1 h3 k hk]
  show relu ((∑ k : Fin 1536, lhs2K img (permB1 B1) (permS1 s1) h3 k * padB2 B2 k (perm2 l)) + s2 (perm2 l))
    = relu ((∑ k : Fin 1344, lhs2R img B1 s1 h3 k * B2 k (perm2 l)) + s2 (perm2 l))
  rw [hs]

theorem zhK_eq (h4 : Fin 6) (l : Fin 768) :
    zhK img (permB1 B1) (permS1 s1) (permB2 B2) (permS2 s2) h4 l = zhR img B1 s1 B2 s2 h4 (perm2 l) := by
  unfold zhK zhR
  simp only [zK_eq]

/-- The second pool: the two halves are the two neighbouring groups of 64. -/
theorem qK_eq (h4 : Fin 6) (l : Fin 384) :
    qK img (permB1 B1) (permS1 s1) (permB2 B2) (permS2 s2) h4 l = qR img B1 s1 B2 s2 h4 l := by
  unfold qK qR
  rw [zhK_eq, zhK_eq]
  have hl : l.val < 384 := l.isLt
  have p1 : perm2 ⟨l.val, by omega⟩ = ⟨128 * (l.val / 64) + l.val % 64, by omega⟩ := by
    unfold perm2
    rw [dif_pos hl]
  have p2 : perm2 ⟨384 + l.val, by omega⟩ = ⟨128 * (l.val / 64) + 64 + l.val % 64, by omega⟩ := by
    have e : ¬ (384 + l.val < 384) := by omega
    unfold perm2
    rw [dif_neg e]
    apply Fin.ext
    simp only [Nat.add_sub_cancel_left]
  rw [p1, p2]

/-- The pooled features of the two arrangements agree. -/
theorem featK_perm (img : Fin 28 → Fin 28 → EReal) (B1 : Fin 84 → Fin 896 → EReal) (s1 : Fin 896 → EReal)
    (B2 : Fin 1344 → Fin 768 → EReal) (s2 : Fin 768 → EReal) :
    featK img (permB1 B1) (permS1 s1) (permB2 B2) (permS2 s2) = featR img B1 s1 B2 s2 := by
  funext f
  unfold featK featR
  exact qK_eq img B1 s1 B2 s2 _ _

end Cert.Spec

end
-- ==== Proof.SpecNet.lean ====
/-
  The whole network as one function of the eleven argument arrays: entry `(B, j)` of the result is the
  log-softmax score of class `j` for image `B`, computed from that image alone — the convolution stage
  (lanes in column-major order), the three affine layers and the log-softmax of `Cert.Spec`.
-/
import proofs.«171558_g2000600275687624_pallasbulk_458_2_alg».proof.Proof.Spec

noncomputable section

namespace Cert.Spec

open Idealize.ShloMosaic Idealize.ShloMosaic.ValueIdx

/-- Image `B` of the batch. -/
def imgOf (x : (⟨4, ![4096, 1, 28, 28]⟩ : Shape).Idx → EReal) (B : Fin 4096) : Fin 28 → Fin 28 → EReal :=
  fun h w => x (ix4 B 0 h w)
/-- A matrix argument read by row and column. -/
def mat {r c : Nat} (a : (⟨2, ![r, c]⟩ : Shape).Idx → EReal) : Fin r → Fin c → EReal := fun k l => a (ix2 k l)
/-- A one-row argument read by column. -/
def row {c : Nat} (a : (⟨2, ![1, c]⟩ : Shape).Idx → EReal) : Fin c → EReal := fun l => a (ix2 0 l)

/-- The scores of image `B`. -/
def netRow (x : (⟨4, ![4096, 1, 28, 28]⟩ : Shape).Idx → EReal)
    (B1 : (⟨2, ![84, 896]⟩ : Shape).Idx → EReal) (s1 : (⟨2, ![1, 896]⟩ : Shape).Idx → EReal)
    (B2 : (⟨2, ![1344, 768]⟩ : Shape).Idx → EReal) (s2 : (⟨2, ![1, 768]⟩ : Shape).Idx → EReal)
    (w1 : (⟨2, ![2304, 640]⟩ : Shape).Idx → EReal) (b1 : (⟨2, ![1, 640]⟩ : Shape).Idx → EReal)
    (w2 : (⟨2, ![640, 128]⟩ : Shape).Idx → EReal) (b2 : (⟨2, ![1, 128]⟩ : Shape).Idx → EReal)
    (w3 : (⟨2, ![128, 10]⟩ : Shape).Idx → EReal) (b3 : (⟨2, ![1, 10]⟩ : Shape).Idx → EReal)
    (B : Fin 4096) (j : Fin 10) : EReal :=
  logits (featR (imgOf x B) (mat B1) (row s1) (mat B2) (row s2)) (mat w1) (row b1) (mat w2) (row b2) (mat w3) (row b3) j

/-- The result array. -/
def net (x : (⟨4, ![4096, 1, 28, 28]⟩ : Shape).Idx → EReal)
    (B1 : (⟨2, ![84, 896]⟩ : Shape).Idx → EReal) (s1 : (⟨2, ![1, 896]⟩ : Shape).Idx → EReal)
    (B2 : (⟨2, ![1344, 768]⟩ : Shape).Idx → EReal) (s2 : (⟨2, ![1, 768]⟩ : Shape).Idx → EReal)
    (w1 : (⟨2, ![2304, 640]⟩ : Shape).Idx → EReal) (b1 : (⟨2, ![1, 640]⟩ : Shape).Idx → EReal)
    (w2 : (⟨2, ![640, 128]⟩ : Shape).Idx → EReal) (b2 : (⟨2, ![1, 128]⟩ : Shape).Idx → EReal)
    (w3 : (⟨2, ![128, 10]⟩ : Shape).Idx → EReal) (b3 : (⟨2, ![1, 10]⟩ : Shape).Idx → EReal) :
    (⟨2, ![4096, 10]⟩ : Shape).Idx → EReal :=
  fun i => netRow x B1 s1 B2 s2 w1 b1 w2 b2 w3 b3 ⟨(i 0).val, idx2_lt0 i⟩ ⟨(i 1).val, idx2_lt1 i⟩

end Cert.Spec

end
-- ==== Proof.KValue.lean ====
/-
  From blocks to the array, for the idealized kernel program. Grid point `t` of the 64 points takes
  images `64 t … 64 t + 63` (the only window whose block moves with the point, besides the output) and
  every weight array whole; it writes rows `64 t … 64 t + 63` of the 4096 × 10 result. So the blocks of
  the output tile the result array, and the result is ONE function of the arrays the region finds:
  row `B` is computed from image `B` alone.
-/
import proofs.«171558_g2000600275687624_pallasbulk_458_2_alg».proof.Proof.KFrame
import proofs.«171558_g2000600275687624_pallasbulk_458_2_alg».proof.Proof.KPayConv
import proofs.«171558_g2000600275687624_pallasbulk_458_2_alg».proof.Proof.KPayMlp
import proofs.«171558_g2000600275687624_pallasbulk_458_2_alg».proof.Proof.KHost
import proofs.«171558_g2000600275687624_pallasbulk_458_2_alg».proof.Proof.ConvAlgebra
import proofs.«171558_g2000600275687624_pallasbulk_458_2_alg».proof.Proof.SpecNet
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the image window and the output window sit at block `t` on their
    leading axis, every other coordinate of every window's block index is zero. -/
theorem idx_facts : ∀ t : Fin cfg0.N,
    win0_0.index t (0 : Fin 3) = t.val ∧ win0_0.index t (1 : Fin 3) = 0 ∧ win0_0.index t (2 : Fin 3) = 0
    ∧ win0_11.index t (0 : Fin 2) = t.val ∧ win0_11.index t (1 : Fin 2) = 0 :=
  (by decide +kernel : ∀ t : Fin grid0.N, _)

theorem idx_const : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-- Image `b` of point `t`'s block is image `64 t + b` of the batch. -/
theorem iblk0_apply (c : Dev nD) (t : Fin cfg0.N) (b : Fin 64) (h w : Fin 28) (hB : t.val * 64 + b.val < 4096) :
    (iblk m c 0 t : S64x28x28.Idx → EReal) (ix3 b h w)
      = (V m c main_v0 : S4096x28x28.Idx → EReal) (ix3 ⟨t.val * 64 + b.val, hB⟩ h w) := by
  obtain ⟨e0, e1, e2, -, -⟩ := idx_facts t
  show (V m c main_v0 : S4096x28x28.Idx → EReal) (((cfg0.win 0).blk t).view.emb (ix3 b h w)) = _
  refine congrArg _ (funext fun a => Fin.ext ?_)
  match a with
  | ⟨0, _⟩ => show win0_0.index t (0 : Fin 3) * 64 + 1 * b.val = t.val * 64 + b.val; omega
  | ⟨1, _⟩ => show win0_0.index t (1 : Fin 3) * 28 + 1 * h.val = h.val; omega
  | ⟨2, _⟩ => show win0_0.index t (2 : Fin 3) * 28 + 1 * w.val = w.val; omega

/-! Every weight window is its whole array at every point. -/

theorem iblk1_eq (c : Dev nD) (t : Fin cfg0.N) : (iblk m c 1 t : S84x1024.Idx → EReal) = (V m c main_v13 : S84x1024.Idx → EReal) := by
  obtain ⟨⟨e0, e1⟩, -, -, -, -, -, -, -, -, -⟩ := idx_const t
  funext y
  show (V m c main_v13 : S84x1024.Idx → EReal) (((cfg0.win 1).blk t).view.emb y) = _
  refine congrArg _ (funext fun a => Fin.ext ?_)
  match a with
  | ⟨0, _⟩ => show win0_1.index t (0 : Fin 2) * 84 + 1 * (y 0).val = (y 0).val; omega
  | ⟨1, _⟩ => show win0_1.index t (1 : Fin 2) * 1024 + 1 * (y 1).val = (y 1).val; omega

theorem iblk2_eq (c : Dev nD) (t : Fin cfg0.N) : (iblk m c 2 t : S1x1024.Idx → EReal) = (V m c main_v26 : S1x1024.Idx → EReal) := by
  obtain ⟨-, ⟨e0, e1⟩, -, -, -, -, -, -, -, -⟩ := idx_const t
  funext y
  show (V m c main_v26 : S1x1024.Idx → EReal) (((cfg0.win 2).blk t).view.emb y) = _
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 1024 + 1 * (y 1).val = (y 1).val; omega

theorem iblk3_eq (c : Dev nD) (t : Fin cfg0.N) : (iblk m c 3 t : S1536x768.Idx → EReal) = (V m c main_v42 : S1536x768.Idx → EReal) := by
  obtain ⟨-, -, ⟨e0, e1⟩, -, -, -, -, -, -, -⟩ := idx_const t
  funext y
  show (V m c main_v42 : S1536x768.Idx → EReal) (((cfg0.win 3).blk t).view.emb y) = _
  refine congrArg _ (funext fun a => Fin.ext ?_)
  match a with
  | ⟨0, _⟩ => show win0_3.index t (0 : Fin 2) * 1536 + 1 * (y 0).val = (y 0).val; omega
  | ⟨1, _⟩ => show win0_3.index t (1 : Fin 2) * 768 + 1 * (y 1).val = (y 1).val; omega

theorem iblk4_eq (c : Dev nD) (t : Fin cfg0.N) : (iblk m c 4 t : S1x768.Idx → EReal) = (V m c main_v53 : S1x768.Idx → EReal) := by
  obtain ⟨-, -, -, ⟨e0, e1⟩, -, -, -, -, -, -⟩ := idx_const t
  funext y
  show (V m c main_v53 : S1x768.Idx → EReal) (((cfg0.win 4).blk t).view.emb y) = _
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 768 + 1 * (y 1).val = (y 1).val; omega

theorem iblk5_eq (c : Dev nD) (t : Fin cfg0.N) : (iblk m c 5 t : S2304x640.Idx → EReal) = (V m c main_arg5 : S2304x640.Idx → EReal) := by
  obtain ⟨-, -, -, -, ⟨e0, e1⟩, -, -, -, -, -⟩ := idx_const t
  funext y
  show (V m c main_arg5 : S2304x640.Idx → EReal) (((cfg0.win 5).blk t).view.emb y) = _
  refine congrArg _ (funext fun a => Fin.ext ?_)
  match a with
  | ⟨0, _⟩ => show win0_5.index t (0 : Fin 2) * 2304 + 1 * (y 0).val = (y 0).val; omega
  | ⟨1, _⟩ => show win0_5.index t (1 : Fin 2) * 640 + 1 * (y 1).val = (y 1).val; omega

theorem iblk6_eq (c : Dev nD) (t : Fin cfg0.N) : (iblk m c 6 t : S1x640.Idx → EReal) = (V m c main_arg6 : S1x640.Idx → EReal) := by
  obtain ⟨-, -, -, -, -, ⟨e0, e1⟩, -, -, -, -⟩ := idx_const t
  funext y
  show (V m c main_arg6 : S1x640.Idx → EReal) (((cfg0.win 6).blk t).view.emb y) = _
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 640 + 1 * (y 1).val = (y 1).val; omega

theorem iblk7_eq (c : Dev nD) (t : Fin cfg0.N) : (iblk m c 7 t : S640x128.Idx → EReal) = (V m c main_arg7 : S640x128.Idx → EReal) := by
  obtain ⟨-, -, -, -, -, -, ⟨e0, e1⟩, -, -, -⟩ := idx_const t
  funext y
  show (V m c main_arg7 : S640x128.Idx → EReal) (((cfg0.win 7).blk t).view.emb y) = _
  refine congrArg _ (funext fun a => Fin.ext ?_)
  match a with
  | ⟨0, _⟩ => show win0_7.index t (0 : Fin 2) * 640 + 1 * (y 0).val = (y 0).val; omega
  | ⟨1, _⟩ => show win0_7.index t (1 : Fin 2) * 128 + 1 * (y 1).val = (y 1).val; omega

theorem iblk8_eq (c : Dev nD) (t : Fin cfg0.N) : (iblk m c 8 t : S1x128.Idx → EReal) = (V m c main_arg8 : S1x128.Idx → EReal) := by
  obtain ⟨-, -, -, -, -, -, -, ⟨e0, e1⟩, -, -⟩ := idx_const t
  funext y
  show (V m c main_arg8 : S1x128.Idx → EReal) (((cfg0.win 8).blk t).view.emb y) = _
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 128 + 1 * (y 1).val = (y 1).val; omega

theorem iblk9_eq (c : Dev nD) (t : Fin cfg0.N) : (iblk m c 9 t : S128x10.Idx → EReal) = (V m c main_arg9 : S128x10.Idx → EReal) := by
  obtain ⟨-, -, -, -, -, -, -, -, ⟨e0, e1⟩, -⟩ := idx_const t
  funext y
  show (V m c main_arg9 : S128x10.Idx → EReal) (((cfg0.win 9).blk t).view.emb y) = _
  refine congrArg _ (funext fun a => Fin.ext ?_)
  match a with
  | ⟨0, _⟩ => show win0_9.index t (0 : Fin 2) * 128 + 1 * (y 0).val = (y 0).val; omega
  | ⟨1, _⟩ => show win0_9.index t (1 : Fin 2) * 10 + 1 * (y 1).val = (y 1).val; omega

theorem iblk10_eq (c : Dev nD) (t : Fin cfg0.N) : (iblk m c 10 t : S1x10.Idx → EReal) = (V m c main_arg10 : S1x10.Idx → EReal) := by
  obtain ⟨-, -, -, -, -, -, -, -, -, ⟨e0, e1⟩⟩ := idx_const t
  funext y
  show (V m c main_arg10 : S1x10.Idx → EReal) (((cfg0.win 10).blk t).view.emb y) = _
  refine congrArg _ (funext fun a => Fin.ext ?_)
  match a with
  | ⟨0, _⟩ => show win0_10.index t (0 : Fin 2) * 1 + 1 * (y 0).val = (y 0).val; omega
  | ⟨1, _⟩ => show win0_10.index t (1 : Fin 2) * 10 + 1 * (y 1).val = (y 1).val; omega

/-! ## The result array as one function of the arrays the region finds -/

/-- The scores of image `B`, from the arrays at the region's entry (permuted weights, half-lane arrangement). -/
def rowK (c : Dev nD) (B : Fin 4096) (j : Fin 10) : EReal :=
  Spec.logits (Spec.featK (fun h w => (V m c main_v0 : S4096x28x28.Idx → EReal) (ix3 B h w))
      (fun k l => (V m c main_v13 : S84x1024.Idx → EReal) (ix2 k l)) (fun l => (V m c main_v26 : S1x1024.Idx → EReal) (ix2 0 l))
      (fun k l => (V m c main_v42 : S1536x768.Idx → EReal) (ix2 k l)) (fun l => (V m c main_v53 : S1x768.Idx → EReal) (ix2 0 l)))
    (fun k j => (V m c main_arg5 : S2304x640.Idx → EReal) (ix2 k j)) (fun j => (V m c main_arg6 : S1x640.Idx → EReal) (ix2 0 j))
    (fun k j => (V m c main_arg7 : S640x128.Idx → EReal) (ix2 k j)) (fun j => (V m c main_arg8 : S1x128.Idx → EReal) (ix2 0 j))
    (fun k j => (V m c main_arg9 : S128x10.Idx → EReal) (ix2 k j)) (fun j => (V m c main_arg10 : S1x10.Idx → EReal) (ix2 0 j)) j

/-- The result array. -/
def GK (c : Dev nD) : S4096x10.Idx → EReal := fun i => rowK m c ⟨(i 0).val, idx2_lt0 i⟩ ⟨(i 1).val, idx2_lt1 i⟩

/-- Entry `(b, q)` of point `t`'s output block is entry `(64 t + b, q)` of the result. -/
theorem GK_emb (c : Dev nD) (t : Fin cfg0.N) (b : Fin 64) (q : Fin 10) (hB : t.val * 64 + b.val < 4096) :
    GK m c (((cfg0.win 11).blk t).view.emb (ix2 b q)) = rowK m c ⟨t.val * 64 + b.val, hB⟩ q := by
  obtain ⟨-, -, -, e3, e4⟩ := idx_facts t
  unfold GK
  refine congrArg₂ (rowK m c) (Fin.ext ?_) (Fin.ext ?_)
  · show win0_11.index t (0 : Fin 2) * 64 + 1 * b.val = t.val * 64 + b.val; omega
  · show win0_11.index t (1 : Fin 2) * 10 + 1 * q.val = q.val; omega

/-- An index of the result is in point `t`'s block iff each coordinate is in the block's range. -/
theorem mem_blk11 (t : Fin cfg0.N) (i : S4096x10.Idx) :
    i ∈ ((cfg0.win 11).blk t).view.set ↔ ∀ a : Fin 2, win0_11.index t a * S64x10.size a ≤ (i a).val ∧ (i a).val < win0_11.index t a * S64x10.size a + S64x10.size a := by
  show i ∈ ((View.whole main_v54).slice (win0_11.rect t)).set ↔ _
  rw [View.set_slice_whole, Rect.mem_set_unit]
  exact Iff.rfl

/-- Every block row of the result is some point's. -/
theorem idx_onto : ∀ q0 : Fin 64, ∃ t : Fin cfg0.N, win0_11.index t = ![q0.val, 0] :=
  (by decide +kernel : ∀ q0 : Fin 64, ∃ t : Fin grid0.N, win0_11.index t = ![q0.val, 0])

/-- The output blocks tile the result: row `B` lies in block `B / 64`. -/
theorem cover11 (i : S4096x10.Idx) : ∃ t : Fin cfg0.N, (cfg0.win 11).flush t = true ∧ i ∈ ((cfg0.win 11).blk t).view.set := by
  have hi0 : (i 0).val < 4096 := idx2_lt0 i
  have hi1 : (i 1).val < 10 := idx2_lt1 i
  obtain ⟨t, ht⟩ := idx_onto ⟨(i 0).val / 64, by omega⟩
  have q0 : win0_11.index t (0 : Fin 2) = (i 0).val / 64 := congrFun ht 0
  have q1 : win0_11.index t (1 : Fin 2) = 0 := congrFun ht 1
  refine ⟨t, flush0_11 t, ?_⟩
  rw [mem_blk11]
  intro a
  match a with
  | ⟨0, _⟩ => show win0_11.index t (0 : Fin 2) * 64 ≤ (i 0).val ∧ (i 0).val < win0_11.index t (0 : Fin 2) * 64 + 64; omega
  | ⟨1, _⟩ => show win0_11.index t (1 : Fin 2) * 10 ≤ (i 1).val ∧ (i 1).val < win0_11.index t (1 : Fin 2) * 10 + 10; omega

/-! ## What the body stores, row by row -/

/-- Row `b` of the stored block: the scores of image `b` of the block, through the half-lane arrangement. -/
theorem out0_11_apply (x0 : Vec Ideal S64x28x28 .f32) (x1 : Vec Ideal S84x1024 .f32) (x2 : Vec Ideal S1x1024 .f32) (x3 : Vec Ideal S1536x768 .f32) (x4 : Vec Ideal S1x768 .f32)
    (x5 : Vec Ideal S2304x640 .f32) (x6 : Vec Ideal S1x640 .f32) (x7 : Vec Ideal S640x128 .f32) (x8 : Vec Ideal S1x128 .f32) (x9 : Vec Ideal S128x10 .f32) (x10 : Vec Ideal S1x10 .f32)
    (b : Fin 64) (j : Fin 10) :
    out0_11 x0 x1 x2 x3 x4 x5 x6 x7 x8 x9 x10 (ix2 b j)
      = Spec.logits (Spec.featK (fun h w => x0 (ix3 b h w)) (fun k l => x1 (ix2 k l)) (fun l => x2 (ix2 0 l)) (fun k l => x3 (ix2 k l)) (fun l => x4 (ix2 0 l)))
          (fun k j => x5 (ix2 k j)) (fun j => x6 (ix2 0 j)) (fun k j => x7 (ix2 k j)) (fun j => x8 (ix2 0 j)) (fun k j => x9 (ix2 k j)) (fun j => x10 (ix2 0 j)) j := by
  unfold out0_11
  rw [View.canon_unit_zero hz2]
  simp only [View.ld_unit_zero (S := S64x28x28) hz3, View.ld_unit_zero (S := S84x1024) hz2, View.ld_unit_zero (S := S1x1024) hz2,
    View.ld_unit_zero (S := S1536x768) hz2, View.ld_unit_zero (S := S1x768) hz2, View.ld_unit_zero (S := S2304x640) hz2,
    View.ld_unit_zero (S := S1x640) hz2, View.ld_unit_zero (S := S640x128) hz2, View.ld_unit_zero (S := S1x128) hz2,
    View.ld_unit_zero (S := S128x10) hz2, View.ld_unit_zero (S := S1x10) hz2]
  rw [pay3_apply]
  refine congrArg (fun F => Spec.logits F _ _ _ _ _ _ j) (funext fun f => ?_)
  exact (congrArg₂ max (pay2_apply x0 x1 x2 x3 x4 b ⟨f.val / 384, by omega⟩ ⟨f.val % 384, by omega⟩)
    (pay1_apply x0 x1 x2 x3 x4 b ⟨f.val / 384, by omega⟩ ⟨384 + f.val % 384, by omega⟩)).trans rfl

/-- What point `t` writes back is block `t` of `GK`. -/
theorem flushed_eq (c : Dev nD) (t : Fin cfg0.N) :
    (dats m 0 c).flushed 11 t = ((cfg0.win 11).blk t).view.read (Elt Ideal) (GK m c) := by
  show (cfg0.win 11).cut (grid0.coords t) ((dats m 0 c).after 11 t) = _
  rw [after0_11]
  funext j
  obtain ⟨b, q, rfl⟩ : ∃ (b : Fin 64) (q : Fin 10), (j : S64x10.Idx) = ix2 b q := ⟨j 0, j 1, eq_ix2 j⟩
  have ht : t.val < 64 := lt_of_lt_of_eq t.isLt (show cfg0.N = 64 from N_0)
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 b q)
      = GK m c (((cfg0.win 11).blk t).view.emb (ix2 b q))
  rw [out0_11_apply, GK_emb m c t b q (by omega)]
  unfold rowK
  simp only [iblk1_eq, iblk2_eq, iblk3_eq, iblk4_eq, iblk5_eq, iblk6_eq, iblk7_eq, iblk8_eq, iblk9_eq, iblk10_eq]
  exact congrArg (fun I => Spec.logits (Spec.featK I _ _ _ _) _ _ _ _ _ _ q)
    (funext fun h => funext fun w => iblk0_apply m c t b h w (by omega))

/-- The result array after the run. -/
theorem final11 (c : Dev nD) : (dats m 0 c).arrAt 11 cfg0.N = GK m c :=
  (dats m 0 c).arrAt_eq_of_cover 11 (GK m c) (fun t _ => flushed_eq m c t) cover11

/-- The result in terms of the ARGUMENTS: the permuted weights undo the half-lane arrangement, so row `B` is
    the column-major convolution stage of image `B` followed by the affine layers and the log-softmax. -/
theorem GK_eq_net (c : Dev nD) :
    GK m c = Spec.net (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) := by
  funext i
  unfold GK rowK Spec.net Spec.netRow
  rw [V_main_arg5, V_main_arg6, V_main_arg7, V_main_arg8, V_main_arg9, V_main_arg10]
  have e0 : (fun h w => (V m c main_v0 : S4096x28x28.Idx → EReal) (ix3 (⟨(i 0).val, idx2_lt0 i⟩ : Fin 4096) h w))
      = Spec.imgOf (m ((c : Thread nD τ).loc main_arg0)) ⟨(i 0).val, idx2_lt0 i⟩ := funext fun h => funext fun w => V_v0 m c _ h w
  have e1 : (fun k l => (V m c main_v13 : S84x1024.Idx → EReal) (ix2 k l)) = Spec.permB1 (Spec.mat (m ((c : Thread nD τ).loc main_arg1))) :=
    funext fun k => funext fun l => V_v13 m c k l
  have e2 : (fun l => (V m c main_v26 : S1x1024.Idx → EReal) (ix2 0 l)) = Spec.permS1 (Spec.row (m ((c : Thread nD τ).loc main_arg2))) :=
    funext fun l => V_v26 m c l
  have e3 : (fun k l => (V m c main_v42 : S1536x768.Idx → EReal) (ix2 k l)) = Spec.permB2 (Spec.mat (m ((c : Thread nD τ).loc main_arg3))) :=
    funext fun k => funext fun l => V_v42 m c k l
  have e4 : (fun l => (V m c main_v53 : S1x768.Idx → EReal) (ix2 0 l)) = Spec.permS2 (Spec.row (m ((c : Thread nD τ).loc main_arg4))) :=
    funext fun l => V_v53 m c l
  rw [e0, e1, e2, e3, e4, Spec.featK_perm]
  rfl

variable (ρ : Dev nD → PrngReg)

/-- The run with the result named as that function of the arguments, the arguments unchanged. -/
theorem run_value : θ_run defs (onTc (τ := τ) (main (F := Ideal))) ⟨m, fun _ => 0, ρ⟩ (fun r => ∀ c : Dev nD,
      r.2.mem ((c.tc : Thread nD τ).loc main_v54) = Spec.net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(((h c).1 11).trans (final11 m c)).trans (GK_eq_net m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c)))⟩)
    (run_main m ρ)

end Cert.KernelIdeal.Hand

end
-- ==== Proof.RPayP1.lean ====
import proofs.«171558_g2000600275687624_pallasbulk_458_2_alg».proof.Proof.Gen.ReferenceIdeal.Skeleton
import Idealize.ShloMosaic.PureOps.Ideal

noncomputable section

namespace Cert.ReferenceIdeal.Hand

open Idealize.ShloMosaic Cert.ReferenceIdeal.Gen

/-- The pooled first-stage output, 8 × 14 × 448: the fourteen 32-lane pool maxima side by side along the
    lanes. Ten of them are given; the last four are the maxima of lane groups 20/21, 22/23, 24/25, 26/27
    of the row-pair-pooled first convolution `v17`. -/
def p1vec (v17 : FVec Ideal S8x14x896 .f32) (v20 v23 v26 v29 v32 v35 v38 v41 v44 v47 : FVec Ideal S8x14x32 .f32) :
    FVec Ideal S8x14x448 .f32 :=
  have v48 : FVec Ideal S8x14x32 .f32 := extractStridedSlice S8x14x32 ![0, 0, 640] v17 slices_S8x14x896_o0_0_640_S8x14x32
  have v49 : FVec Ideal S8x14x32 .f32 := extractStridedSlice S8x14x32 ![0, 0, 672] v17 slices_S8x14x896_o0_0_672_S8x14x32
  have v50 : FVec Ideal S8x14x32 .f32 := maximumf v48 v49
  have v51 : FVec Ideal S8x14x32 .f32 := extractStridedSlice S8x14x32 ![0, 0, 704] v17 slices_S8x14x896_o0_0_704_S8x14x32
  have v52 : FVec Ideal S8x14x32 .f32 := extractStridedSlice S8x14x32 ![0, 0, 736] v17 slices_S8x14x896_o0_0_736_S8x14x32
  have v53 : FVec Ideal S8x14x32 .f32 := maximumf v51 v52
  have v54 : FVec Ideal S8x14x32 .f32 := extractStridedSlice S8x14x32 ![0, 0, 768] v17 slices_S8x14x896_o0_0_768_S8x14x32
  have v55 : FVec Ideal S8x14x32 .f32 := extractStridedSlice S8x14x32 ![0, 0, 800] v17 slices_S8x14x896_o0_0_800_S8x14x32
  have v56 : FVec Ideal S8x14x32 .f32 := maximumf v54 v55
  have v57 : FVec Ideal S8x14x32 .f32 := extractStridedSlice S8x14x32 ![0, 0, 832] v17 slices_S8x14x896_o0_0_832_S8x14x32
  have v58 : FVec Ideal S8x14x32 .f32 := extractStridedSlice S8x14x32 ![0, 0, 864] v17 slices_S8x14x896_o0_0_864_S8x14x32
  have v59 : FVec Ideal S8x14x32 .f32 := maximumf v57 v58
  have v60 : FVec Ideal S8x14x448 .f32 := concatenate S8x14x448 2 [⟨S8x14x32, v20⟩, ⟨S8x14x32, v23⟩, ⟨S8x14x32, v26⟩, ⟨S8x14x32, v29⟩, ⟨S8x14x32, v32⟩, ⟨S8x14x32, v35⟩, ⟨S8x14x32, v38⟩, ⟨S8x14x32, v41⟩, ⟨S8x14x32, v44⟩, ⟨S8x14x32, v47⟩, ⟨S8x14x32, v50⟩, ⟨S8x14x32, v53⟩, ⟨S8x14x32, v56⟩, ⟨S8x14x32, v59⟩] concatenates_S8x14x32_S8x14x32_S8x14x32_S8x14x32_S8x14x32_S8x14x32_S8x14x32_S8x14x32_S8x14x32_S8x14x32_S8x14x32_S8x14x32_S8x14x32_S8x14x32_S8x14x448_d2
  v60

end Cert.ReferenceIdeal.Hand

end
-- ==== Proof.RPayConv0.lean ====
import proofs.«171558_g2000600275687624_pallasbulk_458_2_alg».proof.Proof.Gen.ReferenceIdeal.Frame
import proofs.«171558_g2000600275687624_pallasbulk_458_2_alg».proof.Proof.Spec
import Idealize.ShloMosaic.Lib.Pipeline.Value
import Idealize.ShloMosaic.Lib.ValueLayout
import Idealize.ShloMosaic.PureOps.Ideal.Laws

noncomputable section

namespace Cert.ReferenceIdeal.Hand

open Idealize.ShloMosaic Idealize.ShloMosaic.ValueIdx Cert.ReferenceIdeal.Gen

/-! # The reference's first convolution, rectifier and row-pair pool, read at an index

Image `b`, row `h` of the 224 × 84 left factor lists image rows `h - 1`, `h`, `h + 1` side by side; the
product with the banded weights plus the shift, rectified, is `Spec.y1R`; the maximum over rows `2 h2`,
`2 h2 + 1` is `Spec.yhR`. -/

/-- Zero rows above: the image shifted one row down. -/
theorem shiftDown_apply (X : FVec Ideal S8x28x28 .f32) (z : Ideal .f32) (b : Fin 8) (h : Fin 28) (w : Fin 28) :
    concatenate S8x28x28 1 [⟨S8x1x28, broadcast S8x1x28 z⟩, ⟨S8x27x28, extractStridedSlice S8x27x28 ![0, 0, 0] X slices_S8x28x28_o0_0_0_S8x27x28⟩]
        concatenates_S8x1x28_S8x27x28_S8x28x28_d1 (ix3 b h w)
      = if h0 : h.val = 0 then z else X (ix3 b ⟨h.val - 1, by omega⟩ w) := by
  by_cases h0 : h.val = 0
  · rw [dif_pos h0]
    refine (concatenate_pair_apply_left (s₁ := S8x1x28) (s₂ := S8x27x28) (t := S8x28x28) _ _ _ _ (ix3 b h w) rfl (ix3 b (0 : Fin 1) w) ?_).trans rfl
    intro a
    match a with
    | ⟨0, _⟩ => rfl
    | ⟨1, _⟩ => exact h0.symm
    | ⟨2, _⟩ => rfl
  · rw [dif_neg h0]
    refine (concatenate_pair_apply_right (s₁ := S8x1x28) (s₂ := S8x27x28) (t := S8x28x28) _ _ _ _ (ix3 b h w) rfl rfl (ix3 b (⟨h.val - 1, by omega⟩ : Fin 27) w) ?_ ?_).trans ?_
    · intro a ha
      match a with
      | ⟨0, _⟩ => rfl
      | ⟨1, _⟩ => exact absurd rfl ha
      | ⟨2, _⟩ => rfl
    · show (h.val - 1) + 1 = h.val
      omega
    · refine extractStridedSlice_apply _ X _ _ (ix3 b ⟨h.val - 1, by omega⟩ w) ?_
      intro a
      match a with
      | ⟨0, _⟩ => show b.val = 0 + b.val; omega
      | ⟨1, _⟩ => show h.val - 1 = 0 + (h.val - 1); omega
      | ⟨2, _⟩ => show w.val = 0 + w.val; omega

/-- Zero rows below: the image shifted one row up. -/
theorem shiftUp_apply (X : FVec Ideal S8x28x28 .f32) (z : Ideal .f32) (b : Fin 8) (h : Fin 28) (w : Fin 28) :
    concatenate S8x28x28 1 [⟨S8x27x28, extractStridedSlice S8x27x28 ![0, 1, 0] X slices_S8x28x28_o0_1_0_S8x27x28⟩, ⟨S8x1x28, broadcast S8x1x28 z⟩]
        concatenates_S8x27x28_S8x1x28_S8x28x28_d1 (ix3 b h w)
      = if h27 : h.val = 27 then z else X (ix3 b ⟨h.val + 1, by omega⟩ w) := by
  by_cases h27 : h.val = 27
  · rw [dif_pos h27]
    refine (concatenate_pair_apply_right (s₁ := S8x27x28) (s₂ := S8x1x28) (t := S8x28x28) _ _ _ _ (ix3 b h w) rfl rfl (ix3 b (0 : Fin 1) w) ?_ ?_).trans rfl
    · intro a ha
      match a with
      | ⟨0, _⟩ => rfl
      | ⟨1, _⟩ => exact absurd rfl ha
      | ⟨2, _⟩ => rfl
    · show 0 + 27 = h.val
      omega
  · rw [dif_neg h27]
    refine (concatenate_pair_apply_left (s₁ := S8x27x28) (s₂ := S8x1x28) (t := S8x28x28) _ _ _ _ (ix3 b h w) rfl (ix3 b (⟨h.val, by omega⟩ : Fin 27) w) ?_).trans ?_
    · intro a
      match a with
      | ⟨0, _⟩ => rfl
      | ⟨1, _⟩ => rfl
      | ⟨2, _⟩ => rfl
    · refine extractStridedSlice_apply _ X _ _ (ix3 b ⟨h.val + 1, by omega⟩ w) ?_
      intro a
      match a with
      | ⟨0, _⟩ => show b.val = 0 + b.val; omega
      | ⟨1, _⟩ => show h.val + 1 = 1 + h.val; omega
      | ⟨2, _⟩ => show w.val = 0 + w.val; omega

/-- Three images side by side along the columns. -/
theorem cat3_apply (A B C : FVec Ideal S8x28x28 .f32) (b : Fin 8) (h : Fin 28) (k : Fin 84) :
    concatenate S8x28x84 2 [⟨S8x28x28, A⟩, ⟨S8x28x28, B⟩, ⟨S8x28x28, C⟩] concatenates_S8x28x28_S8x28x28_S8x28x28_S8x28x84_d2 (ix3 b h k)
      = if h1 : k.val < 28 then A (ix3 b h ⟨k.val, h1⟩)
        else if h2 : k.val < 56 then B (ix3 b h ⟨k.val - 28, by omega⟩)
        else C (ix3 b h ⟨k.val - 56, by omega⟩) := by
  by_cases h1 : k.val < 28
  · rw [dif_pos h1]
    exact concatenate_apply_piece (t := S8x28x84) _ _ _ (ix3 b h k) 0 (by simp) S8x28x28 A rfl rfl 0 rfl (ix3 b h ⟨k.val, h1⟩)
      (fun a ha => match a with | ⟨0, _⟩ => rfl | ⟨1, _⟩ => rfl | ⟨2, _⟩ => absurd rfl ha) (by show 0 + k.val = k.val; omega)
  · rw [dif_neg h1]
    by_cases h2 : k.val < 56
    · rw [dif_pos h2]
      exact concatenate_apply_piece (t := S8x28x84) _ _ _ (ix3 b h k) 1 (by simp) S8x28x28 B rfl rfl 28 rfl (ix3 b h ⟨k.val - 28, by omega⟩)
        (fun a ha => match a with | ⟨0, _⟩ => rfl | ⟨1, _⟩ => rfl | ⟨2, _⟩ => absurd rfl ha) (by show 28 + (k.val - 28) = k.val; omega)
    · rw [dif_neg h2]
      exact concatenate_apply_piece (t := S8x28x84) _ _ _ (ix3 b h k) 2 (by simp) S8x28x28 C rfl rfl 56 rfl (ix3 b h ⟨k.val - 56, by omega⟩)
        (fun a ha => match a with | ⟨0, _⟩ => rfl | ⟨1, _⟩ => rfl | ⟨2, _⟩ => absurd rfl ha) (by show 56 + (k.val - 56) = k.val; omega)

/-- The first convolution's left factor: rows `h - 1`, `h`, `h + 1` of image `b` side by side, zero beyond the border. -/
theorem lhs1_apply (v0 : Vec Ideal S8x28x28 .f32) (b : Fin 8) (h : Fin 28) (k : Fin 84) :
    (concatenate S8x28x84 2
      [⟨S8x28x28, concatenate S8x28x28 1 [⟨S8x1x28, broadcast S8x1x28 (Scalar.ofBits (F := Ideal) .f32 0x00000000#32)⟩,
          ⟨S8x27x28, extractStridedSlice S8x27x28 ![0, 0, 0] (shapeCast S8x28x28 v0 shapeCasts_S8x28x28_S8x28x28) slices_S8x28x28_o0_0_0_S8x27x28⟩]
          concatenates_S8x1x28_S8x27x28_S8x28x28_d1⟩,
       ⟨S8x28x28, shapeCast S8x28x28 v0 shapeCasts_S8x28x28_S8x28x28⟩,
       ⟨S8x28x28, concatenate S8x28x28 1 [⟨S8x27x28, extractStridedSlice S8x27x28 ![0, 1, 0] (shapeCast S8x28x28 v0 shapeCasts_S8x28x28_S8x28x28) slices_S8x28x28_o0_1_0_S8x27x28⟩,
          ⟨S8x1x28, broadcast S8x1x28 (Scalar.ofBits (F := Ideal) .f32 0x00000000#32)⟩]
          concatenates_S8x27x28_S8x1x28_S8x28x28_d1⟩]
      concatenates_S8x28x28_S8x28x28_S8x28x28_S8x28x84_d2 : FVec Ideal S8x28x84 .f32) (ix3 b h k)
      = Spec.lhs1 (fun h w => v0 (ix3 b h w)) h k := by
  rw [cat3_apply]
  unfold Spec.lhs1
  by_cases h1 : k.val < 28
  · rw [dif_pos h1, dif_pos h1, shiftDown_apply, shapeCast_self]
    rfl
  · rw [dif_neg h1, dif_neg h1]
    by_cases h2 : k.val < 56
    · rw [dif_pos h2, dif_pos h2, shapeCast_self]
    · rw [dif_neg h2, dif_neg h2, shiftUp_apply, shapeCast_self]
      rfl

/-! ## The first product: rows of the left factor against the banded weights -/

theorem lhs_dot1_0 (j : S224x896.Idx) (k : dot_S224x84_S84x896_S224x896_1_0_0_1_n_n.contr.Idx) :
    (dot_S224x84_S84x896_S224x896_1_0_0_1_n_n.lhsIdx j k 0).val = (j 0).val := by
  unfold DotDims.lhsIdx
  rw [dif_neg (show ¬(0 : Fin S224x84.rank) ∈ dot_S224x84_S84x896_S224x896_1_0_0_1_n_n.lhsBatch by decide),
    dif_pos (show (0 : Fin S224x84.rank) ∈ dot_S224x84_S84x896_S224x896_1_0_0_1_n_n.lhsNonContracting by decide)]
  rfl

theorem lhs_dot1_1 (j : S224x896.Idx) (k : dot_S224x84_S84x896_S224x896_1_0_0_1_n_n.contr.Idx) :
    (dot_S224x84_S84x896_S224x896_1_0_0_1_n_n.lhsIdx j k 1).val = (k ⟨0, by decide⟩).val :=
  DotDims.lhsIdx_val_of_single (d := dot_S224x84_S84x896_S224x896_1_0_0_1_n_n) rfl j k

theorem rhs_dot1_0 (j : S224x896.Idx) (k : dot_S224x84_S84x896_S224x896_1_0_0_1_n_n.contr.Idx) :
    (dot_S224x84_S84x896_S224x896_1_0_0_1_n_n.rhsIdx j k 0).val = (k ⟨0, by decide⟩).val :=
  DotDims.rhsIdx_val_of_single (d := dot_S224x84_S84x896_S224x896_1_0_0_1_n_n) rfl j k

theorem rhs_dot1_1 (j : S224x896.Idx) (k : dot_S224x84_S84x896_S224x896_1_0_0_1_n_n.contr.Idx) :
    (dot_S224x84_S84x896_S224x896_1_0_0_1_n_n.rhsIdx j k 1).val = (j 1).val := by
  unfold DotDims.rhsIdx
  rw [dif_neg (show ¬(1 : Fin S84x896.rank) ∈ dot_S224x84_S84x896_S224x896_1_0_0_1_n_n.rhsBatch by decide),
    dif_pos (show (1 : Fin S84x896.rank) ∈ dot_S224x84_S84x896_S224x896_1_0_0_1_n_n.rhsNonContracting by decide)]
  rfl

/-- The product into a zero accumulator, read at row `r`, lane `l`: the sum over the 84 columns. -/
theorem mm1_apply (A : FVec Ideal S224x84 .f32) (B : FVec Ideal S84x896 .f32) (r : Fin 224) (l : Fin 896) :
    matmul dot_S224x84_S84x896_S224x896_1_0_0_1_n_n none A B (constant (F := Ideal) S224x896 .f32 0x00000000#32) (ix2 r l)
      = ∑ k : Fin 84, A (ix2 r k) * B (ix2 k l) := by
  show FloatOps.matmul dot_S224x84_S84x896_S224x896_1_0_0_1_n_n none A B (constant (F := Ideal) S224x896 .f32 0x00000000#32) (ix2 r l) = _
  rw [Ideal.matmul_constant_zero_apply]
  rw [← Equiv.sum_comp (contrEquiv1 dot_S224x84_S84x896_S224x896_1_0_0_1_n_n 84 rfl rfl).symm]
  refine Finset.sum_congr rfl fun k _ => ?_
  have e1 : dot_S224x84_S84x896_S224x896_1_0_0_1_n_n.lhsIdx (ix2 r l) ((contrEquiv1 dot_S224x84_S84x896_S224x896_1_0_0_1_n_n 84 rfl rfl).symm k) = ix2 r k := by
    funext a
    apply Fin.ext
    match a with
    | ⟨0, _⟩ => exact lhs_dot1_0 _ _
    | ⟨1, _⟩ => exact (lhs_dot1_1 _ _).trans (contrEquiv1_symm_val _ 84 rfl rfl k)
  have e2 : dot_S224x84_S84x896_S224x896_1_0_0_1_n_n.rhsIdx (ix2 r l) ((contrEquiv1 dot_S224x84_S84x896_S224x896_1_0_0_1_n_n 84 rfl rfl).symm k) = ix2 k l := by
    funext a
    apply Fin.ext
    match a with
    | ⟨0, _⟩ => exact (rhs_dot1_0 _ _).trans (contrEquiv1_symm_val _ 84 rfl rfl k)
    | ⟨1, _⟩ => exact rhs_dot1_1 _ _
  rw [e1, e2]

/-- Row `28 b + h` of the rectified first convolution: the product's row plus the shift, rectified. -/
theorem y1_apply (Lh : FVec Ideal S8x28x84 .f32) (v9 : FVec Ideal S84x896 .f32) (v11 : FVec Ideal S1x896 .f32)
    (b : Fin 8) (h : Fin 28) (l : Fin 896) :
    maximumf (addf (matmul dot_S224x84_S84x896_S224x896_1_0_0_1_n_n none (shapeCast S224x84 Lh shapeCasts_S8x28x84_S224x84) v9
          (constant (F := Ideal) S224x896 .f32 0x00000000#32))
        (broadcastTo S224x896 v11 broadcasts_S1x896_S224x896))
      (broadcast S224x896 (Scalar.ofBits (F := Ideal) .f32 0x00000000#32)) (ix2 (⟨28 * b.val + h.val, by omega⟩ : Fin 224) l)
      = Spec.relu ((∑ k : Fin 84, Lh (ix3 b h k) * v9 (ix2 k l)) + v11 (ix2 0 l)) := by
  rw [maximumf_apply, addf_apply, broadcast_apply, mm1_apply]
  have e1 : ∀ k : Fin 84, shapeCast S224x84 Lh shapeCasts_S8x28x84_S224x84 (ix2 (⟨28 * b.val + h.val, by omega⟩ : Fin 224) k) = Lh (ix3 b h k) :=
    fun k => shapeCast_apply Lh _ _ (ix3 b h k) (by
      rw [Shape.rowMajor_val_three, Shape.rowMajor_val_two]
      show (b.val * 28 + h.val) * 84 + k.val = (28 * b.val + h.val) * 84 + k.val
      omega)
  have e2 : broadcastTo S224x896 v11 broadcasts_S1x896_S224x896 (ix2 (⟨28 * b.val + h.val, by omega⟩ : Fin 224) l) = v11 (ix2 0 l) :=
    broadcastTo_1b_ab_apply v11 _ _ l
  rw [e2, Finset.sum_congr rfl fun k _ => congrArg (· * v9 (ix2 k l)) (e1 k)]
  rfl

/-- The reduced index `(b, h2, l)` with the row-in-pair coordinate `k` put back. -/
theorem lift_pair1 (b : Fin 8) (h2 : Fin 14) (l : Fin 896) (k : Fin (S8x14x2x896.size 2)) :
    reduces_S8x14x2x896_S8x14x896.lift (ix3 b h2 l) k = ix4 b h2 (⟨k.val, k.isLt⟩ : Fin 2) l := by
  funext c
  apply Fin.ext
  match c with
  | ⟨0, _⟩ => rfl
  | ⟨1, _⟩ => rfl
  | ⟨2, _⟩ => rfl
  | ⟨3, _⟩ => rfl

/-- The maximum over a pair of rows, started at minus infinity. -/
theorem yh_apply (Y : FVec Ideal S224x896 .f32) (b : Fin 8) (h2 : Fin 14) (l : Fin 896) :
    multiReduction (F := Ideal) .maximumf [2] S8x14x896 (shapeCast S8x14x2x896 Y shapeCasts_S224x896_S8x14x2x896) 0xFF800000#32
        reduces_S8x14x2x896_S8x14x896 (.inl rfl) rfl (ix3 b h2 l)
      = Spec.maxOver fun k : Fin 2 => Y (ix2 (⟨28 * b.val + (2 * h2.val + k.val), by omega⟩ : Fin 224) l) := by
  refine (Ideal.multiReduction_maximumf_single (shapeCast S8x14x2x896 Y shapeCasts_S224x896_S8x14x2x896) 0xFF800000#32
    reduces_S8x14x2x896_S8x14x896 (.inl rfl) rfl (ix3 b h2 l)).trans ?_
  unfold Spec.maxOver Spec.negInf
  refine congrArg (fun f => Finset.fold max (Ideal.ofBits .f32 0xFF800000#32) f (Finset.univ : Finset (Fin 2))) (funext fun k => ?_)
  show shapeCast S8x14x2x896 Y shapeCasts_S224x896_S8x14x2x896 (reduces_S8x14x2x896_S8x14x896.lift (ix3 b h2 l) k) = _
  rw [lift_pair1]
  exact shapeCast_apply Y _ _ _ (by
    rw [Shape.rowMajor_val_two, Shape.rowMajor_val_four]
    show (28 * b.val + (2 * h2.val + k.val)) * 896 + l.val = ((b.val * 14 + h2.val) * 2 + k.val) * 896 + l.val
    omega)

/-! ## The row-pair-pooled first convolution at an index -/

theorem k0_pay2_apply (x0 : Vec Ideal S8x28x28 .f32) (x1 : Vec Ideal S84x896 .f32) (x2 : Vec Ideal S1x896 .f32)
    (b : Fin 8) (h2 : Fin 14) (l : Fin 896) :
    k0_pay2 x0 x1 x2 (ix3 b h2 l)
      = Spec.yhR (fun h w => x0 (ix3 b h w)) (fun k l => x1 (ix2 k l)) (fun l => x2 (ix2 0 l)) h2 l := by
  unfold k0_pay2
  refine (yh_apply _ b h2 l).trans ?_
  unfold Spec.yhR
  refine congrArg Spec.maxOver (funext fun k => ?_)
  refine (y1_apply _ x1 x2 b ⟨2 * h2.val + k.val, by omega⟩ l).trans ?_
  unfold Spec.y1R
  refine congrArg (fun s => Spec.relu (s + x2 (ix2 0 l))) (Finset.sum_congr rfl fun kk _ => ?_)
  exact congrArg (· * x1 (ix2 kk l)) (lhs1_apply x0 b _ kk)

end Cert.ReferenceIdeal.Hand
end
-- ==== Proof.RPayConv1.lean ====
import proofs.«171558_g2000600275687624_pallasbulk_458_2_alg».proof.Proof.Gen.ReferenceIdeal.Frame
import proofs.«171558_g2000600275687624_pallasbulk_458_2_alg».proof.Proof.Spec
import Idealize.ShloMosaic.Lib.Pipeline.Value
import Idealize.ShloMosaic.Lib.ValueLayout
import Idealize.ShloMosaic.PureOps.Ideal.Laws
import proofs.«171558_g2000600275687624_pallasbulk_458_2_alg».proof.Proof.RPayP1
import proofs.«171558_g2000600275687624_pallasbulk_458_2_alg».proof.Proof.RPayConv0

noncomputable section

namespace Cert.ReferenceIdeal.Hand

open Idealize.ShloMosaic Idealize.ShloMosaic.ValueIdx Cert.ReferenceIdeal.Gen

/-! # The reference's pooled first-stage output, read at an index

The lane pool takes, for each of fourteen column pairs, the maximum of two neighbouring 32-lane groups of
the row-pair-pooled convolution and lays the fourteen results side by side: lane `l` of the result is the
maximum of lanes `64 (l / 32) + l % 32` and `64 (l / 32) + 32 + l % 32`, which is `Spec.p1R`. -/

/-! ## The lane pool: the maximum of two neighbouring 32-lane groups, fourteen times -/

/-- One pool maximum: two 32-lane windows of the row-pair-pooled convolution, at lane offsets `o1` and `o2`. -/
theorem poolPiece_apply (Y : FVec Ideal S8x14x896 .f32) (o1 o2 : Nat)
    (hs1 : S8x14x896.Slices ![0, 0, o1] S8x14x32) (hs2 : S8x14x896.Slices ![0, 0, o2] S8x14x32)
    (b : Fin 8) (r : Fin 14) (c : Fin 32) (i1 i2 : Fin 896) (e1 : i1.val = o1 + c.val) (e2 : i2.val = o2 + c.val) :
    maximumf (extractStridedSlice S8x14x32 ![0, 0, o1] Y hs1) (extractStridedSlice S8x14x32 ![0, 0, o2] Y hs2) (ix3 b r c)
      = max (Y (ix3 b r i1)) (Y (ix3 b r i2)) := by
  rw [maximumf_apply]
  congr 1
  · exact extractStridedSlice_apply _ Y hs1 (ix3 b r c) (ix3 b r i1) (fun a => match a with
      | ⟨0, _⟩ => by show b.val = 0 + b.val; omega
      | ⟨1, _⟩ => by show r.val = 0 + r.val; omega
      | ⟨2, _⟩ => e1)
  · exact extractStridedSlice_apply _ Y hs2 (ix3 b r c) (ix3 b r i2) (fun a => match a with
      | ⟨0, _⟩ => by show b.val = 0 + b.val; omega
      | ⟨1, _⟩ => by show r.val = 0 + r.val; omega
      | ⟨2, _⟩ => e2)

/-- Fourteen 32-lane pieces side by side: lane `l` reads piece `l / 32` at lane `l % 32`. -/
theorem cat14_apply (P : Fin 14 → FVec Ideal S8x14x32 .f32) (b : Fin 8) (r : Fin 14) (l : Fin 448) :
    concatenate S8x14x448 2 [⟨S8x14x32, P 0⟩, ⟨S8x14x32, P 1⟩, ⟨S8x14x32, P 2⟩, ⟨S8x14x32, P 3⟩, ⟨S8x14x32, P 4⟩, ⟨S8x14x32, P 5⟩,
        ⟨S8x14x32, P 6⟩, ⟨S8x14x32, P 7⟩, ⟨S8x14x32, P 8⟩, ⟨S8x14x32, P 9⟩, ⟨S8x14x32, P 10⟩, ⟨S8x14x32, P 11⟩, ⟨S8x14x32, P 12⟩, ⟨S8x14x32, P 13⟩]
        concatenates_S8x14x32_S8x14x32_S8x14x32_S8x14x32_S8x14x32_S8x14x32_S8x14x32_S8x14x32_S8x14x32_S8x14x32_S8x14x32_S8x14x32_S8x14x32_S8x14x32_S8x14x448_d2
        (ix3 b r l)
      = P ⟨l.val / 32, by omega⟩ (ix3 b r ⟨l.val % 32, by omega⟩) :=
  concatenate_ofFn_apply (t := S8x14x448) (s₁ := S8x14x32) 2 P
    concatenates_S8x14x32_S8x14x32_S8x14x32_S8x14x32_S8x14x32_S8x14x32_S8x14x32_S8x14x32_S8x14x32_S8x14x32_S8x14x32_S8x14x32_S8x14x32_S8x14x32_S8x14x448_d2
    rfl 32 rfl (ix3 b r l) ⟨l.val / 32, by omega⟩ rfl (ix3 b r ⟨l.val % 32, by omega⟩) rfl
    (fun a ha => match a with | ⟨0, _⟩ => rfl | ⟨1, _⟩ => rfl | ⟨2, _⟩ => absurd rfl ha)

/-- The fourteen pool maxima of the reference as a family: the ten the first part of its body hands on and the four
    the second part computes from the same row-pair-pooled convolution. -/
def poolPieces (x0 : Vec Ideal S8x28x28 .f32) (x1 : Vec Ideal S84x896 .f32) (x2 : Vec Ideal S1x896 .f32) :
    Fin 14 → FVec Ideal S8x14x32 .f32 :=
  ![k0_pay3 x0 x1 x2, k0_pay4 x0 x1 x2, k0_pay5 x0 x1 x2, k0_pay6 x0 x1 x2, k0_pay7 x0 x1 x2, k0_pay8 x0 x1 x2, k0_pay9 x0 x1 x2, k0_pay10 x0 x1 x2, k0_pay11 x0 x1 x2, k0_pay12 x0 x1 x2,
    maximumf (extractStridedSlice S8x14x32 ![0, 0, 640] (k0_pay2 x0 x1 x2) slices_S8x14x896_o0_0_640_S8x14x32) (extractStridedSlice S8x14x32 ![0, 0, 672] (k0_pay2 x0 x1 x2) slices_S8x14x896_o0_0_672_S8x14x32),
    maximumf (extractStridedSlice S8x14x32 ![0, 0, 704] (k0_pay2 x0 x1 x2) slices_S8x14x896_o0_0_704_S8x14x32) (extractStridedSlice S8x14x32 ![0, 0, 736] (k0_pay2 x0 x1 x2) slices_S8x14x896_o0_0_736_S8x14x32),
    maximumf (extractStridedSlice S8x14x32 ![0, 0, 768] (k0_pay2 x0 x1 x2) slices_S8x14x896_o0_0_768_S8x14x32) (extractStridedSlice S8x14x32 ![0, 0, 800] (k0_pay2 x0 x1 x2) slices_S8x14x896_o0_0_800_S8x14x32),
    maximumf (extractStridedSlice S8x14x32 ![0, 0, 832] (k0_pay2 x0 x1 x2) slices_S8x14x896_o0_0_832_S8x14x32) (extractStridedSlice S8x14x32 ![0, 0, 864] (k0_pay2 x0 x1 x2) slices_S8x14x896_o0_0_864_S8x14x32)]

/-- Piece `j` at lane `c` is the maximum of lanes `64 j + c` and `64 j + 32 + c` of the row-pair-pooled convolution. -/
theorem poolPieces_apply (x0 : Vec Ideal S8x28x28 .f32) (x1 : Vec Ideal S84x896 .f32) (x2 : Vec Ideal S1x896 .f32)
    (b : Fin 8) (r : Fin 14) (c : Fin 32) (j : Fin 14) :
    poolPieces x0 x1 x2 j (ix3 b r c)
      = max (k0_pay2 x0 x1 x2 (ix3 b r (⟨64 * j.val + c.val, by omega⟩ : Fin 896)))
          (k0_pay2 x0 x1 x2 (ix3 b r (⟨64 * j.val + 32 + c.val, by omega⟩ : Fin 896))) := by
  fin_cases j <;> exact poolPiece_apply (k0_pay2 x0 x1 x2) _ _ _ _ b r c _ _ rfl rfl

/-- The pooled first-stage output of the reference at image `b`, pooled row `h2`, lane `l`. -/
theorem p1vec_apply (x0 : Vec Ideal S8x28x28 .f32) (x1 : Vec Ideal S84x896 .f32) (x2 : Vec Ideal S1x896 .f32)
    (b : Fin 8) (h2 : Fin 14) (l : Fin 448) :
    p1vec (k0_pay2 x0 x1 x2) (k0_pay3 x0 x1 x2) (k0_pay4 x0 x1 x2) (k0_pay5 x0 x1 x2) (k0_pay6 x0 x1 x2) (k0_pay7 x0 x1 x2) (k0_pay8 x0 x1 x2) (k0_pay9 x0 x1 x2) (k0_pay10 x0 x1 x2) (k0_pay11 x0 x1 x2) (k0_pay12 x0 x1 x2) (ix3 b h2 l)
      = Spec.p1R (fun h w => x0 (ix3 b h w)) (fun k l => x1 (ix2 k l)) (fun l => x2 (ix2 0 l)) h2 l := by
  unfold p1vec
  refine (cat14_apply (poolPieces x0 x1 x2) b h2 l).trans ?_
  rw [poolPieces_apply, k0_pay2_apply, k0_pay2_apply]
  rfl

end Cert.ReferenceIdeal.Hand
end
-- ==== Proof.SpecTail.lean ====
/-
  The second half of the convolution stage (lanes in column-major order) as a function of the pooled
  first-stage output `p1` alone: three pooled rows side by side, the banded matrix product, the shift, the
  rectifier, the pool over row pairs and over pairs of 64-lane groups, and the flatten. `Cert.Spec.featR`
  is this function at `p1R`.
-/
import proofs.«171558_g2000600275687624_pallasbulk_458_2_alg».proof.Proof.Spec

noncomputable section

namespace Cert.Spec

section P
variable (p1 : Fin 14 → Fin 448 → EReal) (B2 : Fin 1344 → Fin 768 → EReal) (s2 : Fin 768 → EReal)

def lhs2P (h3 : Fin 12) (k : Fin 1344) : EReal := p1 ⟨h3.val + k.val / 448, by omega⟩ ⟨k.val % 448, by omega⟩
def zP (h3 : Fin 12) (l : Fin 768) : EReal := relu ((∑ k : Fin 1344, lhs2P p1 h3 k * B2 k l) + s2 l)
def zhP (h4 : Fin 6) (l : Fin 768) : EReal := maxOver fun k : Fin 2 => zP p1 B2 s2 ⟨2 * h4.val + k.val, by omega⟩ l
def qP (h4 : Fin 6) (l : Fin 384) : EReal :=
  max (zhP p1 B2 s2 h4 ⟨128 * (l.val / 64) + l.val % 64, by omega⟩)
      (zhP p1 B2 s2 h4 ⟨128 * (l.val / 64) + 64 + l.val % 64, by omega⟩)
def featP (f : Fin 2304) : EReal := qP p1 B2 s2 ⟨f.val / 384, by omega⟩ ⟨f.val % 384, by omega⟩
end P

/-- The stage is its second half applied to its first half. -/
theorem featR_eq_featP (img : Fin 28 → Fin 28 → EReal) (B1 : Fin 84 → Fin 896 → EReal) (s1 : Fin 896 → EReal)
    (B2 : Fin 1344 → Fin 768 → EReal) (s2 : Fin 768 → EReal) :
    featR img B1 s1 B2 s2 = featP (p1R img B1 s1) B2 s2 := rfl

end Cert.Spec

end
-- ==== Proof.RPayConv2.lean ====
/-
  The second half of the reference's convolution stage, read at an index: from the pooled first-stage output
  (8 × 14 × 448) to the pooled second-stage output (8 × 6 × 384) and its flattening (8 × 2304).

  Row `b * 12 + h3` of the 96 × 1344 left factor lists pooled rows `h3`, `h3 + 1`, `h3 + 2` of image `b` side by
  side; the product with the banded 1344 × 768 weight matrix, the shift and the rectifier give the second
  convolution; rows `b * 12 + 2 * h4` and `b * 12 + 2 * h4 + 1` are pooled by a maximum, then lane groups
  `128 * g .. 128 * g + 63` and `128 * g + 64 .. 128 * g + 127`; the six pooled rows of an image, side by side, are
  its 2304 features.
-/
import proofs.«171558_g2000600275687624_pallasbulk_458_2_alg».proof.Proof.RPayP1
import proofs.«171558_g2000600275687624_pallasbulk_458_2_alg».proof.Proof.Gen.ReferenceIdeal.Frame
import proofs.«171558_g2000600275687624_pallasbulk_458_2_alg».proof.Proof.SpecTail
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.Hand

open Idealize.ShloMosaic Idealize.ShloMosaic.ValueIdx Idealize.SL.Sem Cert.ReferenceIdeal.Gen

namespace Tail

/-! ## The left factor of the second product -/

/-- The three row-shifted windows of the pooled first-stage output. -/
theorem slices3 : ∀ n : Fin 3, S8x14x448.Slices ![0, n.val, 0] S8x12x448 := by decide

/-- Three windows side by side: lane `k` of row `h3` is lane `k % 448` of pooled row `h3 + k / 448`. -/
theorem rowsCat_apply (p : FVec Ideal S8x14x448 .f32) (b : Fin 8) (h3 : Fin 12) (k : Fin 1344) :
    concatenate S8x12x1344 2 [⟨S8x12x448, extractStridedSlice S8x12x448 ![0, 0, 0] p slices_S8x14x448_o0_0_0_S8x12x448⟩,
      ⟨S8x12x448, extractStridedSlice S8x12x448 ![0, 1, 0] p slices_S8x14x448_o0_1_0_S8x12x448⟩,
      ⟨S8x12x448, extractStridedSlice S8x12x448 ![0, 2, 0] p slices_S8x14x448_o0_2_0_S8x12x448⟩]
      concatenates_S8x12x448_S8x12x448_S8x12x448_S8x12x1344_d2 (ix3 b h3 k)
    = p (ix3 b ⟨h3.val + k.val / 448, by omega⟩ ⟨k.val % 448, by omega⟩) := by
  have hk := k.isLt
  have hh := h3.isLt
  refine (concatenate_ofFn_apply (t := S8x12x1344) (s₁ := S8x12x448) 2
    (fun n : Fin 3 => extractStridedSlice S8x12x448 ![0, n.val, 0] p (slices3 n))
    concatenates_S8x12x448_S8x12x448_S8x12x448_S8x12x1344_d2 rfl 448 rfl (ix3 b h3 k) ⟨k.val / 448, by omega⟩ rfl
    (ix3 b h3 ⟨k.val % 448, by omega⟩) rfl (fun a ha => ?_)).trans ?_
  · match a with
    | ⟨0, _⟩ => rfl
    | ⟨1, _⟩ => rfl
    | ⟨2, _⟩ => exact absurd rfl ha
  · refine extractStridedSlice_apply _ _ _ _ _ (fun a => ?_)
    match a with
    | ⟨0, _⟩ => show b.val = 0 + b.val; omega
    | ⟨1, _⟩ => show h3.val + k.val / 448 = k.val / 448 + h3.val; omega
    | ⟨2, _⟩ => show k.val % 448 = 0 + k.val % 448; omega

/-- The 8 × 12 rows, flattened to 96. -/
theorem cast_lhs_apply (x : FVec Ideal S8x12x1344 .f32) (b : Fin 8) (h3 : Fin 12) (k : Fin 1344) :
    shapeCast S96x1344 x shapeCasts_S8x12x1344_S96x1344 (ix2 ⟨b.val * 12 + h3.val, by omega⟩ k) = x (ix3 b h3 k) :=
  shapeCast_apply _ _ _ _ (by
    rw [Shape.rowMajor_val_three, Shape.rowMajor_val_two]
    show (b.val * 12 + h3.val) * 1344 + k.val = (b.val * 12 + h3.val) * 1344 + k.val
    rfl)

/-! ## The matrix product, the shift and the rectifier -/

theorem lhs_dot_S96x1344_S1344x768_S96x768_1_0_0_1_n_n_0 (j : S96x768.Idx)
    (k : dot_S96x1344_S1344x768_S96x768_1_0_0_1_n_n.contr.Idx) :
    (dot_S96x1344_S1344x768_S96x768_1_0_0_1_n_n.lhsIdx j k 0).val = (j 0).val := by
  unfold DotDims.lhsIdx
  rw [dif_neg (show ¬ (0 : Fin S96x1344.rank) ∈ dot_S96x1344_S1344x768_S96x768_1_0_0_1_n_n.lhsBatch by decide),
    dif_pos (show (0 : Fin S96x1344.rank) ∈ dot_S96x1344_S1344x768_S96x768_1_0_0_1_n_n.lhsNonContracting by decide)]
  rfl

theorem lhs_dot_S96x1344_S1344x768_S96x768_1_0_0_1_n_n_1 (j : S96x768.Idx)
    (k : dot_S96x1344_S1344x768_S96x768_1_0_0_1_n_n.contr.Idx) :
    (dot_S96x1344_S1344x768_S96x768_1_0_0_1_n_n.lhsIdx j k 1).val = (k ⟨0, by decide⟩).val :=
  dot_S96x1344_S1344x768_S96x768_1_0_0_1_n_n.lhsIdx_val_of_single (cl := 1) rfl j k

theorem rhs_dot_S96x1344_S1344x768_S96x768_1_0_0_1_n_n_0 (j : S96x768.Idx)
    (k : dot_S96x1344_S1344x768_S96x768_1_0_0_1_n_n.contr.Idx) :
    (dot_S96x1344_S1344x768_S96x768_1_0_0_1_n_n.rhsIdx j k 0).val = (k ⟨0, by decide⟩).val :=
  dot_S96x1344_S1344x768_S96x768_1_0_0_1_n_n.rhsIdx_val_of_single (cr := 0) rfl j k

theorem rhs_dot_S96x1344_S1344x768_S96x768_1_0_0_1_n_n_1 (j : S96x768.Idx)
    (k : dot_S96x1344_S1344x768_S96x768_1_0_0_1_n_n.contr.Idx) :
    (dot_S96x1344_S1344x768_S96x768_1_0_0_1_n_n.rhsIdx j k 1).val = (j 1).val := by
  unfold DotDims.rhsIdx
  rw [dif_neg (show ¬ (1 : Fin S1344x768.rank) ∈ dot_S96x1344_S1344x768_S96x768_1_0_0_1_n_n.rhsBatch by decide),
    dif_pos (show (1 : Fin S1344x768.rank) ∈ dot_S96x1344_S1344x768_S96x768_1_0_0_1_n_n.rhsNonContracting by decide)]
  rfl

/-- The product into the zero splat, read at row `r`, column `l`: the sum over the 1344 contracted positions. -/
theorem mm_apply (A : FVec Ideal S96x1344 .f32) (B : FVec Ideal S1344x768 .f32) (r : Fin 96) (l : Fin 768) :
    matmul dot_S96x1344_S1344x768_S96x768_1_0_0_1_n_n none A B (constant (F := Ideal) S96x768 .f32 0x00000000#32) (ix2 r l)
      = ∑ k : Fin 1344, A (ix2 r k) * B (ix2 k l) := by
  show FloatOps.matmul dot_S96x1344_S1344x768_S96x768_1_0_0_1_n_n none A B _ (ix2 r l) = _
  rw [Ideal.matmul_constant_zero_apply,
    ← Equiv.sum_comp (contrEquiv1 dot_S96x1344_S1344x768_S96x768_1_0_0_1_n_n 1344 rfl rfl).symm]
  refine Finset.sum_congr rfl fun c _ => ?_
  have c2 := contrEquiv1_symm_val dot_S96x1344_S1344x768_S96x768_1_0_0_1_n_n 1344 rfl rfl c
  have l2 : dot_S96x1344_S1344x768_S96x768_1_0_0_1_n_n.lhsIdx (ix2 r l)
      ((contrEquiv1 dot_S96x1344_S1344x768_S96x768_1_0_0_1_n_n 1344 rfl rfl).symm c) = ix2 r c := by
    funext ax; apply Fin.ext
    match ax with
    | ⟨0, _⟩ => exact lhs_dot_S96x1344_S1344x768_S96x768_1_0_0_1_n_n_0 _ _
    | ⟨1, _⟩ => exact (lhs_dot_S96x1344_S1344x768_S96x768_1_0_0_1_n_n_1 _ _).trans c2
  have r2 : dot_S96x1344_S1344x768_S96x768_1_0_0_1_n_n.rhsIdx (ix2 r l)
      ((contrEquiv1 dot_S96x1344_S1344x768_S96x768_1_0_0_1_n_n 1344 rfl rfl).symm c) = ix2 c l := by
    funext ax; apply Fin.ext
    match ax with
    | ⟨0, _⟩ => exact (rhs_dot_S96x1344_S1344x768_S96x768_1_0_0_1_n_n_0 _ _).trans c2
    | ⟨1, _⟩ => exact rhs_dot_S96x1344_S1344x768_S96x768_1_0_0_1_n_n_1 _ _
  rw [l2, r2]

/-- The shift is the same on every row. -/
theorem bias_apply (s : Vec Ideal S1x768 .f32) (r : Fin 96) (l : Fin 768) :
    broadcastTo S96x768 s broadcasts_S1x768_S96x768 (ix2 r l) = s (ix2 0 l) :=
  broadcastTo_1b_ab_apply s broadcasts_S1x768_S96x768 r l

/-- The shift added and the rectifier applied, entry by entry. -/
theorem relu_apply (m bb : FVec Ideal S96x768 .f32) (i : S96x768.Idx) :
    maximumf (addf m bb) (broadcast S96x768 (Scalar.ofBits (F := Ideal) .f32 0x00000000#32)) i = Spec.relu (m i + bb i) := rfl

/-! ## The pool over row pairs -/

/-- Row `b * 12 + (2 * h4 + k)` of the 96 is row `k` of pair `h4` of image `b`. -/
theorem cast4_apply (z : FVec Ideal S96x768 .f32) (b : Fin 8) (h4 : Fin 6) (k : Fin 2) (l : Fin 768) :
    shapeCast S8x6x2x768 z shapeCasts_S96x768_S8x6x2x768 (ix4 b h4 k l)
      = z (ix2 ⟨b.val * 12 + (2 * h4.val + k.val), by omega⟩ l) :=
  shapeCast_apply _ _ _ _ (by
    rw [Shape.rowMajor_val_two, Shape.rowMajor_val_four]
    show (b.val * 12 + (2 * h4.val + k.val)) * 768 + l.val = ((b.val * 6 + h4.val) * 2 + k.val) * 768 + l.val
    omega)

/-- The maximum over the two rows of a pair, started at minus infinity. -/
theorem red_apply (w : FVec Ideal S8x6x2x768 .f32) (b : Fin 8) (h4 : Fin 6) (l : Fin 768) :
    multiReduction .maximumf [2] S8x6x768 w 0xFF800000#32 reduces_S8x6x2x768_S8x6x768 (.inl rfl) rfl (ix3 b h4 l)
      = Spec.maxOver fun k : Fin 2 => w (ix4 b h4 k l) := by
  refine (Ideal.multiReduction_maximumf_single w 0xFF800000#32 reduces_S8x6x2x768_S8x6x768 (.inl rfl) rfl (ix3 b h4 l)).trans ?_
  refine congrArg (fun f => (Finset.univ : Finset (Fin 2)).fold max Spec.negInf f) (funext fun k => ?_)
  exact congrArg w (funext fun a => match a with | ⟨0, _⟩ => rfl | ⟨1, _⟩ => rfl | ⟨2, _⟩ => rfl | ⟨3, _⟩ => rfl)

/-! ## The pool over pairs of 64-lane groups -/

theorem slicesLo : ∀ g : Fin 6, S8x6x768.Slices ![0, 0, 128 * g.val] S8x6x64 := by decide
theorem slicesHi : ∀ g : Fin 6, S8x6x768.Slices ![0, 0, 128 * g.val + 64] S8x6x64 := by decide

/-- Six group maxima side by side: lane `l` is the maximum of lanes `128 * (l / 64) + l % 64` and
    `128 * (l / 64) + 64 + l % 64`. -/
theorem pool_apply (zh : FVec Ideal S8x6x768 .f32) (b : Fin 8) (h4 : Fin 6) (l : Fin 384) :
    concatenate S8x6x384 2 [
      ⟨S8x6x64, maximumf (extractStridedSlice S8x6x64 ![0, 0, 0] zh slices_S8x6x768_o0_0_0_S8x6x64) (extractStridedSlice S8x6x64 ![0, 0, 64] zh slices_S8x6x768_o0_0_64_S8x6x64)⟩,
      ⟨S8x6x64, maximumf (extractStridedSlice S8x6x64 ![0, 0, 128] zh slices_S8x6x768_o0_0_128_S8x6x64) (extractStridedSlice S8x6x64 ![0, 0, 192] zh slices_S8x6x768_o0_0_192_S8x6x64)⟩,
      ⟨S8x6x64, maximumf (extractStridedSlice S8x6x64 ![0, 0, 256] zh slices_S8x6x768_o0_0_256_S8x6x64) (extractStridedSlice S8x6x64 ![0, 0, 320] zh slices_S8x6x768_o0_0_320_S8x6x64)⟩,
      ⟨S8x6x64, maximumf (extractStridedSlice S8x6x64 ![0, 0, 384] zh slices_S8x6x768_o0_0_384_S8x6x64) (extractStridedSlice S8x6x64 ![0, 0, 448] zh slices_S8x6x768_o0_0_448_S8x6x64)⟩,
      ⟨S8x6x64, maximumf (extractStridedSlice S8x6x64 ![0, 0, 512] zh slices_S8x6x768_o0_0_512_S8x6x64) (extractStridedSlice S8x6x64 ![0, 0, 576] zh slices_S8x6x768_o0_0_576_S8x6x64)⟩,
      ⟨S8x6x64, maximumf (extractStridedSlice S8x6x64 ![0, 0, 640] zh slices_S8x6x768_o0_0_640_S8x6x64) (extractStridedSlice S8x6x64 ![0, 0, 704] zh slices_S8x6x768_o0_0_704_S8x6x64)⟩]
      concatenates_S8x6x64_S8x6x64_S8x6x64_S8x6x64_S8x6x64_S8x6x64_S8x6x384_d2 (ix3 b h4 l)
    = max (zh (ix3 b h4 ⟨128 * (l.val / 64) + l.val % 64, by omega⟩))
          (zh (ix3 b h4 ⟨128 * (l.val / 64) + 64 + l.val % 64, by omega⟩)) := by
  have hl := l.isLt
  refine (concatenate_ofFn_apply (t := S8x6x384) (s₁ := S8x6x64) 2
    (fun g : Fin 6 => maximumf (extractStridedSlice S8x6x64 ![0, 0, 128 * g.val] zh (slicesLo g))
      (extractStridedSlice S8x6x64 ![0, 0, 128 * g.val + 64] zh (slicesHi g)))
    concatenates_S8x6x64_S8x6x64_S8x6x64_S8x6x64_S8x6x64_S8x6x64_S8x6x384_d2 rfl 64 rfl (ix3 b h4 l) ⟨l.val / 64, by omega⟩ rfl
    (ix3 b h4 ⟨l.val % 64, by omega⟩) rfl (fun a ha => ?_)).trans ?_
  · match a with
    | ⟨0, _⟩ => rfl
    | ⟨1, _⟩ => rfl
    | ⟨2, _⟩ => exact absurd rfl ha
  · show max _ _ = _
    congr 1
    · refine extractStridedSlice_apply _ _ _ _ _ (fun a => ?_)
      match a with
      | ⟨0, _⟩ => show b.val = 0 + b.val; omega
      | ⟨1, _⟩ => show h4.val = 0 + h4.val; omega
      | ⟨2, _⟩ => show 128 * (l.val / 64) + l.val % 64 = 128 * (l.val / 64) + l.val % 64; rfl
    · refine extractStridedSlice_apply _ _ _ _ _ (fun a => ?_)
      match a with
      | ⟨0, _⟩ => show b.val = 0 + b.val; omega
      | ⟨1, _⟩ => show h4.val = 0 + h4.val; omega
      | ⟨2, _⟩ => show 128 * (l.val / 64) + 64 + l.val % 64 = 128 * (l.val / 64) + 64 + l.val % 64; rfl

/-! ## The stages as functions of the pooled first-stage output -/

/-- The 96 × 1344 left factor. -/
def lhsV (p : FVec Ideal S8x14x448 .f32) : FVec Ideal S96x1344 .f32 :=
  shapeCast S96x1344 (concatenate S8x12x1344 2 [⟨S8x12x448, extractStridedSlice S8x12x448 ![0, 0, 0] p slices_S8x14x448_o0_0_0_S8x12x448⟩,
      ⟨S8x12x448, extractStridedSlice S8x12x448 ![0, 1, 0] p slices_S8x14x448_o0_1_0_S8x12x448⟩,
      ⟨S8x12x448, extractStridedSlice S8x12x448 ![0, 2, 0] p slices_S8x14x448_o0_2_0_S8x12x448⟩]
      concatenates_S8x12x448_S8x12x448_S8x12x448_S8x12x1344_d2) shapeCasts_S8x12x1344_S96x1344

/-- The second convolution, 96 × 768: product, shift, rectifier. -/
def zV (p : FVec Ideal S8x14x448 .f32) (v66 : Vec Ideal S1344x768 .f32) (v68 : Vec Ideal S1x768 .f32) : FVec Ideal S96x768 .f32 :=
  maximumf (addf (matmul (φ₂ := .f32) dot_S96x1344_S1344x768_S96x768_1_0_0_1_n_n none (lhsV p) v66 (constant (F := Ideal) S96x768 .f32 0x00000000#32))
      (broadcastTo S96x768 v68 broadcasts_S1x768_S96x768))
    (broadcast S96x768 (Scalar.ofBits (F := Ideal) .f32 0x00000000#32))

/-- Pooled over row pairs, 8 × 6 × 768. -/
def zhV (p : FVec Ideal S8x14x448 .f32) (v66 : Vec Ideal S1344x768 .f32) (v68 : Vec Ideal S1x768 .f32) : FVec Ideal S8x6x768 .f32 :=
  multiReduction .maximumf [2] S8x6x768 (shapeCast S8x6x2x768 (zV p v66 v68) shapeCasts_S96x768_S8x6x2x768) 0xFF800000#32
    reduces_S8x6x2x768_S8x6x768 (.inl rfl) rfl

/-- Pooled over pairs of 64-lane groups, 8 × 6 × 384. -/
def qV (p : FVec Ideal S8x14x448 .f32) (v66 : Vec Ideal S1344x768 .f32) (v68 : Vec Ideal S1x768 .f32) : FVec Ideal S8x6x384 .f32 :=
  concatenate S8x6x384 2 [
      ⟨S8x6x64, maximumf (extractStridedSlice S8x6x64 ![0, 0, 0] (zhV p v66 v68) slices_S8x6x768_o0_0_0_S8x6x64) (extractStridedSlice S8x6x64 ![0, 0, 64] (zhV p v66 v68) slices_S8x6x768_o0_0_64_S8x6x64)⟩,
      ⟨S8x6x64, maximumf (extractStridedSlice S8x6x64 ![0, 0, 128] (zhV p v66 v68) slices_S8x6x768_o0_0_128_S8x6x64) (extractStridedSlice S8x6x64 ![0, 0, 192] (zhV p v66 v68) slices_S8x6x768_o0_0_192_S8x6x64)⟩,
      ⟨S8x6x64, maximumf (extractStridedSlice S8x6x64 ![0, 0, 256] (zhV p v66 v68) slices_S8x6x768_o0_0_256_S8x6x64) (extractStridedSlice S8x6x64 ![0, 0, 320] (zhV p v66 v68) slices_S8x6x768_o0_0_320_S8x6x64)⟩,
      ⟨S8x6x64, maximumf (extractStridedSlice S8x6x64 ![0, 0, 384] (zhV p v66 v68) slices_S8x6x768_o0_0_384_S8x6x64) (extractStridedSlice S8x6x64 ![0, 0, 448] (zhV p v66 v68) slices_S8x6x768_o0_0_448_S8x6x64)⟩,
      ⟨S8x6x64, maximumf (extractStridedSlice S8x6x64 ![0, 0, 512] (zhV p v66 v68) slices_S8x6x768_o0_0_512_S8x6x64) (extractStridedSlice S8x6x64 ![0, 0, 576] (zhV p v66 v68) slices_S8x6x768_o0_0_576_S8x6x64)⟩,
      ⟨S8x6x64, maximumf (extractStridedSlice S8x6x64 ![0, 0, 640] (zhV p v66 v68) slices_S8x6x768_o0_0_640_S8x6x64) (extractStridedSlice S8x6x64 ![0, 0, 704] (zhV p v66 v68) slices_S8x6x768_o0_0_704_S8x6x64)⟩]
    concatenates_S8x6x64_S8x6x64_S8x6x64_S8x6x64_S8x6x64_S8x6x64_S8x6x384_d2

/-- The payload is these stages applied to the pooled first-stage output. -/
theorem pay13_eq_qV (v17 : FVec Ideal S8x14x896 .f32) (v20 v23 v26 v29 v32 v35 v38 v41 v44 v47 : FVec Ideal S8x14x32 .f32)
    (v66 : Vec Ideal S1344x768 .f32) (v68 : Vec Ideal S1x768 .f32) :
    Gen.k0_pay13 v17 v20 v23 v26 v29 v32 v35 v38 v41 v44 v47 v66 v68 = qV (p1vec v17 v20 v23 v26 v29 v32 v35 v38 v41 v44 v47) v66 v68 := rfl

theorem lhsV_apply (p : FVec Ideal S8x14x448 .f32) (b : Fin 8) (h3 : Fin 12) (k : Fin 1344) :
    lhsV p (ix2 ⟨b.val * 12 + h3.val, by omega⟩ k) = Spec.lhs2P (fun h2 l => p (ix3 b h2 l)) h3 k :=
  (cast_lhs_apply _ b h3 k).trans (rowsCat_apply p b h3 k)

theorem zV_apply (p : FVec Ideal S8x14x448 .f32) (v66 : Vec Ideal S1344x768 .f32) (v68 : Vec Ideal S1x768 .f32) (b : Fin 8) (h3 : Fin 12) (l : Fin 768) :
    zV p v66 v68 (ix2 ⟨b.val * 12 + h3.val, by omega⟩ l)
      = Spec.zP (fun h2 l => p (ix3 b h2 l)) (fun k l => v66 (ix2 k l)) (fun l => v68 (ix2 0 l)) h3 l := by
  unfold zV
  rw [relu_apply, mm_apply, bias_apply]
  unfold Spec.zP
  refine congrArg (fun s => Spec.relu (s + v68 (ix2 0 l))) (Finset.sum_congr rfl fun k _ => ?_)
  rw [lhsV_apply]

theorem zhV_apply (p : FVec Ideal S8x14x448 .f32) (v66 : Vec Ideal S1344x768 .f32) (v68 : Vec Ideal S1x768 .f32) (b : Fin 8) (h4 : Fin 6) (l : Fin 768) :
    zhV p v66 v68 (ix3 b h4 l)
      = Spec.zhP (fun h2 l => p (ix3 b h2 l)) (fun k l => v66 (ix2 k l)) (fun l => v68 (ix2 0 l)) h4 l := by
  unfold zhV
  refine (red_apply _ b h4 l).trans ?_
  unfold Spec.zhP
  refine congrArg Spec.maxOver (funext fun k => ?_)
  refine (cast4_apply _ b h4 k l).trans ?_
  exact zV_apply p v66 v68 b ⟨2 * h4.val + k.val, by omega⟩ l

theorem qV_apply (p : FVec Ideal S8x14x448 .f32) (v66 : Vec Ideal S1344x768 .f32) (v68 : Vec Ideal S1x768 .f32) (b : Fin 8) (h4 : Fin 6) (l : Fin 384) :
    qV p v66 v68 (ix3 b h4 l)
      = Spec.qP (fun h2 l => p (ix3 b h2 l)) (fun k l => v66 (ix2 k l)) (fun l => v68 (ix2 0 l)) h4 l := by
  unfold qV
  refine (pool_apply _ b h4 l).trans ?_
  unfold Spec.qP
  rw [zhV_apply, zhV_apply]

/-! ## The flatten and the output buffer -/

theorem slices6 : ∀ n : Fin 6, S8x6x384.Slices ![0, n.val, 0] S8x1x384 := by decide

/-- The six pooled rows of an image side by side. -/
def flatV (q : FVec Ideal S8x6x384 .f32) : FVec Ideal S8x2304 .f32 :=
  concatenate S8x2304 1 [
      ⟨S8x384, shapeCast S8x384 (extractStridedSlice S8x1x384 ![0, 0, 0] q slices_S8x6x384_o0_0_0_S8x1x384) shapeCasts_S8x1x384_S8x384⟩,
      ⟨S8x384, shapeCast S8x384 (extractStridedSlice S8x1x384 ![0, 1, 0] q slices_S8x6x384_o0_1_0_S8x1x384) shapeCasts_S8x1x384_S8x384⟩,
      ⟨S8x384, shapeCast S8x384 (extractStridedSlice S8x1x384 ![0, 2, 0] q slices_S8x6x384_o0_2_0_S8x1x384) shapeCasts_S8x1x384_S8x384⟩,
      ⟨S8x384, shapeCast S8x384 (extractStridedSlice S8x1x384 ![0, 3, 0] q slices_S8x6x384_o0_3_0_S8x1x384) shapeCasts_S8x1x384_S8x384⟩,
      ⟨S8x384, shapeCast S8x384 (extractStridedSlice S8x1x384 ![0, 4, 0] q slices_S8x6x384_o0_4_0_S8x1x384) shapeCasts_S8x1x384_S8x384⟩,
      ⟨S8x384, shapeCast S8x384 (extractStridedSlice S8x1x384 ![0, 5, 0] q slices_S8x6x384_o0_5_0_S8x1x384) shapeCasts_S8x1x384_S8x384⟩]
    concatenates_S8x384_S8x384_S8x384_S8x384_S8x384_S8x384_S8x2304_d1

/-- Feature `f` of image `b` is lane `f % 384` of pooled row `f / 384`. -/
theorem flatV_apply (q : FVec Ideal S8x6x384 .f32) (b : Fin 8) (f : Fin 2304) :
    flatV q (ix2 b f) = q (ix3 b ⟨f.val / 384, by omega⟩ ⟨f.val % 384, by omega⟩) := by
  have hf := f.isLt
  unfold flatV
  refine (concatenate_ofFn_apply (t := S8x2304) (s₁ := S8x384) 1
    (fun n : Fin 6 => shapeCast S8x384 (extractStridedSlice S8x1x384 ![0, n.val, 0] q (slices6 n)) shapeCasts_S8x1x384_S8x384)
    concatenates_S8x384_S8x384_S8x384_S8x384_S8x384_S8x384_S8x2304_d1 rfl 384 rfl (ix2 b f) ⟨f.val / 384, by omega⟩ rfl
    (ix2 b ⟨f.val % 384, by omega⟩) rfl (fun a ha => ?_)).trans ?_
  · match a with
    | ⟨0, _⟩ => rfl
    | ⟨1, _⟩ => exact absurd rfl ha
  · refine (shapeCast_apply _ _ _ (ix3 b (0 : Fin 1) ⟨f.val % 384, by omega⟩) (by
      rw [Shape.rowMajor_val_three, Shape.rowMajor_val_two]
      show (b.val * 1 + 0) * 384 + f.val % 384 = b.val * 384 + f.val % 384
      omega)).trans ?_
    refine extractStridedSlice_apply _ _ _ _ _ (fun a => ?_)
    match a with
    | ⟨0, _⟩ => show b.val = 0 + b.val; omega
    | ⟨1, _⟩ => show f.val / 384 = f.val / 384 + 0; omega
    | ⟨2, _⟩ => show f.val % 384 = 0 + f.val % 384; omega

/-- The flatten's payload reads only the pooled second-stage output. -/
theorem pay1_eq_flatV (v17 : FVec Ideal S8x14x896 .f32) (v20 v23 v26 v29 v32 v35 v38 v41 v44 v47 : FVec Ideal S8x14x32 .f32)
    (v66 : Vec Ideal S1344x768 .f32) (v68 : Vec Ideal S1x768 .f32) :
    Gen.k0_pay1 (Gen.k0_pay13 v17 v20 v23 v26 v29 v32 v35 v38 v41 v44 v47 v66 v68) (Gen.k0_pay14 v17 v20 v23 v26 v29 v32 v35 v38 v41 v44 v47 v66 v68) (Gen.k0_pay15 v17 v20 v23 v26 v29 v32 v35 v38 v41 v44 v47 v66 v68)
        (Gen.k0_pay16 v17 v20 v23 v26 v29 v32 v35 v38 v41 v44 v47 v66 v68) (Gen.k0_pay17 v17 v20 v23 v26 v29 v32 v35 v38 v41 v44 v47 v66 v68)
      = flatV (Gen.k0_pay13 v17 v20 v23 v26 v29 v32 v35 v38 v41 v44 v47 v66 v68) := rfl

end Tail

open Tail

/-! ## The two statements the other modules use -/

/-- The second half of the stage at an index: the pooled second-stage output of image `b`, row `h4`, lane `l`. -/
theorem pay13_eq (v17 : FVec Ideal S8x14x896 .f32) (v20 v23 v26 v29 v32 v35 v38 v41 v44 v47 : FVec Ideal S8x14x32 .f32)
    (v66 : Vec Ideal S1344x768 .f32) (v68 : Vec Ideal S1x768 .f32) (b : Fin 8) (h4 : Fin 6) (l : Fin 384) :
    Gen.k0_pay13 v17 v20 v23 v26 v29 v32 v35 v38 v41 v44 v47 v66 v68 (ix3 b h4 l)
      = Spec.qP (fun h2 l => p1vec v17 v20 v23 v26 v29 v32 v35 v38 v41 v44 v47 (ix3 b h2 l)) (fun k l => v66 (ix2 k l)) (fun l => v68 (ix2 0 l)) h4 l := by
  rw [pay13_eq_qV]
  exact qV_apply _ v66 v68 b h4 l

/-- What the stage leaves in its output buffer, at image `b`, feature `f`. -/
theorem out0_5_tail (x0 : Vec Ideal S8x28x28 .f32) (x1 : Vec Ideal S84x896 .f32) (x2 : Vec Ideal S1x896 .f32)
    (x3 : Vec Ideal S1344x768 .f32) (x4 : Vec Ideal S1x768 .f32) (b : Fin 8) (f : Fin 2304) :
    Gen.out0_5 x0 x1 x2 x3 x4 (ix2 b f)
      = Spec.featP (fun h2 l => p1vec (Gen.k0_pay2 x0 x1 x2) (Gen.k0_pay3 x0 x1 x2) (Gen.k0_pay4 x0 x1 x2) (Gen.k0_pay5 x0 x1 x2) (Gen.k0_pay6 x0 x1 x2) (Gen.k0_pay7 x0 x1 x2) (Gen.k0_pay8 x0 x1 x2) (Gen.k0_pay9 x0 x1 x2) (Gen.k0_pay10 x0 x1 x2) (Gen.k0_pay11 x0 x1 x2) (Gen.k0_pay12 x0 x1 x2) (ix3 b h2 l))
          (fun k l => x3 (ix2 k l)) (fun l => x4 (ix2 0 l)) f := by
  have hz2 : (![0, 0] : Fin 2 → Nat) = fun _ => 0 := by
    funext a; match a with | ⟨0, _⟩ => rfl | ⟨1, _⟩ => rfl
  have hz3 : (![0, 0, 0] : Fin 3 → Nat) = fun _ => 0 := by
    funext a; match a with | ⟨0, _⟩ => rfl | ⟨1, _⟩ => rfl | ⟨2, _⟩ => rfl
  unfold Gen.out0_5
  rw [View.canon_unit_zero hz2]
  simp only [View.ld_unit_zero (S := S8x28x28) hz3, View.ld_unit_zero (S := S84x896) hz2,
    View.ld_unit_zero (S := S1x896) hz2, View.ld_unit_zero (S := S1344x768) hz2, View.ld_unit_zero (S := S1x768) hz2]
  rw [pay1_eq_flatV]
  refine (flatV_apply _ b f).trans ?_
  unfold Spec.featP
  exact pay13_eq _ _ _ _ _ _ _ _ _ _ _ x3 x4 b ⟨f.val / 384, by have := f.isLt; omega⟩ ⟨f.val % 384, by omega⟩

end Cert.ReferenceIdeal.Hand

end
-- ==== Proof.RPayConv.lean ====
/-
  The reference's convolution kernel read at an index: entry `(b, f)` of the block it stores is feature `f`
  of image `b` of the block. The stage is cut at the pooled first-stage output: its first half reads as
  `p1R`, its second half is `featP` of whatever the first half holds, and `featR` is the second applied to the first.
-/
import proofs.«171558_g2000600275687624_pallasbulk_458_2_alg».proof.Proof.RPayConv1
import proofs.«171558_g2000600275687624_pallasbulk_458_2_alg».proof.Proof.RPayConv2

noncomputable section

namespace Cert.ReferenceIdeal.Hand

open Idealize.ShloMosaic Idealize.ShloMosaic.ValueIdx
open Cert.ReferenceIdeal Cert.ReferenceIdeal.Gen

theorem out0_5_apply (x0 : Vec Ideal S8x28x28 .f32) (x1 : Vec Ideal S84x896 .f32) (x2 : Vec Ideal S1x896 .f32)
    (x3 : Vec Ideal S1344x768 .f32) (x4 : Vec Ideal S1x768 .f32) (b : Fin 8) (f : Fin 2304) :
    Gen.out0_5 x0 x1 x2 x3 x4 (ix2 b f)
      = Spec.featR (fun h w => x0 (ix3 b h w)) (fun k l => x1 (ix2 k l)) (fun l => x2 (ix2 0 l))
          (fun k l => x3 (ix2 k l)) (fun l => x4 (ix2 0 l)) f := by
  rw [out0_5_tail, Spec.featR_eq_featP]
  exact congrArg (fun p => Spec.featP p _ _ f) (funext fun h2 => funext fun l => p1vec_apply x0 x1 x2 b h2 l)

end Cert.ReferenceIdeal.Hand

end
-- ==== Proof.RPayMlp.lean ====
/-
  What the reference's second kernel leaves in its output buffer, read at an index.

  The body loads its seven whole operands, applies three affine layers to the 8 x 2304 feature array (a
  product into the zero constant plus a broadcast bias row, three times) and a log-softmax along each row (the
  row maximum from minus infinity is subtracted, and then the logarithm of the row sum of the exponentials),
  and stores the 8 x 10 result over the whole output buffer in one store.

  Each operation is read at explicit coordinates by one small lemma, stated for any number of rows where the
  number of rows plays no part; the buffer at row `b`, column `j` is then `Spec.logits` of row `b` of the
  feature array.
-/
import Idealize.ShloMosaic.PureOps.Ideal.Laws
import Idealize.ShloMosaic.Lib.ValueLayout
import proofs.«171558_g2000600275687624_pallasbulk_458_2_alg».proof.Proof.Gen.ReferenceIdeal.Frame
import proofs.«171558_g2000600275687624_pallasbulk_458_2_alg».proof.Proof.Spec

noncomputable section

namespace Cert.ReferenceIdeal.Hand

open Idealize.ShloMosaic Idealize.ShloMosaic.ValueIdx

open Cert.ReferenceIdeal Cert.ReferenceIdeal.Gen

namespace Mlp

/-! ## Operations read at an index, for any number of rows -/

section Generic

/-- A product into the zero constant, read at row `b`, column `j`: the sum over the contracted
    coordinate `k` of the left factor at `(b, k)` times the right factor at `(k, j)`. The four facts
    say which coordinate of each operand index is the output's and which the contracted one. -/
theorem matmul_zero_ix2 {n K m : Nat} (D : DotDims ⟨2, ![n, K]⟩ ⟨2, ![K, m]⟩ ⟨2, ![n, m]⟩)
    (hr : D.contr.rank = 1) (hs : D.contr.size ⟨0, by omega⟩ = K)
    (hl0 : ∀ (i : (⟨2, ![n, m]⟩ : Shape).Idx) (q : D.contr.Idx), (D.lhsIdx i q 0).val = (i 0).val)
    (hl1 : ∀ (i : (⟨2, ![n, m]⟩ : Shape).Idx) (q : D.contr.Idx), (D.lhsIdx i q 1).val = (q ⟨0, by omega⟩).val)
    (hr0 : ∀ (i : (⟨2, ![n, m]⟩ : Shape).Idx) (q : D.contr.Idx), (D.rhsIdx i q 0).val = (q ⟨0, by omega⟩).val)
    (hr1 : ∀ (i : (⟨2, ![n, m]⟩ : Shape).Idx) (q : D.contr.Idx), (D.rhsIdx i q 1).val = (i 1).val)
    (l : FVec Ideal ⟨2, ![n, K]⟩ .f32) (r : FVec Ideal ⟨2, ![K, m]⟩ .f32) (b : Fin n) (j : Fin m) :
    matmul D none l r (constant (F := Ideal) ⟨2, ![n, m]⟩ .f32 0x00000000#32) (ix2 b j)
      = ∑ k : Fin K, l (ix2 b k) * r (ix2 k j) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 b j) ((contrEquiv1 D K hr hs).symm k) = ix2 b k := funext fun a => Fin.ext (by
    match a with
    | ⟨0, _⟩ => exact hl0 _ _
    | ⟨1, _⟩ => exact (hl1 _ _).trans hk)
  have er : D.rhsIdx (ix2 b j) ((contrEquiv1 D K hr hs).symm k) = ix2 k j := funext fun a => Fin.ext (by
    match a with
    | ⟨0, _⟩ => exact (hr0 _ _).trans hk
    | ⟨1, _⟩ => exact hr1 _ _)
  rw [el, er]

/-- The maximum along a row of a ten-column array, started at the word `0xFF800000`. -/
theorem rowMax_apply {n : Nat} (x : FVec Ideal ⟨2, ![n, 10]⟩ .f32)
    (h : (⟨2, ![n, 10]⟩ : Shape).Reduces [1] ⟨1, ![n]⟩) (hφ : FKind.Formats .f32)
    (hacc : (0xFF800000#32 : BitVec 32) = 0xFF800000#32) (b : Fin n) :
    multiReduction (F := Ideal) .maximumf [1] ⟨1, ![n]⟩ x 0xFF800000#32 h hφ hacc (ix1 b)
      = Spec.maxOver fun k : Fin 10 => x (ix2 b k) := by
  refine (Ideal.multiReduction_maximumf_single x 0xFF800000#32 h hφ hacc (ix1 b)).trans ?_
  unfold Spec.maxOver Spec.negInf
  have e : (x ∘ h.lift (ix1 b)) = fun k : Fin 10 => x (ix2 b k) := funext fun k => congrArg x (funext fun a => Fin.ext (by
    match a with
    | ⟨0, _⟩ => rfl
    | ⟨1, _⟩ => rfl))
  rw [e]
  rfl

/-- The sum along a row of a ten-column array. -/
theorem rowSum_apply {n : Nat} (x : FVec Ideal ⟨2, ![n, 10]⟩ .f32)
    (h : (⟨2, ![n, 10]⟩ : Shape).Reduces [1] ⟨1, ![n]⟩) (hφ : FKind.Formats .f32)
    (hacc : (0x00000000#32 : BitVec 32) = 0x00000000#32) (b : Fin n) :
    multiReduction (F := Ideal) .add [1] ⟨1, ![n]⟩ x 0x00000000#32 h hφ hacc (ix1 b)
      = ∑ k : Fin 10, x (ix2 b k) := by
  refine (Ideal.multiReduction_add_single x 0x00000000#32 h hφ hacc (ix1 b)).trans ?_
  refine Finset.sum_congr rfl fun k _ => congrArg x (funext fun a => Fin.ext (by
    match a with
    | ⟨0, _⟩ => rfl
    | ⟨1, _⟩ => rfl))

/-- A vector of `n` entries cast to one column reads, at `(b, u)`, the vector at `b`. -/
theorem shapeCast_a_a1_apply {α : Type} {n : Nat} (x : (⟨1, ![n]⟩ : Shape).Idx → α)
    (h : (⟨1, ![n]⟩ : Shape).ShapeCasts ⟨2, ![n, 1]⟩) (b : Fin n) (u : Fin 1) :
    shapeCast ⟨2, ![n, 1]⟩ x h (ix2 b u) = x (ix1 b) :=
  shapeCast_apply x h _ _ (by
    have hu : u.val = 0 := by omega
    rw [Shape.rowMajor_val_two, Shape.rowMajor_val_one]
    show b.val = b.val * 1 + u.val
    rw [hu, Nat.mul_one, Nat.add_zero])

/-- One column broadcast over `m` columns reads, at `(b, j)`, the column at `b`. -/
theorem broadcastTo_a1_ab_apply {α : Type} {n m : Nat} (v : (⟨2, ![n, 1]⟩ : Shape).Idx → α)
    (h : (⟨2, ![n, 1]⟩ : Shape).Broadcasts ⟨2, ![n, m]⟩) (b : Fin n) (j : Fin m) :
    broadcastTo ⟨2, ![n, m]⟩ v h (ix2 b j) = v (ix2 b (0 : Fin 1)) := by
  refine broadcastTo_apply v h (ix2 b j) (ix2 b (0 : Fin 1)) fun ax => ?_
  match ax with
  | ⟨0, _⟩ =>
    show b.val = if n = 1 then 0 else b.val
    split
    · have := b.isLt; omega
    · rfl
  | ⟨1, _⟩ => rfl

/-- The exponential of an array, entry by entry. -/
theorem exp_apply {s : Shape} (x : FVec Ideal s .f32) (i : s.Idx) :
    Idealize.ShloMosaic.exp x i = Ideal.exp (x i) := rfl

/-- The logarithm of an array, entry by entry. -/
theorem log_apply {s : Shape} (x : FVec Ideal s .f32) (i : s.Idx) :
    Idealize.ShloMosaic.log x i = Ideal.log (x i) := rfl

end Generic

/-! ## The three products of this program, each into the zero constant -/

/-- The first layer's product at row `b`, column `j`. -/
theorem mm1_apply (l : FVec Ideal S8x2304 .f32) (r : FVec Ideal S2304x640 .f32) (b : Fin 8) (j : Fin 640) :
    matmul dot_S8x2304_S2304x640_S8x640_1_0_0_1_n_n none l r (constant (F := Ideal) S8x640 .f32 0x00000000#32) (ix2 b j)
      = ∑ k : Fin 2304, l (ix2 b k) * r (ix2 k j) :=
  matmul_zero_ix2 dot_S8x2304_S2304x640_S8x640_1_0_0_1_n_n rfl rfl (fun _ _ => rfl)
    (fun i q => dot_S8x2304_S2304x640_S8x640_1_0_0_1_n_n.lhsIdx_val_of_single rfl i q)
    (fun i q => dot_S8x2304_S2304x640_S8x640_1_0_0_1_n_n.rhsIdx_val_of_single rfl i q) (fun _ _ => rfl) l r b j

/-- The second layer's product at row `b`, column `j`. -/
theorem mm2_apply (l : FVec Ideal S8x640 .f32) (r : FVec Ideal S640x128 .f32) (b : Fin 8) (j : Fin 128) :
    matmul dot_S8x640_S640x128_S8x128_1_0_0_1_n_n none l r (constant (F := Ideal) S8x128 .f32 0x00000000#32) (ix2 b j)
      = ∑ k : Fin 640, l (ix2 b k) * r (ix2 k j) :=
  matmul_zero_ix2 dot_S8x640_S640x128_S8x128_1_0_0_1_n_n rfl rfl (fun _ _ => rfl)
    (fun i q => dot_S8x640_S640x128_S8x128_1_0_0_1_n_n.lhsIdx_val_of_single rfl i q)
    (fun i q => dot_S8x640_S640x128_S8x128_1_0_0_1_n_n.rhsIdx_val_of_single rfl i q) (fun _ _ => rfl) l r b j

/-- The third layer's product at row `b`, column `j`. -/
theorem mm3_apply (l : FVec Ideal S8x128 .f32) (r : FVec Ideal S128x10 .f32) (b : Fin 8) (j : Fin 10) :
    matmul dot_S8x128_S128x10_S8x10_1_0_0_1_n_n none l r (constant (F := Ideal) S8x10 .f32 0x00000000#32) (ix2 b j)
      = ∑ k : Fin 128, l (ix2 b k) * r (ix2 k j) :=
  matmul_zero_ix2 dot_S8x128_S128x10_S8x10_1_0_0_1_n_n rfl rfl (fun _ _ => rfl)
    (fun i q => dot_S8x128_S128x10_S8x10_1_0_0_1_n_n.lhsIdx_val_of_single rfl i q)
    (fun i q => dot_S8x128_S128x10_S8x10_1_0_0_1_n_n.rhsIdx_val_of_single rfl i q) (fun _ _ => rfl) l r b j

/-! ## The payload at an index -/

/-- The body's payload at row `b`, column `j`: the log-softmax of the three affine layers applied to row
    `b` of the feature array (the first cast is to the same shape, the identity). Every operation is pushed
    to the index by its lemma above; what is left is `Spec.logits` unfolded. -/
theorem pay1_apply (x0 : Vec Ideal S8x2304 .f32) (x1 : Vec Ideal S2304x640 .f32) (x2 : Vec Ideal S1x640 .f32) (x3 : Vec Ideal S640x128 .f32) (x4 : Vec Ideal S1x128 .f32) (x5 : Vec Ideal S128x10 .f32) (x6 : Vec Ideal S1x10 .f32) (b : Fin 8) (j : Fin 10) :
    Gen.k1_pay1 x0 x1 x2 x3 x4 x5 x6 (ix2 b j)
      = Spec.logits (fun f => x0 (ix2 b f)) (fun k j => x1 (ix2 k j)) (fun j => x2 (ix2 0 j)) (fun k j => x3 (ix2 k j)) (fun j => x4 (ix2 0 j)) (fun k j => x5 (ix2 k j)) (fun j => x6 (ix2 0 j)) j := by
  unfold Gen.k1_pay1
  simp -proj only [shapeCast_self, subf_apply, addf_apply, exp_apply, log_apply, broadcastTo_a1_ab_apply, shapeCast_a_a1_apply,
    rowMax_apply, rowSum_apply, broadcastTo_1b_ab_apply, mm1_apply, mm2_apply, mm3_apply]
  rfl

/-! ## The output buffer after the body -/

/-- The offsets of every access of the body are zero. -/
theorem offsets_zero : (![0, 0] : Fin 2 → Nat) = fun _ => 0 := funext fun a => by
  match a with
  | ⟨0, _⟩ => rfl
  | ⟨1, _⟩ => rfl

end Mlp

/-- The output buffer after the body at row `b`, column `j`: the one store covers the whole buffer and
    every load reads its whole operand, so the buffer holds the payload of the operands themselves. -/
theorem out1_7_apply (x0 : Vec Ideal S8x2304 .f32) (x1 : Vec Ideal S2304x640 .f32) (x2 : Vec Ideal S1x640 .f32) (x3 : Vec Ideal S640x128 .f32) (x4 : Vec Ideal S1x128 .f32) (x5 : Vec Ideal S128x10 .f32) (x6 : Vec Ideal S1x10 .f32) (b : Fin 8) (j : Fin 10) :
    Gen.out1_7 x0 x1 x2 x3 x4 x5 x6 (ix2 b j) = Spec.logits (fun f => x0 (ix2 b f)) (fun k j => x1 (ix2 k j)) (fun j => x2 (ix2 0 j)) (fun k j => x3 (ix2 k j)) (fun j => x4 (ix2 0 j)) (fun k j => x5 (ix2 k j)) (fun j => x6 (ix2 0 j)) j := by
  unfold Gen.out1_7
  rw [View.canon_unit_zero Mlp.offsets_zero]
  simp only [View.ld_unit_zero (S := S8x2304) Mlp.offsets_zero, View.ld_unit_zero (S := S2304x640) Mlp.offsets_zero,
    View.ld_unit_zero (S := S1x640) Mlp.offsets_zero, View.ld_unit_zero (S := S640x128) Mlp.offsets_zero,
    View.ld_unit_zero (S := S1x128) Mlp.offsets_zero, View.ld_unit_zero (S := S128x10) Mlp.offsets_zero,
    View.ld_unit_zero (S := S1x10) Mlp.offsets_zero]
  exact Mlp.pay1_apply x0 x1 x2 x3 x4 x5 x6 b j

end Cert.ReferenceIdeal.Hand

end
-- ==== Proof.RefValue.lean ====
/-
  The reference program's result as one function of its eleven arguments, over the extended reals.

  The program is one host reshape (the batch's unit channel axis dropped) and two kernel regions over a grid of
  512 points each. Point `t` of the first region reads images `8 t … 8 t + 7` and the four convolution weights
  whole, and writes rows `8 t … 8 t + 7` of the 4096 × 2304 feature array; point `t` of the second region reads
  those rows and the six affine weights whole, and writes rows `8 t … 8 t + 7` of the 4096 × 10 result. The two
  payload readings (one block of eight images to their features; one block of eight feature rows to their
  log-softmax scores) are taken as hypotheses. From them: each region's write-back at a point is that point's
  block of one whole-array function (the block index of every window decided once over the grid, a block's
  coordinate being index × size + the coordinate inside the block); the blocks cover the array (row `r` lies in
  block `r / 8`); so the array ends holding that function. The first region's function is the per-image
  convolution stage; the second's, read on top of it, is the whole network `Spec.net`.
-/
import proofs.«171558_g2000600275687624_pallasbulk_458_2_alg».proof.Proof.RefRun
import proofs.«171558_g2000600275687624_pallasbulk_458_2_alg».proof.Proof.SpecNet
import Idealize.ShloMosaic.Lib.Pipeline.Value
import Idealize.ShloMosaic.Lib.ValueIdx
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic Idealize.ShloMosaic.ValueIdx
open Idealize.SL.Sem
open Idealize.ShloMosaic.Pipeline (Dat)

variable (m : (ℓ : Loc nD τ sig) → Buf (Elt Ideal) ℓ) (ρ : Dev nD → PrngReg)

/-! ## The first region's entry contents -/

/-- The image array at the first region's entry: the batch argument with its unit axis dropped. -/
theorem V1_v0_apply (c : Dev nD) (B : Fin 4096) (h w : Fin 28) :
    (V1 m ρ c main_v0 : S4096x28x28.Idx → EReal) (ix3 B h w)
      = (m ((c : Thread nD τ).loc main_arg0) : S4096x1x28x28.Idx → EReal) (ix4 B 0 h w) := by
  have e : (V1 m ρ c main_v0 : S4096x28x28.Idx → EReal)
      = shapeCast S4096x28x28 (m ((c : Thread nD τ).loc main_arg0) : S4096x1x28x28.Idx → EReal) Facts₀.shapeCasts_S4096x1x28x28_S4096x28x28 := by
    dsimp only [V1, W1, hostOps0]; after_results; rfl
  rw [e]
  refine shapeCast_apply _ _ _ _ ?_
  show (S4096x1x28x28.rowMajor (ix4 B 0 h w)).val = (S4096x28x28.rowMajor (ix3 B h w)).val
  rw [Shape.rowMajor_val_four, Shape.rowMajor_val_three]
  show ((B.val * 1 + 0) * 28 + h.val) * 28 + w.val = (B.val * 28 + h.val) * 28 + w.val
  omega

/-! An argument the reshape does not write is, at the first region's entry, as launched. -/
theorem V1_arg1 (c : Dev nD) : V1 m ρ c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V1_arg2 (c : Dev nD) : V1 m ρ c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V1_arg3 (c : Dev nD) : V1 m ρ c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))
theorem V1_arg4 (c : Dev nD) : V1 m ρ c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    exact StableHlo.devRef_ne_of_ne (by decide)))
theorem V1_arg5 (c : Dev nD) : V1 m ρ c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    exact StableHlo.devRef_ne_of_ne (by decide)))
theorem V1_arg6 (c : Dev nD) : V1 m ρ c main_arg6 = m ((c : Thread nD τ).loc main_arg6) :=
  StableHlo.after_of_forall_not_mem (b := Proc.devRef .tc main_arg6) _ _ (List.forall_iff_forall_mem.mp (by
    simp only [hostOps0, List.Forall, StableHlo.reshape_writes, Finset.mem_singleton]
    exact StableHlo.devRef_ne_of_ne (by decide)))
theorem V1_arg7 (c : Dev nD) : V1 m ρ c main_arg7 = m ((c : Thread nD τ).loc main_arg7) :=
  StableHlo.after_of_forall_not_mem (b := Proc.devRef .tc main_arg7) _ _ (List.forall_iff_forall_mem.mp (by
    simp only [hostOps0, List.Forall, StableHlo.reshape_writes, Finset.mem_singleton]
    exact StableHlo.devRef_ne_of_ne (by decide)))
theorem V1_arg8 (c : Dev nD) : V1 m ρ c main_arg8 = m ((c : Thread nD τ).loc main_arg8) :=
  StableHlo.after_of_forall_not_mem (b := Proc.devRef .tc main_arg8) _ _ (List.forall_iff_forall_mem.mp (by
    simp only [hostOps0, List.Forall, StableHlo.reshape_writes, Finset.mem_singleton]
    exact StableHlo.devRef_ne_of_ne (by decide)))
theorem V1_arg9 (c : Dev nD) : V1 m ρ c main_arg9 = m ((c : Thread nD τ).loc main_arg9) :=
  StableHlo.after_of_forall_not_mem (b := Proc.devRef .tc main_arg9) _ _ (List.forall_iff_forall_mem.mp (by
    simp only [hostOps0, List.Forall, StableHlo.reshape_writes, Finset.mem_singleton]
    exact StableHlo.devRef_ne_of_ne (by decide)))
theorem V1_arg10 (c : Dev nD) : V1 m ρ c main_arg10 = m ((c : Thread nD τ).loc main_arg10) :=
  StableHlo.after_of_forall_not_mem (b := Proc.devRef .tc main_arg10) _ _ (List.forall_iff_forall_mem.mp (by
    simp only [hostOps0, List.Forall, StableHlo.reshape_writes, Finset.mem_singleton]
    exact StableHlo.devRef_ne_of_ne (by decide)))

/-! ## The block index of every window at every grid point, decided once over each grid -/

/-- First region: the image window and the output window move one block of eight images per point; the
    weight windows stay at block zero. -/
theorem idx0 : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Second region: the feature window and the output window move one block of eight rows per point; the
    weight windows stay at block zero. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem lt0 (t : Fin cfg0.N) : t.val < 512 := (show cfg0.N = 512 from N_0) ▸ t.isLt
theorem lt1 (t : Fin cfg1.N) : t.val < 512 := (show cfg1.N = 512 from N_1) ▸ t.isLt

/-! ## The first region's input blocks -/

/-- Block `t` of the image window holds images `8 t … 8 t + 7`. -/
theorem iblk0_0_apply (c : Dev nD) (t : Fin cfg0.N) (b : Fin 8) (h w : Fin 28) :
    (iblk0 (V1 m ρ) c 0 t : S8x28x28.Idx → EReal) (ix3 b h w)
      = (m ((c : Thread nD τ).loc main_arg0) : S4096x1x28x28.Idx → EReal)
          (ix4 ⟨8 * t.val + b.val, by have := lt0 t; omega⟩ 0 h w) := by
  have ht := lt0 t
  obtain ⟨e0, e1, e2, -⟩ := idx0 t
  rw [← V1_v0_apply m ρ c ⟨8 * t.val + b.val, by omega⟩ h w]
  unfold iblk0
  rw [View.read_apply]
  show V1 m ρ c main_v0 _ = V1 m ρ c main_v0 _
  congr 1
  funext a
  apply Fin.ext
  match a with
  | ⟨0, _⟩ => show win0_0.index t (0 : Fin 3) * 8 + 1 * b.val = 8 * t.val + b.val; omega
  | ⟨1, _⟩ => show win0_0.index t (1 : Fin 3) * 28 + 1 * h.val = h.val; omega
  | ⟨2, _⟩ => show win0_0.index t (2 : Fin 3) * 28 + 1 * w.val = w.val; omega

/-! A weight window's one block is the whole argument. -/
theorem iblk0_1_eq (c : Dev nD) (t : Fin cfg0.N) :
    (iblk0 (V1 m ρ) c 1 t : S84x896.Idx → EReal) = m ((c : Thread nD τ).loc main_arg1) := by
  obtain ⟨-, -, -, e0, e1, -⟩ := idx0 t
  funext y
  unfold iblk0
  rw [View.read_apply]
  show V1 m ρ c main_arg1 _ = _
  rw [V1_arg1]
  congr 1
  funext a
  apply Fin.ext
  match a with
  | ⟨0, _⟩ => show win0_1.index t (0 : Fin 2) * 84 + 1 * (y 0).val = (y 0).val; omega
  | ⟨1, _⟩ => show win0_1.index t (1 : Fin 2) * 896 + 1 * (y 1).val = (y 1).val; omega
theorem iblk0_2_eq (c : Dev nD) (t : Fin cfg0.N) :
    (iblk0 (V1 m ρ) c 2 t : S1x896.Idx → EReal) = m ((c : Thread nD τ).loc main_arg2) := by
  obtain ⟨-, -, -, -, -, e0, e1, -⟩ := idx0 t
  funext y
  unfold iblk0
  rw [View.read_apply]
  show V1 m ρ c main_arg2 _ = _
  rw [V1_arg2]
  congr 1
  funext a
  apply Fin.ext
  match a with
  | ⟨0, _⟩ => show win0_2.index t (0 : Fin 2) * 1 + 1 * (y 0).val = (y 0).val; omega
  | ⟨1, _⟩ => show win0_2.index t (1 : Fin 2) * 896 + 1 * (y 1).val = (y 1).val; omega
theorem iblk0_3_eq (c : Dev nD) (t : Fin cfg0.N) :
    (iblk0 (V1 m ρ) c 3 t : S1344x768.Idx → EReal) = m ((c : Thread nD τ).loc main_arg3) := by
  obtain ⟨-, -, -, -, -, -, -, e0, e1, -⟩ := idx0 t
  funext y
  unfold iblk0
  rw [View.read_apply]
  show V1 m ρ c main_arg3 _ = _
  rw [V1_arg3]
  congr 1
  funext a
  apply Fin.ext
  match a with
  | ⟨0, _⟩ => show win0_3.index t (0 : Fin 2) * 1344 + 1 * (y 0).val = (y 0).val; omega
  | ⟨1, _⟩ => show win0_3.index t (1 : Fin 2) * 768 + 1 * (y 1).val = (y 1).val; omega
theorem iblk0_4_eq (c : Dev nD) (t : Fin cfg0.N) :
    (iblk0 (V1 m ρ) c 4 t : S1x768.Idx → EReal) = m ((c : Thread nD τ).loc main_arg4) := by
  obtain ⟨-, -, -, -, -, -, -, -, -, e0, e1, -⟩ := idx0 t
  funext y
  unfold iblk0
  rw [View.read_apply]
  show V1 m ρ c main_arg4 _ = _
  rw [V1_arg4]
  congr 1
  funext a
  apply Fin.ext
  match a with
  | ⟨0, _⟩ => show win0_4.index t (0 : Fin 2) * 1 + 1 * (y 0).val = (y 0).val; omega
  | ⟨1, _⟩ => show win0_4.index t (1 : Fin 2) * 768 + 1 * (y 1).val = (y 1).val; omega

/-! ## The first region's output array -/

/-- The feature array: row `B` holds the convolution stage's 2304 features of image `B`. -/
def featArr (c : Dev nD) : S4096x2304.Idx → EReal := fun i =>
  Spec.featR (Spec.imgOf (m ((c : Thread nD τ).loc main_arg0)) ⟨(i 0).val, idx2_lt0 i⟩) (Spec.mat (m ((c : Thread nD τ).loc main_arg1))) (Spec.row (m ((c : Thread nD τ).loc main_arg2)))
    (Spec.mat (m ((c : Thread nD τ).loc main_arg3))) (Spec.row (m ((c : Thread nD τ).loc main_arg4))) ⟨(i 1).val, idx2_lt1 i⟩

/-- Every row of the feature array is in some point's block: row `r` in block `r / 8`. -/
theorem cover0 (i : S4096x2304.Idx) :
    ∃ t : Fin cfg0.N, (cfg0.win 5).flush t = true ∧ i ∈ ((cfg0.win 5).blk t).view.set := by
  have hi0 : (i 0).val < 4096 := idx2_lt0 i
  have hi1 : (i 1).val < 2304 := idx2_lt1 i
  have hN : cfg0.N = 512 := N_0
  have key : ∀ t : Fin cfg0.N, t.val = (i 0).val / 8 → i ∈ ((cfg0.win 5).blk t).view.set := by
    intro t ht
    obtain ⟨-, -, -, -, -, -, -, -, -, -, -, e0, e1⟩ := idx0 t
    show i ∈ ((View.whole main_v1).slice (win0_5.rect t)).set
    rw [View.set_slice_whole, Rect.mem_set_unit]
    intro a
    match a with
    | ⟨0, _⟩ =>
      show win0_5.index t (0 : Fin 2) * 8 ≤ (i 0).val ∧ (i 0).val < win0_5.index t (0 : Fin 2) * 8 + 8
      omega
    | ⟨1, _⟩ =>
      show win0_5.index t (1 : Fin 2) * 2304 ≤ (i 1).val ∧ (i 1).val < win0_5.index t (1 : Fin 2) * 2304 + 2304
      omega
  exact ⟨⟨(i 0).val / 8, by rw [hN]; omega⟩, flush0_5 _, key _ rfl⟩

section Conv
variable (hconv : ∀ (x0 : Vec Ideal S8x28x28 .f32) (x1 : Vec Ideal S84x896 .f32) (x2 : Vec Ideal S1x896 .f32)
    (x3 : Vec Ideal S1344x768 .f32) (x4 : Vec Ideal S1x768 .f32) (b : Fin 8) (f : Fin 2304),
    Gen.out0_5 x0 x1 x2 x3 x4 (ix2 b f)
      = Spec.featR (fun h w => x0 (ix3 b h w)) (fun k l => x1 (ix2 k l)) (fun l => x2 (ix2 0 l))
          (fun k l => x3 (ix2 k l)) (fun l => x4 (ix2 0 l)) f)
include hconv

/-- The first region's payload on the blocks of point `t`, at image `b` of the block and feature `f`. -/
theorem conv_point (c : Dev nD) (t : Fin cfg0.N) (b : Fin 8) (f : Fin 2304) :
    (out0_5 (F := Ideal) (iblk0 (V1 m ρ) c 0 t) (iblk0 (V1 m ρ) c 1 t) (iblk0 (V1 m ρ) c 2 t)
        (iblk0 (V1 m ρ) c 3 t) (iblk0 (V1 m ρ) c 4 t) (ix2 b f) : EReal)
      = featArr m c (ix2 ⟨8 * t.val + b.val, by have := lt0 t; omega⟩ f) := by
  refine (hconv _ _ _ _ _ b f).trans ?_
  rw [iblk0_1_eq, iblk0_2_eq, iblk0_3_eq, iblk0_4_eq]
  unfold featArr Spec.imgOf Spec.mat Spec.row
  congr 1
  funext h w
  exact iblk0_0_apply m ρ c t b h w

/-- What point `t` writes back is block `t` of the feature array. -/
theorem flushed0_5_eq (c : Dev nD) (t : Fin cfg0.N) :
    (dat0 (V1 m ρ) c).flushed 5 t = ((cfg0.win 5).blk t).view.read (Elt Ideal) (featArr m c) := by
  have ht := lt0 t
  obtain ⟨-, -, -, -, -, -, -, -, -, -, -, e0, e1⟩ := idx0 t
  show (cfg0.win 5).cut (grid0.coords t) ((dat0 (V1 m ρ) c).after 5 t) = _
  rw [after0_5]
  funext j
  rw [View.read_apply]
  show (out0_5 (F := Ideal) _ _ _ _ _ (j : S8x2304.Idx) : EReal) = featArr m c _
  refine (congrArg _ (eq_ix2 (j : S8x2304.Idx))).trans ?_
  refine (conv_point m ρ hconv c t (j 0) (j 1)).trans ?_
  refine congrArg (featArr m c) (funext fun a => Fin.ext ?_)
  match a with
  | ⟨0, _⟩ => show 8 * t.val + (j 0).val = win0_5.index t (0 : Fin 2) * 8 + 1 * (j 0).val; omega
  | ⟨1, _⟩ => show (j 1).val = win0_5.index t (1 : Fin 2) * 2304 + 1 * (j 1).val; omega

/-- The first region leaves the feature array. -/
theorem final0 (c : Dev nD) : (dat0 (V1 m ρ) c).arrAt 5 cfg0.N = featArr m c :=
  (dat0 (V1 m ρ) c).arrAt_eq_of_cover 5 (featArr m c) (fun t _ => flushed0_5_eq m ρ hconv c t) cover0

end Conv

/-! ## The second region -/

/-- An argument neither the reshape nor the first region writes is, at the second region's entry, as launched. -/
theorem V2_arg5 (c : Dev nD) : V2 m ρ c main_arg5 = m ((c : Thread nD τ).loc main_arg5) :=
  (W2_of_ne m ρ c main_arg5 (by decide)).trans (V1_arg5 m ρ c)
theorem V2_arg6 (c : Dev nD) : V2 m ρ c main_arg6 = m ((c : Thread nD τ).loc main_arg6) :=
  (W2_of_ne m ρ c main_arg6 (by decide)).trans (V1_arg6 m ρ c)
theorem V2_arg7 (c : Dev nD) : V2 m ρ c main_arg7 = m ((c : Thread nD τ).loc main_arg7) :=
  (W2_of_ne m ρ c main_arg7 (by decide)).trans (V1_arg7 m ρ c)
theorem V2_arg8 (c : Dev nD) : V2 m ρ c main_arg8 = m ((c : Thread nD τ).loc main_arg8) :=
  (W2_of_ne m ρ c main_arg8 (by decide)).trans (V1_arg8 m ρ c)
theorem V2_arg9 (c : Dev nD) : V2 m ρ c main_arg9 = m ((c : Thread nD τ).loc main_arg9) :=
  (W2_of_ne m ρ c main_arg9 (by decide)).trans (V1_arg9 m ρ c)
theorem V2_arg10 (c : Dev nD) : V2 m ρ c main_arg10 = m ((c : Thread nD τ).loc main_arg10) :=
  (W2_of_ne m ρ c main_arg10 (by decide)).trans (V1_arg10 m ρ c)

/-! A weight window's one block is the whole argument. -/
theorem iblk1_1_eq (c : Dev nD) (t : Fin cfg1.N) :
    (iblk1 (V2 m ρ) c 1 t : S2304x640.Idx → EReal) = m ((c : Thread nD τ).loc main_arg5) := by
  obtain ⟨-, -, e0, e1, -⟩ := idx1 t
  funext y
  unfold iblk1
  rw [View.read_apply]
  show V2 m ρ c main_arg5 _ = _
  rw [V2_arg5]
  congr 1
  funext a
  apply Fin.ext
  match a with
  | ⟨0, _⟩ => show win1_1.index t (0 : Fin 2) * 2304 + 1 * (y 0).val = (y 0).val; omega
  | ⟨1, _⟩ => show win1_1.index t (1 : Fin 2) * 640 + 1 * (y 1).val = (y 1).val; omega
theorem iblk1_2_eq (c : Dev nD) (t : Fin cfg1.N) :
    (iblk1 (V2 m ρ) c 2 t : S1x640.Idx → EReal) = m ((c : Thread nD τ).loc main_arg6) := by
  obtain ⟨-, -, -, -, e0, e1, -⟩ := idx1 t
  funext y
  unfold iblk1
  rw [View.read_apply]
  show V2 m ρ c main_arg6 _ = _
  rw [V2_arg6]
  congr 1
  funext a
  apply Fin.ext
  match a with
  | ⟨0, _⟩ => show win1_2.index t (0 : Fin 2) * 1 + 1 * (y 0).val = (y 0).val; omega
  | ⟨1, _⟩ => show win1_2.index t (1 : Fin 2) * 640 + 1 * (y 1).val = (y 1).val; omega
theorem iblk1_3_eq (c : Dev nD) (t : Fin cfg1.N) :
    (iblk1 (V2 m ρ) c 3 t : S640x128.Idx → EReal) = m ((c : Thread nD τ).loc main_arg7) := by
  obtain ⟨-, -, -, -, -, -, e0, e1, -⟩ := idx1 t
  funext y
  unfold iblk1
  rw [View.read_apply]
  show V2 m ρ c main_arg7 _ = _
  rw [V2_arg7]
  congr 1
  funext a
  apply Fin.ext
  match a with
  | ⟨0, _⟩ => show win1_3.index t (0 : Fin 2) * 640 + 1 * (y 0).val = (y 0).val; omega
  | ⟨1, _⟩ => show win1_3.index t (1 : Fin 2) * 128 + 1 * (y 1).val = (y 1).val; omega
theorem iblk1_4_eq (c : Dev nD) (t : Fin cfg1.N) :
    (iblk1 (V2 m ρ) c 4 t : S1x128.Idx → EReal) = m ((c : Thread nD τ).loc main_arg8) := by
  obtain ⟨-, -, -, -, -, -, -, -, e0, e1, -⟩ := idx1 t
  funext y
  unfold iblk1
  rw [View.read_apply]
  show V2 m ρ c main_arg8 _ = _
  rw [V2_arg8]
  congr 1
  funext a
  apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega
theorem iblk1_5_eq (c : Dev nD) (t : Fin cfg1.N) :
    (iblk1 (V2 m ρ) c 5 t : S128x10.Idx → EReal) = m ((c : Thread nD τ).loc main_arg9) := by
  obtain ⟨-, -, -, -, -, -, -, -, -, -, e0, e1, -⟩ := idx1 t
  funext y
  unfold iblk1
  rw [View.read_apply]
  show V2 m ρ c main_arg9 _ = _
  rw [V2_arg9]
  congr 1
  funext a
  apply Fin.ext
  match a with
  | ⟨0, _⟩ => show win1_5.index t (0 : Fin 2) * 128 + 1 * (y 0).val = (y 0).val; omega
  | ⟨1, _⟩ => show win1_5.index t (1 : Fin 2) * 10 + 1 * (y 1).val = (y 1).val; omega
theorem iblk1_6_eq (c : Dev nD) (t : Fin cfg1.N) :
    (iblk1 (V2 m ρ) c 6 t : S1x10.Idx → EReal) = m ((c : Thread nD τ).loc main_arg10) := by
  obtain ⟨-, -, -, -, -, -, -, -, -, -, -, -, e0, e1, -⟩ := idx1 t
  funext y
  unfold iblk1
  rw [View.read_apply]
  show V2 m ρ c main_arg10 _ = _
  rw [V2_arg10]
  congr 1
  funext a
  apply Fin.ext
  match a with
  | ⟨0, _⟩ => show win1_6.index t (0 : Fin 2) * 1 + 1 * (y 0).val = (y 0).val; omega
  | ⟨1, _⟩ => show win1_6.index t (1 : Fin 2) * 10 + 1 * (y 1).val = (y 1).val; omega

/-- The result array: row `B` holds the ten log-softmax scores of image `B`. -/
abbrev netArr (c : Dev nD) : S4096x10.Idx → EReal :=
  Spec.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- Every row of the result array is in some point's block: row `r` in block `r / 8`. -/
theorem cover1 (i : S4096x10.Idx) :
    ∃ t : Fin cfg1.N, (cfg1.win 7).flush t = true ∧ i ∈ ((cfg1.win 7).blk t).view.set := by
  have hi0 : (i 0).val < 4096 := idx2_lt0 i
  have hi1 : (i 1).val < 10 := idx2_lt1 i
  have hN : cfg1.N = 512 := N_1
  have key : ∀ t : Fin cfg1.N, t.val = (i 0).val / 8 → i ∈ ((cfg1.win 7).blk t).view.set := by
    intro t ht
    obtain ⟨-, -, -, -, -, -, -, -, -, -, -, -, -, -, e0, e1⟩ := idx1 t
    show i ∈ ((View.whole main_v2).slice (win1_7.rect t)).set
    rw [View.set_slice_whole, Rect.mem_set_unit]
    intro a
    match a with
    | ⟨0, _⟩ =>
      show win1_7.index t (0 : Fin 2) * 8 ≤ (i 0).val ∧ (i 0).val < win1_7.index t (0 : Fin 2) * 8 + 8
      omega
    | ⟨1, _⟩ =>
      show win1_7.index t (1 : Fin 2) * 10 ≤ (i 1).val ∧ (i 1).val < win1_7.index t (1 : Fin 2) * 10 + 10
      omega
  exact ⟨⟨(i 0).val / 8, by rw [hN]; omega⟩, flush1_7 _, key _ rfl⟩

section Net
variable (hconv : ∀ (x0 : Vec Ideal S8x28x28 .f32) (x1 : Vec Ideal S84x896 .f32) (x2 : Vec Ideal S1x896 .f32)
    (x3 : Vec Ideal S1344x768 .f32) (x4 : Vec Ideal S1x768 .f32) (b : Fin 8) (f : Fin 2304),
    Gen.out0_5 x0 x1 x2 x3 x4 (ix2 b f)
      = Spec.featR (fun h w => x0 (ix3 b h w)) (fun k l => x1 (ix2 k l)) (fun l => x2 (ix2 0 l))
          (fun k l => x3 (ix2 k l)) (fun l => x4 (ix2 0 l)) f)
  (hmlp : ∀ (x0 : Vec Ideal S8x2304 .f32) (x1 : Vec Ideal S2304x640 .f32) (x2 : Vec Ideal S1x640 .f32)
    (x3 : Vec Ideal S640x128 .f32) (x4 : Vec Ideal S1x128 .f32) (x5 : Vec Ideal S128x10 .f32)
    (x6 : Vec Ideal S1x10 .f32) (b : Fin 8) (j : Fin 10),
    Gen.out1_7 x0 x1 x2 x3 x4 x5 x6 (ix2 b j)
      = Spec.logits (fun f => x0 (ix2 b f)) (fun k j => x1 (ix2 k j)) (fun j => x2 (ix2 0 j))
          (fun k j => x3 (ix2 k j)) (fun j => x4 (ix2 0 j)) (fun k j => x5 (ix2 k j)) (fun j => x6 (ix2 0 j)) j)
include hconv

/-- The feature array at the second region's entry is what the first region left. -/
theorem V2_v1 (c : Dev nD) : (V2 m ρ c main_v1 : S4096x2304.Idx → EReal) = featArr m c :=
  (W2_arr m ρ c 5).trans (final0 m ρ hconv c)

/-- Block `t` of the feature window holds rows `8 t … 8 t + 7` of the feature array. -/
theorem iblk1_0_apply (c : Dev nD) (t : Fin cfg1.N) (b : Fin 8) (f : Fin 2304) :
    (iblk1 (V2 m ρ) c 0 t : S8x2304.Idx → EReal) (ix2 b f)
      = featArr m c (ix2 ⟨8 * t.val + b.val, by have := lt1 t; omega⟩ f) := by
  have ht := lt1 t
  obtain ⟨e0, e1, -⟩ := idx1 t
  unfold iblk1
  rw [View.read_apply]
  show V2 m ρ c main_v1 _ = _
  rw [V2_v1 m ρ hconv c]
  congr 1
  funext a
  apply Fin.ext
  match a with
  | ⟨0, _⟩ => show win1_0.index t (0 : Fin 2) * 8 + 1 * b.val = 8 * t.val + b.val; omega
  | ⟨1, _⟩ => show win1_0.index t (1 : Fin 2) * 2304 + 1 * f.val = f.val; omega

include hmlp

/-- The second region's payload on the blocks of point `t`, at row `b` of the block and class `j`. -/
theorem mlp_point (c : Dev nD) (t : Fin cfg1.N) (b : Fin 8) (j : Fin 10) :
    (out1_7 (F := Ideal) (iblk1 (V2 m ρ) c 0 t) (iblk1 (V2 m ρ) c 1 t) (iblk1 (V2 m ρ) c 2 t) (iblk1 (V2 m ρ) c 3 t)
        (iblk1 (V2 m ρ) c 4 t) (iblk1 (V2 m ρ) c 5 t) (iblk1 (V2 m ρ) c 6 t) (ix2 b j) : EReal)
      = netArr m c (ix2 ⟨8 * t.val + b.val, by have := lt1 t; omega⟩ j) := by
  refine (hmlp _ _ _ _ _ _ _ b j).trans ?_
  rw [iblk1_1_eq, iblk1_2_eq, iblk1_3_eq, iblk1_4_eq, iblk1_5_eq, iblk1_6_eq]
  unfold netArr Spec.net Spec.netRow Spec.mat Spec.row
  congr 1
  funext f
  exact iblk1_0_apply m ρ hconv c t b f

/-- What point `t` writes back is block `t` of the result array. -/
theorem flushed1_7_eq (c : Dev nD) (t : Fin cfg1.N) :
    (dat1 (V2 m ρ) c).flushed 7 t = ((cfg1.win 7).blk t).view.read (Elt Ideal) (netArr m c) := by
  have ht := lt1 t
  obtain ⟨-, -, -, -, -, -, -, -, -, -, -, -, -, -, e0, e1⟩ := idx1 t
  show (cfg1.win 7).cut (grid1.coords t) ((dat1 (V2 m ρ) c).after 7 t) = _
  rw [after1_7]
  funext j
  rw [View.read_apply]
  show (out1_7 (F := Ideal) _ _ _ _ _ _ _ (j : S8x10.Idx) : EReal) = netArr m c _
  refine (congrArg _ (eq_ix2 (j : S8x10.Idx))).trans ?_
  refine (mlp_point m ρ hconv hmlp c t (j 0) (j 1)).trans ?_
  refine congrArg (netArr m c) (funext fun a => Fin.ext ?_)
  match a with
  | ⟨0, _⟩ => show 8 * t.val + (j 0).val = win1_7.index t (0 : Fin 2) * 8 + 1 * (j 0).val; omega
  | ⟨1, _⟩ => show (j 1).val = win1_7.index t (1 : Fin 2) * 10 + 1 * (j 1).val; omega

/-- THE RESULT: the second region leaves, at the result array, the network of the eleven arguments. -/
theorem result_eq (c : Dev nD) :
    ((dat1 (V2 m ρ) c).arrAt 7 cfg1.N : S4096x10.Idx → EReal)
      = Spec.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (dat1 (V2 m ρ) c).arrAt_eq_of_cover 7 (netArr m c) (fun t _ => flushed1_7_eq m ρ hconv hmlp c t) cover1

/-- THE RUN, READ: every final state holds the network of the arguments at the result array, and the arguments as
    launched. -/
theorem run_value : θ_run defs (onTc (τ := τ) (main (F := Ideal))) ⟨m, fun _ => 0, ρ⟩ (fun r => ∀ c : Dev nD,
      r.2.mem ((c.tc : Thread nD τ).loc main_v2) = Spec.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m ρ hconv hmlp c), (h c).2⟩) (run_result m ρ)

end Net

end Cert.ReferenceIdeal.Hand

end
-- ==== Proof.lean ====
/-
  The certificate's claims, assembled.

  Both programs compute, for every image of the batch on its own, a convolution stage (two banded matrix
  products, each followed by a shift, a rectifier and a 2 × 2 maximum pool), three affine layers and a
  log-softmax. The kernel fuses everything into one region over blocks of 64 images and uses weight matrices
  whose columns were permuted beforehand (even lane groups in the lower half, odd ones in the upper half, zero
  padding to aligned widths), so that each pool is the maximum of two half-lane slices; the reference runs two
  regions over blocks of 8 images with the lanes in column-major order. Over the extended reals the two agree:
  a permuted column is the same sum, a padded row or column contributes `x * 0 = 0` to a sum, the pool pairs
  the same two terms, and a sum does not depend on how it is blocked. No finiteness of the inputs is used.

  The three frames: the kernel program's (at both instances) by the pipeline's frame theorem over the body's
  run; the reference's is generated. The value claim: each program's run names its result as `Cert.Spec.net`
  of its own arguments, and the memories agree on the arguments.
-/
import proofs.«171558_g2000600275687624_pallasbulk_458_2_alg».proof.Defs
import proofs.«171558_g2000600275687624_pallasbulk_458_2_alg».proof.Proof.Gen.Pre_finite_inputs
import proofs.«171558_g2000600275687624_pallasbulk_458_2_alg».proof.Proof.KFrameB
import proofs.«171558_g2000600275687624_pallasbulk_458_2_alg».proof.Proof.KValue
import proofs.«171558_g2000600275687624_pallasbulk_458_2_alg».proof.Proof.RPayConv
import proofs.«171558_g2000600275687624_pallasbulk_458_2_alg».proof.Proof.RPayMlp
import proofs.«171558_g2000600275687624_pallasbulk_458_2_alg».proof.Proof.RefValue
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => Cert.ReferenceIdeal.Gen.frame m ρ,
  trivial,
  fun m ρ m' ρ' _ hagree =>
    ⟨fun c => Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
      Cert.KernelIdeal.Hand.run_value m ρ,
      (θ_run Cert.ReferenceIdeal.defs _ _).mono
        (fun r h c => ⟨by
            rw [(h c).1, (hagree c).1, (hagree c).2.1, (hagree c).2.2.1, (hagree c).2.2.2.1, (hagree c).2.2.2.2.1,
              (hagree c).2.2.2.2.2.1, (hagree c).2.2.2.2.2.2.1, (hagree c).2.2.2.2.2.2.2.1, (hagree c).2.2.2.2.2.2.2.2.1,
              (hagree c).2.2.2.2.2.2.2.2.2.1, (hagree c).2.2.2.2.2.2.2.2.2.2], (h c).2⟩)
        (Cert.ReferenceIdeal.Hand.run_value m' ρ' Cert.ReferenceIdeal.Hand.out0_5_apply Cert.ReferenceIdeal.Hand.out1_7_apply)⟩⟩

end Cert.Proof

end
